-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S128 .f32) (main_arg7 : FVec F S128x10 .f32) (main_arg8 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg7
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x10 .f32) (main_arg8 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x128 : Shape := ⟨2, ![1, 128]⟩
abbrev S1x10 : Shape := ⟨2, ![1, 10]⟩
abbrev S10000x128 : Shape := ⟨2, ![10000, 128]⟩
abbrev S10000x1 : Shape := ⟨2, ![10000, 1]⟩
abbrev S1700000x128 : Shape := ⟨2, ![1700000, 128]⟩
abbrev S64x10 : Shape := ⟨2, ![64, 10]⟩
abbrev S64x128 : Shape := ⟨2, ![64, 128]⟩
abbrev S64x1 : Shape := ⟨2, ![64, 1]⟩
abbrev S10000x64 : Shape := ⟨2, ![10000, 64]⟩
abbrev S64 : Shape := ⟨1, ![64]⟩

abbrev nBuf : Space → Nat
  | .hbm => 64
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x10, .f32⟩
  | .hbm, ⟨8, _⟩ => ⟨S10, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x1, .i32⟩
  | .hbm, ⟨32, _⟩ => ⟨S1x128, .f32⟩
  | .hbm, ⟨33, _⟩ => ⟨S1x128, .f32⟩
  | .hbm, ⟨34, _⟩ => ⟨S1x10, .f32⟩
  | .hbm, ⟨35, _⟩ => ⟨S100000x128, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000x128, .f32⟩
  | .hbm, ⟨45, _⟩ => ⟨S_, .f32⟩
  | .hbm, ⟨46, _⟩ => ⟨S100000x128, .f32⟩
  | .hbm, ⟨47, _⟩ => ⟨S1700000x1, .i32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S64x10, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S128x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x1, .f32⟩
  | .local _ .vmem, ⟨18, _⟩ => ⟨S10000x1, .f32⟩
  | .local _ .vmem, ⟨19, _⟩ => ⟨S1x128, .f32⟩
  | .local _ .vmem, ⟨20, _⟩ => ⟨S10000x1, .i32⟩
  | .local _ .vmem, ⟨21, _⟩ => ⟨S10000x1, .i32⟩
  | .local _ .vmem, ⟨22, _⟩ => ⟨S128x10, .f32⟩
  | .local _ .vmem, ⟨23, _⟩ => ⟨S1x10, .f32⟩
  | .local _ .vmem, ⟨24, _⟩ => ⟨S64x10, .f32⟩
  | .local _ .vmem, ⟨25, _⟩ => ⟨S64x128, .f32⟩
  | .local _ .vmem, ⟨26, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_scratch0 : Ref sig .tc := ⟨.vmem, 25, rfl⟩
abbrev cc2_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem6_0 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v35 : BitVec 1 := Scalar.cmpi .eq arg0 c9_i32
  let v36 : BitVec 32 := Scalar.extui v35
  let c0_i32_18 : BitVec 32 := 0#32
  let v37 : BitVec 1 := Scalar.cmpi .ne v36 c0_i32_18
  v37

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  shapeCasts_S128_S1x128 : S128.ShapeCasts S1x128
  shapeCasts_S10_S1x10 : S10.ShapeCasts S1x10
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S10000x64_d1_w32 : S10000x64.Iotas .tc 32 [1]
  broadcasts_S10000x1_S10000x64 : S10000x1.Broadcasts S10000x64
  natLt_1_32 : 1 < 32
  reduces_S10000x64_S64 : S10000x64.Reduces [0] S64
  shapeCasts_S64_S64x1 : S64.ShapeCasts S64x1
  broadcasts_S64x1_S64x128 : S64x1.Broadcasts S64x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S100000_S1700000x1_S1700000_n_0_0_1_wf : ScatterDims.WF S100000 S1700000x1 S1700000 [] [0] [0] 1
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x64_S10000x128_S64x128_0_0_1_1_n_n_wf : DotDims.WF S10000x64 S10000x128 S64x128 [0] [0] [1] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S100000x1.size a
  hwx2_3 : ∀ i : grid2.Coords, EltTy.bits .i32 = 32 ∨ (Rect.block (s := S100000x1) S10000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x10.size a ≤ S128x10.size a
  hwx2_4 : ∀ i : grid2.Coords, EltTy.bits .f32 = 32 ∨ (Rect.block (s := S128x10) S128x10.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x10.size a ≤ S1x10.size a
  hwx2_5 : ∀ i : grid2.Coords, EltTy.bits .f32 = 32 ∨ (Rect.block (s := S1x10) S1x10.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x10.size a ≤ S64x10.size a
  hwx2_6 : ∀ i : grid2.Coords, EltTy.bits .f32 = 32 ∨ (Rect.block (s := S64x10) S64x10.size (cc2_transform_6 i) (hinb2_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x64_S10000x128_S64x128_0_0_1_1_n_n : DotDims S10000x64 S10000x128 S64x128 where
  lhsContracting := [0]
  rhsContracting := [0]
  lhsNonContracting := [1]
  rhsNonContracting := [1]
  lhsBatch := []
  rhsBatch := []
  wf := dot_S10000x64_S10000x128_S64x128_0_0_1_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S10000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S1x10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S64x10.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x10, .f32⟩
  | 8 => ⟨S10, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S100000x128, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000, .f32⟩
  | 91 => ⟨S1700000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000x128, .f32⟩
  | 101 => ⟨S1700000x1, .f32⟩
  | 102 => ⟨S1700000x128, .f32⟩
  | 103 => ⟨S1700000x128, .f32⟩
  | 104 => ⟨S_, .f32⟩
  | 105 => ⟨S100000x128, .f32⟩
  | 106 => ⟨S1700000x1, .i32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S_, .f32⟩
  | 115 => ⟨S64x128, .f32⟩
  | 116 => ⟨S100000x1, .i32⟩
  | 117 => ⟨S64x128, .f32⟩
  | 118 => ⟨S_, .f32⟩
  | 119 => ⟨S100000, .f32⟩
  | 120 => ⟨S_, .f32⟩
  | 121 => ⟨S64, .f32⟩
  | 122 => ⟨S100000x1, .i32⟩
  | 123 => ⟨S64, .f32⟩
  | 124 => ⟨S_, .f32⟩
  | 125 => ⟨S64, .f32⟩
  | 126 => ⟨S64, .f32⟩
  | 127 => ⟨S64x1, .f32⟩
  | _ => ⟨S100000x128, .f32⟩

abbrev hbmTy0_1 (i : Nat) : BufTy := match i % 128 with
  | 0 => ⟨S64x128, .f32⟩
  | 1 => ⟨S64x128, .f32⟩
  | 2 => ⟨S64x10, .f32⟩
  | 3 => ⟨S1x10, .f32⟩
  | 4 => ⟨S64x10, .f32⟩
  | 5 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_call2_cst : Ref sig .tc := ⟨.hbm, 111, rfl⟩
abbrev main_call2_v0 : Ref sig .tc := ⟨.hbm, 112, rfl⟩
abbrev main_v80 : Ref sig .tc := ⟨.hbm, 113, rfl⟩
abbrev main_cst_16 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_17 : Ref sig .tc := ⟨.hbm, 118, rfl⟩
abbrev main_v84 : Ref sig .tc := ⟨.hbm, 119, rfl⟩
abbrev main_cst_18 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_19 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x10_S64x10_1_0_0_1_n_n_wf : DotDims.WF S64x128 S128x10 S64x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.K.Reg0.lean ====
/-
  The first pallas_call (one grid point per tile of 10000 node rows): at a grid point the body multiplies the tile of the
  node features by the weight matrix and scales row r of the product by the r-th entry of the tile of the column of
  inverse square-root degrees.  Stated here at any contents V of the core's buffers when the call is entered: the
  blocks the windows stage, what the body's one store leaves in the output window's buffer, the pipeline's proof data
  and the body's obligation at every point.
-/
import proofs.«427760_j11510512353338_2_alg».proof.Proof.Gen.Kernel.Launch
import proofs.«427760_j11510512353338_2_alg».proof.Proof.Gen.Kernel.Skeleton
import proofs.«427760_j11510512353338_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The origin of every whole-buffer rectangle of this body is the zero index. -/
theorem firstLayer_origin : (![0, 0] : Fin 2 → Nat) = fun _ => 0 := funext fun a => by fin_cases a <;> rfl

/-- The buffer of the features tile holds the tile's block at every point, for any proof data whose array is V's
    and whose body leaves the block in place. -/
theorem featTile0_before_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The buffer of the tile of the inverse square-root degree column holds its block at every point, likewise. -/
theorem degTile0_before_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The buffer of the weight matrix, brought in at the first point only, holds the matrix at every point: its block
    index never moves, so what the first point brought in is every point's block. -/
theorem weights0_before_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one rectangle every access of the body uses on each buffer: the whole buffer. -/
abbrev rX0 : Rect S10000x128 := Rect.unit (s := S10000x128) ![0, 0] S10000x128.size inb_S10000x128_S10000x128_0_0
abbrev rD0 : Rect S10000x1 := Rect.unit (s := S10000x1) ![0, 0] S10000x1.size inb_S10000x1_S10000x1_0_0
abbrev rW0 : Rect S128x128 := Rect.unit (s := S128x128) ![0, 0] S128x128.size inb_S128x128_S128x128_0_0

/-- The body's one store is through the whole-buffer rectangle, so it covers every index of the output tile. -/
theorem storeCovers0 (p : FVec F S10000x128 .f32) (y : S10000x128.Idx) :
    ∃ pc ∈ ([⟨rX0, p⟩] : List (View.Piece (Elt F) S10000x128 .f32)), y ∈ pc.1.set :=
  ⟨⟨rX0, p⟩, List.mem_singleton_self _, View.mem_set_unit_zero firstLayer_origin inb_S10000x128_S10000x128_0_0 y⟩

/-- The output window's buffer after the body, from the three input blocks (features, degree column, weights). -/
def out0_3 (x0 : Vec F S10000x128 .f32) (x1 : Vec F S10000x1 .f32) (x2 : Vec F S128x128 .f32) : Vec F S10000x128 .f32 :=
  View.canon [⟨rX0, k0_pay1 (View.ld x0 rX0) (View.ld x2 rW0) (View.ld x1 rD0)⟩]

set_option maxHeartbeats 1000000 in
/-- The body on whole buffers: with the features tile, the degree column tile and the weight matrix reading x0, x1, x2
    and the output buffer at anything, it runs to the continuation holding the three inputs as they were and the
    output buffer at the scaled product of them. -/
theorem firstLayer_body_triple (c : Dev nD) (E : Set ℕ) (i : grid0.Coords)
    (arg1 : Memref sig .tc .vmem S10000x128 .f32) (harg1 : arg1.IsWhole)
    (arg2 : Memref sig .tc .vmem S10000x1 .f32) (harg2 : arg2.IsWhole)
    (arg3 : Memref sig .tc .vmem S128x128 .f32) (harg3 : arg3.IsWhole)
    (arg4 : Memref sig .tc .vmem S10000x128 .f32) (harg4 : arg4.IsWhole)
    (x0 : Vec F S10000x128 .f32) (x1 : Vec F S10000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__first_layer_kernel i arg1 harg1 arg2 harg2 arg3 harg3 arg4 harg4) K := by
  simp only [cc0__first_layer_kernel_eq_skeleton]; unfold cc0__first_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (storeCovers0 _)

/-- The proof data of the first pallas_call on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- The output buffer after the body is the body's product term of the three blocks (the whole-buffer reads and the
    one whole-buffer store read through). -/
theorem out0_3_eq (x0 : Vec F S10000x128 .f32) (x1 : Vec F S10000x1 .f32) (x2 : Vec F S128x128 .f32) :
    out0_3 x0 x1 x2 = k0_pay1 x0 x2 x1 := by
  unfold out0_3
  rw [View.canon_unit_zero firstLayer_origin]
  simp only [View.ld_unit_zero (S := S10000x128) firstLayer_origin, View.ld_unit_zero (S := S10000x1) firstLayer_origin,
    View.ld_unit_zero (S := S128x128) firstLayer_origin]

/-- Each input's buffer holds its block at every point. -/
theorem featTile0_before (c : Dev nD) (t : Fin cfg0.N) (d) : (dat0 V c).before 0 t d = iblk0 V c 0 t :=
  featTile0_before_of V (dat0 V c) (A_eq0 V c 0) (after0_0 V c) t d
theorem degTile0_before (c : Dev nD) (t : Fin cfg0.N) (d) : (dat0 V c).before 1 t d = iblk0 V c 1 t :=
  degTile0_before_of V (dat0 V c) (A_eq0 V c 1) (after0_1 V c) t d
theorem weights0_before (c : Dev nD) (t : Fin cfg0.N) (d) : (dat0 V c).before 2 t d = iblk0 V c 2 t :=
  weights0_before_of V (dat0 V c) (A_eq0 V c 2) (after0_2 V c) t d

/-- What the body is called with at point t, the windows one by one, -/
def firstLayerPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def firstLayerPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three input buffers hold their blocks, so the body's triple applies at them; the
    invariant and what the core owes pass through unread. -/
theorem firstLayer_body_at (c : Dev nD) (t : Fin cfg0.N) :
    firstLayerPre V c t ⊢ wp frame (wpE (defs₀ (F := F)) Variants.none c none) Set.univ (bodyAt0 t) (fun _ => firstLayerPost V c t) := by
  unfold firstLayerPre firstLayerPost bodyAt0
  simp only [featTile0_before, degTile0_before, weights0_before]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (firstLayer_body_triple c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every grid point. -/
theorem body_obligation0 (c : Dev nD) : BodyObligation (dat0 (F := F) V c) (defs₀ (F := F)) Variants.none () Set.univ := fun t => by
  rw [bigSep_W0, bigSep_W0]
  exact firstLayer_body_at V c t

end Cert.Kernel.Fr

end
-- ==== Proof.K.Reg1.lean ====
/-
  The second pallas_call (one grid point per tile of 10000 node rows): at a grid point the body finishes the first
  graph-convolution layer on the tile (scale row r of the raw neighbour sum by the r-th inverse square-root degree, add
  the bias row, clamp below at zero), multiplies the result by the second weight matrix and scales row r of the product
  by the same degree entry.  Stated at any contents V of the core's buffers when the call is entered.
-/
import proofs.«427760_j11510512353338_2_alg».proof.Proof.Gen.Kernel.Launch
import proofs.«427760_j11510512353338_2_alg».proof.Proof.Gen.Kernel.Skeleton
import proofs.«427760_j11510512353338_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The one rectangle every access of the body uses on each buffer: the whole buffer. -/
abbrev rX1 : Rect S10000x128 := Rect.unit (s := S10000x128) ![0, 0] S10000x128.size inb_S10000x128_S10000x128_0_0
abbrev rD1 : Rect S10000x1 := Rect.unit (s := S10000x1) ![0, 0] S10000x1.size inb_S10000x1_S10000x1_0_0
abbrev rB1 : Rect S1x128 := Rect.unit (s := S1x128) ![0, 0] S1x128.size inb_S1x128_S1x128_0_0
abbrev rW1 : Rect S128x128 := Rect.unit (s := S128x128) ![0, 0] S128x128.size inb_S128x128_S128x128_0_0

/-- The output window's buffer after the body, from the four input blocks (raw sums, degree column, bias row, weights). -/
def out1_4 (x0 : Vec F S10000x128 .f32) (x1 : Vec F S10000x1 .f32) (x2 : Vec F S1x128 .f32) (x3 : Vec F S128x128 .f32) : Vec F S10000x128 .f32 :=
  View.canon [⟨rX1, k1_pay1 (View.ld x0 rX1) (View.ld x1 rD1) (View.ld x2 rB1) (View.ld x3 rW1) (View.ld x1 rD1)⟩]

/-- The proof data of the second pallas_call on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- The offset of every whole-buffer rectangle is the zero index. -/
theorem origin1 : (![0, 0] : Fin 2 → Nat) = fun _ => 0 := funext fun a => by fin_cases a <;> rfl

/-- The output buffer after the body is the body's term of the four blocks (the whole-buffer reads and the one
    whole-buffer store read through). -/
theorem out1_4_eq (x0 : Vec F S10000x128 .f32) (x1 : Vec F S10000x1 .f32) (x2 : Vec F S1x128 .f32) (x3 : Vec F S128x128 .f32) :
    out1_4 x0 x1 x2 x3 = k1_pay1 x0 x1 x2 x3 x1 := by
  unfold out1_4
  rw [View.canon_unit_zero origin1]
  simp only [View.ld_unit_zero (S := S10000x128) origin1, View.ld_unit_zero (S := S10000x1) origin1,
    View.ld_unit_zero (S := S1x128) origin1, View.ld_unit_zero (S := S128x128) origin1]

/-! ## What each input window's current buffer holds when the body is entered -/

/-- The raw-sums tile: its current buffer holds the tile's block at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The degree-column tile: likewise. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The bias row, brought in at the first point only and left in place by the body: its buffer holds the row at
    every point, the block index never moving. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The second weight matrix: likewise. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body's triple -/

/-- The one store is through the whole-buffer rectangle, so it covers the output buffer. -/
theorem cover1_4 (p : Vec F S10000x128 .f32) (y : S10000x128.Idx) :
    ∃ pc ∈ ([⟨rX1, p⟩] : List (View.Piece (Elt F) S10000x128 .f32)), y ∈ pc.1.set :=
  ⟨_, List.mem_singleton_self _, View.mem_set_unit_zero origin1 inb_S10000x128_S10000x128_0_0 y⟩

set_option maxHeartbeats 1000000 in
/-- The body on whole staging buffers, the four inputs' at contents x0 … x3 and the output's at anything, runs to the
    continuation holding the inputs' as they were and the output's at the layer's term of the inputs. -/
theorem sound_kernel1 (c : Dev nD) (E : Set ℕ) (i : grid1.Coords)
    (arg1 : Memref sig .tc .vmem S10000x128 .f32) (harg1 : arg1.IsWhole)
    (arg2 : Memref sig .tc .vmem S10000x1 .f32) (harg2 : arg2.IsWhole)
    (arg3 : Memref sig .tc .vmem S1x128 .f32) (harg3 : arg3.IsWhole)
    (arg4 : Memref sig .tc .vmem S128x128 .f32) (harg4 : arg4.IsWhole)
    (arg5 : Memref sig .tc .vmem S10000x128 .f32) (harg5 : arg5.IsWhole)
    (x0 : Vec F S10000x128 .f32) (x1 : Vec F S10000x1 .f32) (x2 : Vec F S1x128 .f32) (x3 : Vec F S128x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__hidden_layer_kernel i arg1 harg1 arg2 harg2 arg3 harg3 arg4 harg4 arg5 harg5) K := by
  simp only [cc1__hidden_layer_kernel_eq_skeleton]; unfold cc1__hidden_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the four input buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every grid point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Reg2.lean ====
/-
  The third pallas_call (one grid point per tile of 10000 node rows, the points run in order): the body finishes the
  second graph-convolution layer on the tile, adds the tile's per-graph feature sums (a one-hot matrix of the graph ids
  against the features) into a 64 x 128 accumulator and the tile's per-graph node counts into a 64 x 1 accumulator, both
  cleared at the first point and kept between points, and at the last point divides the sums by the counts clamped below
  at one, multiplies by the head's weights, adds its bias and stores the 64 x 10 result.  Stated at any contents V of
  the core's buffers when the call is entered.
-/
import proofs.«427760_j11510512353338_2_alg».proof.Proof.Gen.Kernel.Launch
import proofs.«427760_j11510512353338_2_alg».proof.Proof.Gen.Kernel.Skeleton
import proofs.«427760_j11510512353338_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two accumulators the body keeps between grid points, as whole memrefs. -/
abbrev scM2_0 : Memref sig .tc .vmem S64x128 .f32 := Memref.whole cc2_scratch0
abbrev scM2_1 : Memref sig .tc .vmem S64x1 .f32 := Memref.whole cc2_scratch1

/-- What the two accumulators (sums, counts) hold after the body at position n: at the first point the tile's
    contribution over the cleared accumulators, afterwards over what the point before left. -/
def scAt2 (c : Dev nD) : (n : ℕ) → n < cfg2.N → Vec F S64x128 .f32 × Vec F S64x1 .f32
  | 0, hn => (k2_pay5 (iblk2 V c 0 ⟨0, hn⟩) (iblk2 V c 1 ⟨0, hn⟩) (iblk2 V c 2 ⟨0, hn⟩) (iblk2 V c 3 ⟨0, hn⟩) (k2_pay2 (F := F)),
              k2_pay6 (iblk2 V c 3 ⟨0, hn⟩) (k2_pay3 (F := F)))
  | n + 1, hn => (k2_pay5 (iblk2 V c 0 ⟨n + 1, hn⟩) (iblk2 V c 1 ⟨n + 1, hn⟩) (iblk2 V c 2 ⟨n + 1, hn⟩) (iblk2 V c 3 ⟨n + 1, hn⟩) (scAt2 c n (Nat.lt_of_succ_lt hn)).1,
              k2_pay6 (iblk2 V c 3 ⟨n + 1, hn⟩) (scAt2 c n (Nat.lt_of_succ_lt hn)).2)

/-- What the output window's buffer holds after the body at the last point: the head applied to the finished
    accumulators. (At the other points the body stores nothing there and the window is idle.) -/
def out2_6 (c : Dev nD) (t : Fin cfg2.N) : Vec F S64x10 .f32 :=
  k2_pay1 (scAt2 V c t.val t.isLt).1 (scAt2 V c t.val t.isLt).2 (iblk2 V c 4 t) (iblk2 V c 5 t)

/-- The scoped buffers of the core that this call neither stages nor keeps as an accumulator (the other two calls'
    staging buffers), each whole at some contents. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The call's invariant before position n: before the first point every scoped buffer the call does not stage at
    anything and the generator register at some state; afterwards the two accumulators at what the point before left,
    the other scoped buffers at anything, the register at some state. -/
def PhiS2 (c : Dev nD) : (n : ℕ) → n ≤ cfg2.N → sProp 𝕄
  | 0, _ => Pipeline.ΦA spec2 c
  | n + 1, hn => iprop(owns (c : Thread nD τ) scM2_0 fullShare (scAt2 V c n hn).1 ∗ owns (c : Thread nD τ) scM2_1 fullShare (scAt2 V c n hn).2
      ∗ rest2 (F := F) c ∗ (∃ r, prngReg c r))

/-- The proof data of the third pallas_call on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out2_6 V c t := by dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]

/-! ## The body's two conditionals -/

/-- The conditions of the body's two conditionals, from the grid coordinate: the first point, the last point. -/
abbrev cond2_0 (i : grid2.Coords) : Prop := (Scalar.cmpi .ne (Scalar.extui (Scalar.cmpi .eq (BitVec.ofNat 32 (i 0).val) 0#32)) 0#32) = 1#1
abbrev cond2_1 (i : grid2.Coords) : Prop := k2_cond2 i = 1#1

theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 9 :=
  (by decide +kernel : ∀ t : Fin grid2.N, cond2_1 (grid2.coords t) ↔ t.val = 9)

/-- Zero offsets on two axes, however spelt. -/
theorem zero_off2 : (![0, 0] : Fin 2 → Nat) = fun _ => 0 := funext fun a => by fin_cases a <;> rfl

/-- A whole-buffer store made last is what the buffer then reads, whatever was stored before. -/
theorem read_last_whole_store {sg : RefSig} {κ : Kind} {sp : Space} {S : Shape} {e : EltTy} {Val : EltTy → Type} [∀ e, Nonempty (Val e)]
    {off : Fin S.rank → Nat} (h : off = fun _ => 0) (inb : ∀ a, off a + S.size a ≤ S.size a)
    (v : View sg κ sp S e) (f : v.ty.Contents Val) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h inb]

/-- A whole-buffer load of a whole memref held at contents that read X reads X. -/
theorem load_whole_unread {sg : RefSig} {κ : Kind} {sp : Space} {S : Shape} {e : EltTy} {Val : EltTy → Type}
    {off : Fin S.rank → Nat} (h : off = fun _ => 0) (inb : ∀ a, off a + S.size a ≤ S.size a)
    (m : Memref sg κ sp S e) (hm : m.IsWhole) (X : S.Idx → Val e) :
    m.view.readAt Val (Rect.unit off S.size inb).toLoadRect (hm.unread X) = X := by
  rw [View.readAt_eq_ld, hm.read_unread, View.ld_unit_zero h inb]

/-! ## The body run in each of its three cases -/

set_option maxHeartbeats 4000000 in
/-- The body at the first point: whatever the two accumulators held, they are cleared and then take the tile's
    contribution; the four blocks the update reads are left as they were. -/
theorem body_first_point (c : Dev nD) (i : grid2.Coords) (arg1 : Memref sig .tc .vmem S10000x128 .f32) (harg1 : arg1.IsWhole) (arg2 : Memref sig .tc .vmem S10000x1 .f32) (harg2 : arg2.IsWhole) (arg3 : Memref sig .tc .vmem S1x128 .f32) (harg3 : arg3.IsWhole) (arg4 : Memref sig .tc .vmem S10000x1 .i32) (harg4 : arg4.IsWhole) (arg5 : Memref sig .tc .vmem S128x10 .f32) (harg5 : arg5.IsWhole) (arg6 : Memref sig .tc .vmem S1x10 .f32) (harg6 : arg6.IsWhole) (arg7 : Memref sig .tc .vmem S64x10 .f32) (harg7 : arg7.IsWhole) (arg8 : Memref sig .tc .vmem S64x128 .f32) (harg8 : arg8.IsWhole) (arg9 : Memref sig .tc .vmem S64x1 .f32) (harg9 : arg9.IsWhole)
    (hc0 : cond2_0 i) (hc1 : ¬cond2_1 i)
    (x0 : Vec F S10000x128 .f32) (x1 : Vec F S10000x1 .f32) (x2 : Vec F S1x128 .f32) (x3 : Vec F S10000x1 .i32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg8 fullShare (k2_pay5 x0 x1 x2 x3 (k2_pay2 (F := F)))
            ∗ owns (c : Thread nD τ) arg9 fullShare (k2_pay6 x3 (k2_pay3 (F := F)))) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9) K := by
  simp only [cc2_kernel_eq_skeleton]; unfold cc2_kernel_skel
  simp only [k2_part1_eq_skeleton]
  unfold owns
  iintro ⟨⟨%f1, %hf1, H1⟩, ⟨%f2, %hf2, H2⟩, ⟨%f3, %hf3, H3⟩, ⟨%f4, %hf4, H4⟩, ⟨%d8, %f8, -, H8⟩, ⟨%d9, %f9, -, H9⟩, Hk⟩
  obtain rfl := harg1.eq_unread hf1; obtain rfl := harg2.eq_unread hf2; obtain rfl := harg3.eq_unread hf3
  obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H8]
  · iexists _; isplitr
    swap; · iexact H8
    ipureintro; sl_unfold_words
    simp only [read_last_whole_store (S := S64x128) zero_off2, read_last_whole_store (S := S64x1) zero_off2, read_last_whole_store (S := S64x10) zero_off2,
      load_whole_unread (S := S10000x128) zero_off2, load_whole_unread (S := S10000x1) zero_off2, load_whole_unread (S := S1x128) zero_off2,
      load_whole_unread (S := S128x10) zero_off2, load_whole_unread (S := S1x10) zero_off2, load_whole_unread (S := S64x128) zero_off2, load_whole_unread (S := S64x1) zero_off2,
      View.readCov_unit_zero (S := S64x128) _ zero_off2, View.readCov_unit_zero (S := S64x1) _ zero_off2]
  iexists _; isplitr
  swap; · iexact H9
  ipureintro; sl_unfold_words
  simp only [read_last_whole_store (S := S64x128) zero_off2, read_last_whole_store (S := S64x1) zero_off2, read_last_whole_store (S := S64x10) zero_off2,
      load_whole_unread (S := S10000x128) zero_off2, load_whole_unread (S := S10000x1) zero_off2, load_whole_unread (S := S1x128) zero_off2,
      load_whole_unread (S := S128x10) zero_off2, load_whole_unread (S := S1x10) zero_off2, load_whole_unread (S := S64x128) zero_off2, load_whole_unread (S := S64x1) zero_off2,
      View.readCov_unit_zero (S := S64x128) _ zero_off2, View.readCov_unit_zero (S := S64x1) _ zero_off2]

set_option maxHeartbeats 4000000 in
/-- The body at a point that is neither the first nor the last: each accumulator takes the tile's contribution over
    what it held; the four blocks the update reads are left as they were. -/
theorem body_inner_point (c : Dev nD) (i : grid2.Coords) (arg1 : Memref sig .tc .vmem S10000x128 .f32) (harg1 : arg1.IsWhole) (arg2 : Memref sig .tc .vmem S10000x1 .f32) (harg2 : arg2.IsWhole) (arg3 : Memref sig .tc .vmem S1x128 .f32) (harg3 : arg3.IsWhole) (arg4 : Memref sig .tc .vmem S10000x1 .i32) (harg4 : arg4.IsWhole) (arg5 : Memref sig .tc .vmem S128x10 .f32) (harg5 : arg5.IsWhole) (arg6 : Memref sig .tc .vmem S1x10 .f32) (harg6 : arg6.IsWhole) (arg7 : Memref sig .tc .vmem S64x10 .f32) (harg7 : arg7.IsWhole) (arg8 : Memref sig .tc .vmem S64x128 .f32) (harg8 : arg8.IsWhole) (arg9 : Memref sig .tc .vmem S64x1 .f32) (harg9 : arg9.IsWhole)
    (hc0 : ¬cond2_0 i) (hc1 : ¬cond2_1 i)
    (x0 : Vec F S10000x128 .f32) (x1 : Vec F S10000x1 .f32) (x2 : Vec F S1x128 .f32) (x3 : Vec F S10000x1 .i32)
    (s0 : Vec F S64x128 .f32) (s1 : Vec F S64x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg8 fullShare (k2_pay5 x0 x1 x2 x3 s0)
            ∗ owns (c : Thread nD τ) arg9 fullShare (k2_pay6 x3 s1)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9) K := by
  simp only [cc2_kernel_eq_skeleton]; unfold cc2_kernel_skel
  simp only [k2_part1_eq_skeleton]
  unfold owns
  iintro ⟨⟨%f1, %hf1, H1⟩, ⟨%f2, %hf2, H2⟩, ⟨%f3, %hf3, H3⟩, ⟨%f4, %hf4, H4⟩, ⟨%f8, %hf8, H8⟩, ⟨%f9, %hf9, H9⟩, Hk⟩
  obtain rfl := harg1.eq_unread hf1; obtain rfl := harg2.eq_unread hf2; obtain rfl := harg3.eq_unread hf3
  obtain rfl := harg4.eq_unread hf4; obtain rfl := harg8.eq_unread hf8; obtain rfl := harg9.eq_unread hf9
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H8]
  · iexists _; isplitr
    swap; · iexact H8
    ipureintro; sl_unfold_words
    simp only [read_last_whole_store (S := S64x128) zero_off2, read_last_whole_store (S := S64x1) zero_off2, read_last_whole_store (S := S64x10) zero_off2,
      load_whole_unread (S := S10000x128) zero_off2, load_whole_unread (S := S10000x1) zero_off2, load_whole_unread (S := S1x128) zero_off2,
      load_whole_unread (S := S128x10) zero_off2, load_whole_unread (S := S1x10) zero_off2, load_whole_unread (S := S64x128) zero_off2, load_whole_unread (S := S64x1) zero_off2,
      View.readCov_unit_zero (S := S64x128) _ zero_off2, View.readCov_unit_zero (S := S64x1) _ zero_off2]
  iexists _; isplitr
  swap; · iexact H9
  ipureintro; sl_unfold_words
  simp only [read_last_whole_store (S := S64x128) zero_off2, read_last_whole_store (S := S64x1) zero_off2, read_last_whole_store (S := S64x10) zero_off2,
      load_whole_unread (S := S10000x128) zero_off2, load_whole_unread (S := S10000x1) zero_off2, load_whole_unread (S := S1x128) zero_off2,
      load_whole_unread (S := S128x10) zero_off2, load_whole_unread (S := S1x10) zero_off2, load_whole_unread (S := S64x128) zero_off2, load_whole_unread (S := S64x1) zero_off2,
      View.readCov_unit_zero (S := S64x128) _ zero_off2, View.readCov_unit_zero (S := S64x1) _ zero_off2]

set_option maxHeartbeats 4000000 in
/-- The body at the last point: each accumulator takes the tile's contribution over what it held, and the output
    buffer, whatever it held, takes the head applied to the finished accumulators; the six blocks read are left as
    they were. -/
theorem body_last_point (c : Dev nD) (i : grid2.Coords) (arg1 : Memref sig .tc .vmem S10000x128 .f32) (harg1 : arg1.IsWhole) (arg2 : Memref sig .tc .vmem S10000x1 .f32) (harg2 : arg2.IsWhole) (arg3 : Memref sig .tc .vmem S1x128 .f32) (harg3 : arg3.IsWhole) (arg4 : Memref sig .tc .vmem S10000x1 .i32) (harg4 : arg4.IsWhole) (arg5 : Memref sig .tc .vmem S128x10 .f32) (harg5 : arg5.IsWhole) (arg6 : Memref sig .tc .vmem S1x10 .f32) (harg6 : arg6.IsWhole) (arg7 : Memref sig .tc .vmem S64x10 .f32) (harg7 : arg7.IsWhole) (arg8 : Memref sig .tc .vmem S64x128 .f32) (harg8 : arg8.IsWhole) (arg9 : Memref sig .tc .vmem S64x1 .f32) (harg9 : arg9.IsWhole)
    (hc0 : ¬cond2_0 i) (hc1 : cond2_1 i)
    (x0 : Vec F S10000x128 .f32) (x1 : Vec F S10000x1 .f32) (x2 : Vec F S1x128 .f32) (x3 : Vec F S10000x1 .i32)
    (x4 : Vec F S128x10 .f32) (x5 : Vec F S1x10 .f32) (s0 : Vec F S64x128 .f32) (s1 : Vec F S64x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k2_pay1 (k2_pay5 x0 x1 x2 x3 s0) (k2_pay6 x3 s1) x4 x5)
            ∗ owns (c : Thread nD τ) arg8 fullShare (k2_pay5 x0 x1 x2 x3 s0)
            ∗ owns (c : Thread nD τ) arg9 fullShare (k2_pay6 x3 s1)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9) K := by
  simp only [cc2_kernel_eq_skeleton]; unfold cc2_kernel_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg8.eq_unread hf8; obtain rfl := harg9.eq_unread hf9
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro; sl_unfold_words
    simp only [read_last_whole_store (S := S64x128) zero_off2, read_last_whole_store (S := S64x1) zero_off2, read_last_whole_store (S := S64x10) zero_off2,
      load_whole_unread (S := S10000x128) zero_off2, load_whole_unread (S := S10000x1) zero_off2, load_whole_unread (S := S1x128) zero_off2,
      load_whole_unread (S := S128x10) zero_off2, load_whole_unread (S := S1x10) zero_off2, load_whole_unread (S := S64x128) zero_off2, load_whole_unread (S := S64x1) zero_off2,
      View.readCov_unit_zero (S := S64x128) _ zero_off2, View.readCov_unit_zero (S := S64x1) _ zero_off2]
  isplitl [H8]
  · iexists _; isplitr
    swap; · iexact H8
    ipureintro; sl_unfold_words
    simp only [read_last_whole_store (S := S64x128) zero_off2, read_last_whole_store (S := S64x1) zero_off2, read_last_whole_store (S := S64x10) zero_off2,
      load_whole_unread (S := S10000x128) zero_off2, load_whole_unread (S := S10000x1) zero_off2, load_whole_unread (S := S1x128) zero_off2,
      load_whole_unread (S := S128x10) zero_off2, load_whole_unread (S := S1x10) zero_off2, load_whole_unread (S := S64x128) zero_off2, load_whole_unread (S := S64x1) zero_off2,
      View.readCov_unit_zero (S := S64x128) _ zero_off2, View.readCov_unit_zero (S := S64x1) _ zero_off2]
  iexists _; isplitr
  swap; · iexact H9
  ipureintro; sl_unfold_words
  simp only [read_last_whole_store (S := S64x128) zero_off2, read_last_whole_store (S := S64x1) zero_off2, read_last_whole_store (S := S64x10) zero_off2,
      load_whole_unread (S := S10000x128) zero_off2, load_whole_unread (S := S10000x1) zero_off2, load_whole_unread (S := S1x128) zero_off2,
      load_whole_unread (S := S128x10) zero_off2, load_whole_unread (S := S1x10) zero_off2, load_whole_unread (S := S64x128) zero_off2, load_whole_unread (S := S64x1) zero_off2,
      View.readCov_unit_zero (S := S64x128) _ zero_off2, View.readCov_unit_zero (S := S64x1) _ zero_off2]

/-! ## Where the conditionals hold, and where the output window is idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Off the last point the printed configuration calls the output window idle, and the pipeline does not write it back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
/-- At the last point it is live. -/
theorem liveAt2_6 : ∀ t : Fin cfg2.N, cond2_1 (grid2.coords t) → cfg2.idle 6 (grid2.coords t) = false := by decide +kernel

/-- Each window's current staging memref at point t, spelled as the pipeline passes it, and its wholeness. -/
abbrev ms2_0 (t : Fin cfg2.N) : Memref sig .tc .vmem S10000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S10000x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x10 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x10 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S64x10 .f32 := win2_6.stage (cfg2.slots t 6)
abbrev hs2_6 (t : Fin cfg2.N) : (ms2_6 t).IsWhole := hstage2_6 ((cfg2.slots t 6).cast nbuf2_6)

/-! ## The accumulators point by point, and the invariant -/

theorem scAt2_zero_fst (c : Dev nD) (t : Fin cfg2.N) (h : t.val = 0) :
    (scAt2 V c t.val t.isLt).1 = k2_pay5 (iblk2 V c 0 t) (iblk2 V c 1 t) (iblk2 V c 2 t) (iblk2 V c 3 t) (k2_pay2 (F := F)) := by
  obtain ⟨n, hn⟩ := t
  cases n with
  | zero => rfl
  | succ n => exact absurd h (Nat.succ_ne_zero n)

theorem scAt2_zero_snd (c : Dev nD) (t : Fin cfg2.N) (h : t.val = 0) :
    (scAt2 V c t.val t.isLt).2 = k2_pay6 (iblk2 V c 3 t) (k2_pay3 (F := F)) := by
  obtain ⟨n, hn⟩ := t
  cases n with
  | zero => rfl
  | succ n => exact absurd h (Nat.succ_ne_zero n)

theorem scAt2_pos_fst (c : Dev nD) (t : Fin cfg2.N) (h : t.val ≠ 0) (hp : t.val - 1 < cfg2.N) :
    (scAt2 V c t.val t.isLt).1 = k2_pay5 (iblk2 V c 0 t) (iblk2 V c 1 t) (iblk2 V c 2 t) (iblk2 V c 3 t) (scAt2 V c (t.val - 1) hp).1 := by
  obtain ⟨n, hn⟩ := t
  cases n with
  | zero => exact absurd rfl h
  | succ n => rfl

theorem scAt2_pos_snd (c : Dev nD) (t : Fin cfg2.N) (h : t.val ≠ 0) (hp : t.val - 1 < cfg2.N) :
    (scAt2 V c t.val t.isLt).2 = k2_pay6 (iblk2 V c 3 t) (scAt2 V c (t.val - 1) hp).2 := by
  obtain ⟨n, hn⟩ := t
  cases n with
  | zero => exact absurd rfl h
  | succ n => rfl

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2_0 fullShare (scAt2 V c n hn).1 ∗ owns (c : Thread nD τ) scM2_1 fullShare (scAt2 V c n hn).2
      ∗ rest2 (F := F) c ∗ (∃ r, prngReg c r)) := rfl

theorem PhiS2_pos (c : Dev nD) (n : ℕ) (h : n ≤ cfg2.N) (hz : n ≠ 0) (hp : n - 1 < cfg2.N) :
    PhiS2 V c n h = iprop(owns (c : Thread nD τ) scM2_0 fullShare (scAt2 V c (n - 1) hp).1 ∗ owns (c : Thread nD τ) scM2_1 fullShare (scAt2 V c (n - 1) hp).2
      ∗ rest2 (F := F) c ∗ (∃ r, prngReg c r)) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

/-- What the launch hands the call, with the two accumulators as whole memrefs at some contents and the other
    scoped buffers gathered: the same seventeen buffers and the register, regrouped. -/
theorem PhiA2_eq (c : Dev nD) :
    (Pipeline.ΦA spec2 c : sProp 𝕄)
      = iprop((∃ d, owns (c : Thread nD τ) scM2_0 fullShare d) ∗ (∃ d, owns (c : Thread nD τ) scM2_1 fullShare d)
          ∗ rest2 (F := F) c ∗ (∃ r, prngReg c r)) := by
  unfold Pipeline.ΦA rest2; rw [scopedRest2_eq]; simp only [scM2_0, scM2_1, owns_whole]
  refine BI.equiv_iff.mp ⟨?_, ?_⟩
  · show (_ : sProp 𝕄) ⊢ _
    iintro ⟨⟨B1, B2, B3, B4, B5, B6, B7, B8, B9, B10, B11, B12, B13, B14, B15, S0, S1⟩, Hg⟩
    isplitl [S0]; · iexact S0
    isplitl [S1]; · iexact S1
    isplitr [Hg]
    swap; · iexact Hg
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    iexact B15
  · show (_ : sProp 𝕄) ⊢ _
    iintro ⟨S0, S1, ⟨B1, B2, B3, B4, B5, B6, B7, B8, B9, B10, B11, B12, B13, B14, B15⟩, Hg⟩
    isplitr [Hg]
    swap; · iexact Hg
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    isplitl [S0]; · iexact S0
    iexact S1

/-! ## The input windows hold their blocks -/

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)

theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (ms2_3 t) fullShare (iblk2 V c 3 t) := by
  unfold Dat.leavesExact; rw [liveAt2_3 t, after2_3]
theorem leaves2_4 (c : Dev nD) (t : Fin cfg2.N) :
    (dat2 V c).leavesExact 4 t = owns (c : Thread nD τ) (ms2_4 t) fullShare (iblk2 V c 4 t) := by
  unfold Dat.leavesExact; rw [liveAt2_4 t, after2_4]
theorem leaves2_5 (c : Dev nD) (t : Fin cfg2.N) :
    (dat2 V c).leavesExact 5 t = owns (c : Thread nD τ) (ms2_5 t) fullShare (iblk2 V c 5 t) := by
  unfold Dat.leavesExact; rw [liveAt2_5 t, after2_5]

/-! ## The body's obligation at a point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the input windows' memrefs hold their blocks; the point is the first, the last or neither,
    and the matching run applies; the invariant hands the body the two accumulators at what the point before left (at
    anything at the first point) and takes them back at this point's contents; off the last point the output window's
    buffer goes back untouched, at the last point it holds the head of the finished accumulators. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5]
  have hN : t.val < 10 := lt_of_lt_of_eq t.isLt (show cfg2.N = 10 from N_2)
  have hp : t.val - 1 < cfg2.N := Nat.lt_of_le_of_lt (Nat.sub_le _ _) t.isLt
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 6 t (idleAt2_6 t hc1) (noFlush2_6 t hc1)]
    rw [scAt2_zero_fst V c t h0, scAt2_zero_snd V c t h0]
    rw [PhiS2_castSucc V c t, PhiS2_zero V c _ _ h0, PhiA2_eq]
    iintro ⟨⟨⟨%e0, HS0⟩, ⟨%e1, HS1⟩, HR, Hg⟩, Ho, ⟨%d0, H0⟩, ⟨%d1, H1⟩, ⟨%d2, H2⟩, ⟨%d3, H3⟩, ⟨%d4, H4⟩, ⟨%d5, H5⟩, ⟨%d6, H6⟩⟩
    iapply (body_first_point c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    iintro ⟨H0, H1, H2, H3, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hc0 : ¬cond2_0 (grid2.coords t) := fun h => h0 ((hcond2_0 t).mp h)
    rw [scAt2_pos_fst V c t h0 hp, scAt2_pos_snd V c t h0 hp]
    rw [PhiS2_castSucc V c t, PhiS2_pos V c _ _ h0 hp]
    by_cases h9 : t.val = 9
    · have hc1 : cond2_1 (grid2.coords t) := (hcond2_1 t).mpr h9
      rw [show (dat2 V c).leavesExact 6 t = owns (c : Thread nD τ) (ms2_6 t) fullShare (out2_6 V c t) from by
        unfold Dat.leavesExact; rw [liveAt2_6 t hc1, after2_6]]
      unfold out2_6
      rw [scAt2_pos_fst V c t h0 hp, scAt2_pos_snd V c t h0 hp]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩⟩
      iapply (body_last_point c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (scAt2 V c (t.val - 1) hp).1 (scAt2 V c (t.val - 1) hp).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond2_1 (grid2.coords t) := fun h => h9 ((hcond2_1 t).mp h)
      rw [Dat.leavesExact_idle (dat2 V c) 6 t (idleAt2_6 t hc1) (noFlush2_6 t hc1)]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩⟩
      iapply (body_inner_point c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (scAt2 V c (t.val - 1) hp).1 (scAt2 V c (t.val - 1) hp).2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulators' named contents are forgotten. -/
theorem hout2 (c : Dev nD) : (dat2 V c).Φ (Fin.last cfg2.N) ⊢ Pipeline.ΦA spec2 c := by
  have hN : cfg2.N = 10 := N_2
  have hz : (Fin.last cfg2.N).val ≠ 0 := by rw [Fin.val_last]; omega
  have hp : (Fin.last cfg2.N).val - 1 < cfg2.N := by rw [Fin.val_last]; omega
  rw [show (dat2 V c).Φ (Fin.last cfg2.N) = PhiS2 V c (Fin.last cfg2.N).val (Nat.le_of_lt_succ (Fin.last cfg2.N).isLt) from rfl,
    PhiS2_pos V c _ _ hz hp, PhiA2_eq]
  iintro ⟨HS0, HS1, HR, Hg⟩
  isplitl [HS0]; · iexists _; iexact HS0
  isplitl [HS1]; · iexists _; iexact HS1
  isplitl [HR]; · iexact HR
  iexact Hg

/-- The body's obligation at every grid point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Fold.lean ====
/-
  The contents of the core's buffers between the items of the program: the launch contents, then what each stretch of
  host operations computes from what it finds, then, after each pallas_call, the call's arrays at what its write-backs
  leave (an input array as entered, the output array every block written back) and every other buffer as entered.
-/
import proofs.«427760_j11510512353338_2_alg».proof.Proof.Gen.Kernel.Launch
import proofs.«427760_j11510512353338_2_alg».proof.Proof.Gen.Kernel.Skeleton
import proofs.«427760_j11510512353338_2_alg».proof.Proof.Gen.Kernel.Points
import proofs.«427760_j11510512353338_2_alg».proof.Proof.K.Reg0
import proofs.«427760_j11510512353338_2_alg».proof.Proof.K.Reg1
import proofs.«427760_j11510512353338_2_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At launch. -/
abbrev W0 (c : Dev nD) : Valuation τ sig (Elt F) := fun b => m (c, b)
/-- After the three stretches of host operations before the first call (the index vectors, the degrees and their
    inverse square roots, the reshaped columns and rows). -/
abbrev W3 (c : Dev nD) : Valuation τ sig (Elt F) :=
  StableHlo.after hostOps0_2 (StableHlo.after hostOps0_1 (StableHlo.after hostOps0 (W0 m c)))
/-- The same read at the TensorCore's references: what the first call is entered from. -/
abbrev E0 (c : Dev nD) (b : Ref sig .tc) : Buf (Elt F) ((c : Thread nD τ).loc b) := W3 m c b
/-- After the first call. -/
def W4 (c : Dev nD) : Valuation τ sig (Elt F) :=
  Pipeline.withArrays spec0 c (W3 m c) fun w => (dat0 (E0 m) c).arrAt w cfg0.N
/-- After the host operations between the first and the second call (gather the rows by source, add them up by
    destination). -/
abbrev W5 (c : Dev nD) : Valuation τ sig (Elt F) := StableHlo.after hostOps1 (W4 m c)
abbrev E1 (c : Dev nD) (b : Ref sig .tc) : Buf (Elt F) ((c : Thread nD τ).loc b) := W5 m c b
/-- After the second call. -/
def W6 (c : Dev nD) : Valuation τ sig (Elt F) :=
  Pipeline.withArrays spec1 c (W5 m c) fun w => (dat1 (E1 m) c).arrAt w cfg1.N
/-- After the host operations between the second and the third call. -/
abbrev W7 (c : Dev nD) : Valuation τ sig (Elt F) := StableHlo.after hostOps2 (W6 m c)
abbrev E2 (c : Dev nD) (b : Ref sig .tc) : Buf (Elt F) ((c : Thread nD τ).loc b) := W7 m c b
/-- After the third call: the end of the program. -/
def W8 (c : Dev nD) : Valuation τ sig (Elt F) :=
  Pipeline.withArrays spec2 c (W7 m c) fun w => (dat2 (E2 m) c).arrAt w cfg2.N

end Cert.Kernel.Fr

end
-- ==== Proof.K.Whole.lean ====
/-
  The whole program's run: the program is a list of eight items — three stretches of host operations, the first
  pallas_call, a stretch, the second call, a stretch, the third call — and core c's unscoped buffers go from the
  launch contents through the contents W3 … W8 between the items.  Every weakly fair execution terminates with every
  unscoped buffer at W8; the argument arrays are read back through the fold to their launch contents (no host
  operation writes one and every call only reads them), the result array is what the third call's write-back leaves.
-/
import proofs.«427760_j11510512353338_2_alg».proof.Proof.Gen.Kernel.Launch
import proofs.«427760_j11510512353338_2_alg».proof.Proof.Gen.Kernel.Skeleton
import proofs.«427760_j11510512353338_2_alg».proof.Proof.Gen.Kernel.Points
import proofs.«427760_j11510512353338_2_alg».proof.Proof.K.Fold
import proofs.«427760_j11510512353338_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Run

/-! ## The fold read at a call's arrays and off them -/

theorem W4_arr (c : Dev nD) (w : Fin cfg0.W) :
    W4 m c (Proc.devRef .tc (Pipeline.arrRef spec0 w)) = (dat0 (E0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W6_arr (c : Dev nD) (w : Fin cfg1.W) :
    W6 m c (Proc.devRef .tc (Pipeline.arrRef spec1 w)) = (dat1 (E1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem W8_arr (c : Dev nD) (w : Fin cfg2.W) :
    W8 m c (Proc.devRef .tc (Pipeline.arrRef spec2 w)) = (dat2 (E2 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb

/-- The three stretches before the first call leave a reference none of them writes as launched. -/
theorem W3_of (c : Dev nD) (r : Ref sig .tc) (h0 : r ∉ hostOps0_W) (h1 : r ∉ hostOps0_1_W) (h2 : r ∉ hostOps0_2_W) :
    W3 m c (Proc.devRef .tc r) = m ((c : Thread nD τ).loc r) :=
  (StableHlo.after_of_writes_sub hostOps0_2 _ hostOps0_2_writes h2).trans <|
    (StableHlo.after_of_writes_sub hostOps0_1 _ hostOps0_1_writes h1).trans <|
      (StableHlo.after_of_writes_sub hostOps0 _ hostOps0_writes h0).trans rfl
/-- The stretch between the first and the second call leaves a reference it does not write as it found it. -/
theorem W5_of (c : Dev nD) (r : Ref sig .tc) (h : r ∉ hostOps1_W) :
    W5 m c (Proc.devRef .tc r) = W4 m c (Proc.devRef .tc r) :=
  StableHlo.after_of_writes_sub hostOps1 _ hostOps1_writes h
/-- The stretch between the second and the third call leaves a reference it does not write as it found it. -/
theorem W7_of (c : Dev nD) (r : Ref sig .tc) (h : r ∉ hostOps2_W) :
    W7 m c (Proc.devRef .tc r) = W6 m c (Proc.devRef .tc r) :=
  StableHlo.after_of_writes_sub hostOps2 _ hostOps2_writes h

/-- At a call's exit each of its arrays holds what the pipeline leaves and every other buffer what it held at entry. -/
theorem hF0 (c : Dev nD) (w : Fin cfg0.W) : (dat0 (E0 m) c).arrAt w cfg0.N = W4 m c (Proc.devRef .tc (Pipeline.arrRef spec0 w)) :=
  (W4_arr m c w).symm
theorem hrest0 (c : Dev nD) : ∀ b : Ref sig .tc, b ∉ Finset.univ.image (Pipeline.arrRef spec0) → W4 m c (Proc.devRef .tc b) = E0 m c b :=
  fun b hb => W4_of_ne m c b fun w e => hb (Finset.mem_image.mpr ⟨w, Finset.mem_univ _, e⟩)
theorem hF1 (c : Dev nD) (w : Fin cfg1.W) : (dat1 (E1 m) c).arrAt w cfg1.N = W6 m c (Proc.devRef .tc (Pipeline.arrRef spec1 w)) :=
  (W6_arr m c w).symm
theorem hrest1 (c : Dev nD) : ∀ b : Ref sig .tc, b ∉ Finset.univ.image (Pipeline.arrRef spec1) → W6 m c (Proc.devRef .tc b) = E1 m c b :=
  fun b hb => W6_of_ne m c b fun w e => hb (Finset.mem_image.mpr ⟨w, Finset.mem_univ _, e⟩)
theorem hF2 (c : Dev nD) (w : Fin cfg2.W) : (dat2 (E2 m) c).arrAt w cfg2.N = W8 m c (Proc.devRef .tc (Pipeline.arrRef spec2 w)) :=
  (W8_arr m c w).symm
theorem hrest2 (c : Dev nD) : ∀ b : Ref sig .tc, b ∉ Finset.univ.image (Pipeline.arrRef spec2) → W8 m c (Proc.devRef .tc b) = E2 m c b :=
  fun b hb => W8_of_ne m c b fun w e => hb (Finset.mem_image.mpr ⟨w, Finset.mem_univ _, e⟩)

end Run

open Run

/-- The result array at the end is what the third call's one write-back (at its last point) leaves. -/
theorem W8_main_v42 (c : Dev nD) : W8 m c (Proc.devRef .tc main_v42) = (dat2 (E2 m) c).arrAt 6 cfg2.N :=
  W8_arr m c 6

/-! ### The arguments end as launched: no stretch writes one, and a call that names one stages it as an input -/

/-- The node features: the first call stages them as an input; no stretch writes them, no other call names them. -/
theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_of_ne m c main_arg0 (by decide)
    _ = W6 m c (Proc.devRef .tc main_arg0) := W7_of m c main_arg0 (by decide)
    _ = W5 m c (Proc.devRef .tc main_arg0) := W6_of_ne m c main_arg0 (by decide)
    _ = W4 m c (Proc.devRef .tc main_arg0) := W5_of m c main_arg0 (by decide)
    _ = W3 m c (Proc.devRef .tc main_arg0) := (W4_arr m c 0).trans (((dat0 (E0 m) c).arrAt_in 0 rfl _).trans (A_eq0 (E0 m) c 0))
    _ = m ((c : Thread nD τ).loc main_arg0) := W3_of m c main_arg0 (by decide) (by decide) (by decide)
/-- The edge list: only the stretches read it. -/
theorem W8_main_arg1 (c : Dev nD) : W8 m c (Proc.devRef .tc main_arg1) = m ((c : Thread nD τ).loc main_arg1) :=
  calc W8 m c (Proc.devRef .tc main_arg1)
    _ = W7 m c (Proc.devRef .tc main_arg1) := W8_of_ne m c main_arg1 (by decide)
    _ = W6 m c (Proc.devRef .tc main_arg1) := W7_of m c main_arg1 (by decide)
    _ = W5 m c (Proc.devRef .tc main_arg1) := W6_of_ne m c main_arg1 (by decide)
    _ = W4 m c (Proc.devRef .tc main_arg1) := W5_of m c main_arg1 (by decide)
    _ = W3 m c (Proc.devRef .tc main_arg1) := W4_of_ne m c main_arg1 (by decide)
    _ = m ((c : Thread nD τ).loc main_arg1) := W3_of m c main_arg1 (by decide) (by decide) (by decide)
/-- The graph index of every node: only a stretch reads it (to reshape it into a column). -/
theorem W8_main_arg2 (c : Dev nD) : W8 m c (Proc.devRef .tc main_arg2) = m ((c : Thread nD τ).loc main_arg2) :=
  calc W8 m c (Proc.devRef .tc main_arg2)
    _ = W7 m c (Proc.devRef .tc main_arg2) := W8_of_ne m c main_arg2 (by decide)
    _ = W6 m c (Proc.devRef .tc main_arg2) := W7_of m c main_arg2 (by decide)
    _ = W5 m c (Proc.devRef .tc main_arg2) := W6_of_ne m c main_arg2 (by decide)
    _ = W4 m c (Proc.devRef .tc main_arg2) := W5_of m c main_arg2 (by decide)
    _ = W3 m c (Proc.devRef .tc main_arg2) := W4_of_ne m c main_arg2 (by decide)
    _ = m ((c : Thread nD τ).loc main_arg2) := W3_of m c main_arg2 (by decide) (by decide) (by decide)
/-- The first layer's weights: the first call stages them as an input. -/
theorem W8_main_arg3 (c : Dev nD) : W8 m c (Proc.devRef .tc main_arg3) = m ((c : Thread nD τ).loc main_arg3) :=
  calc W8 m c (Proc.devRef .tc main_arg3)
    _ = W7 m c (Proc.devRef .tc main_arg3) := W8_of_ne m c main_arg3 (by decide)
    _ = W6 m c (Proc.devRef .tc main_arg3) := W7_of m c main_arg3 (by decide)
    _ = W5 m c (Proc.devRef .tc main_arg3) := W6_of_ne m c main_arg3 (by decide)
    _ = W4 m c (Proc.devRef .tc main_arg3) := W5_of m c main_arg3 (by decide)
    _ = W3 m c (Proc.devRef .tc main_arg3) := (W4_arr m c 2).trans (((dat0 (E0 m) c).arrAt_in 2 rfl _).trans (A_eq0 (E0 m) c 2))
    _ = m ((c : Thread nD τ).loc main_arg3) := W3_of m c main_arg3 (by decide) (by decide) (by decide)
/-- The first layer's bias: only a stretch reads it (to reshape it into a row). -/
theorem W8_main_arg4 (c : Dev nD) : W8 m c (Proc.devRef .tc main_arg4) = m ((c : Thread nD τ).loc main_arg4) :=
  calc W8 m c (Proc.devRef .tc main_arg4)
    _ = W7 m c (Proc.devRef .tc main_arg4) := W8_of_ne m c main_arg4 (by decide)
    _ = W6 m c (Proc.devRef .tc main_arg4) := W7_of m c main_arg4 (by decide)
    _ = W5 m c (Proc.devRef .tc main_arg4) := W6_of_ne m c main_arg4 (by decide)
    _ = W4 m c (Proc.devRef .tc main_arg4) := W5_of m c main_arg4 (by decide)
    _ = W3 m c (Proc.devRef .tc main_arg4) := W4_of_ne m c main_arg4 (by decide)
    _ = m ((c : Thread nD τ).loc main_arg4) := W3_of m c main_arg4 (by decide) (by decide) (by decide)
/-- The second layer's weights: the second call stages them as an input. -/
theorem W8_main_arg5 (c : Dev nD) : W8 m c (Proc.devRef .tc main_arg5) = m ((c : Thread nD τ).loc main_arg5) :=
  calc W8 m c (Proc.devRef .tc main_arg5)
    _ = W7 m c (Proc.devRef .tc main_arg5) := W8_of_ne m c main_arg5 (by decide)
    _ = W6 m c (Proc.devRef .tc main_arg5) := W7_of m c main_arg5 (by decide)
    _ = W5 m c (Proc.devRef .tc main_arg5) := (W6_arr m c 3).trans (((dat1 (E1 m) c).arrAt_in 3 rfl _).trans (A_eq1 (E1 m) c 3))
    _ = W4 m c (Proc.devRef .tc main_arg5) := W5_of m c main_arg5 (by decide)
    _ = W3 m c (Proc.devRef .tc main_arg5) := W4_of_ne m c main_arg5 (by decide)
    _ = m ((c : Thread nD τ).loc main_arg5) := W3_of m c main_arg5 (by decide) (by decide) (by decide)
/-- The second layer's bias: only a stretch reads it. -/
theorem W8_main_arg6 (c : Dev nD) : W8 m c (Proc.devRef .tc main_arg6) = m ((c : Thread nD τ).loc main_arg6) :=
  calc W8 m c (Proc.devRef .tc main_arg6)
    _ = W7 m c (Proc.devRef .tc main_arg6) := W8_of_ne m c main_arg6 (by decide)
    _ = W6 m c (Proc.devRef .tc main_arg6) := W7_of m c main_arg6 (by decide)
    _ = W5 m c (Proc.devRef .tc main_arg6) := W6_of_ne m c main_arg6 (by decide)
    _ = W4 m c (Proc.devRef .tc main_arg6) := W5_of m c main_arg6 (by decide)
    _ = W3 m c (Proc.devRef .tc main_arg6) := W4_of_ne m c main_arg6 (by decide)
    _ = m ((c : Thread nD τ).loc main_arg6) := W3_of m c main_arg6 (by decide) (by decide) (by decide)
/-- The read-out weights: the third call stages them as an input. -/
theorem W8_main_arg7 (c : Dev nD) : W8 m c (Proc.devRef .tc main_arg7) = m ((c : Thread nD τ).loc main_arg7) :=
  calc W8 m c (Proc.devRef .tc main_arg7)
    _ = W7 m c (Proc.devRef .tc main_arg7) := (W8_arr m c 4).trans (((dat2 (E2 m) c).arrAt_in 4 rfl _).trans (A_eq2 (E2 m) c 4))
    _ = W6 m c (Proc.devRef .tc main_arg7) := W7_of m c main_arg7 (by decide)
    _ = W5 m c (Proc.devRef .tc main_arg7) := W6_of_ne m c main_arg7 (by decide)
    _ = W4 m c (Proc.devRef .tc main_arg7) := W5_of m c main_arg7 (by decide)
    _ = W3 m c (Proc.devRef .tc main_arg7) := W4_of_ne m c main_arg7 (by decide)
    _ = m ((c : Thread nD τ).loc main_arg7) := W3_of m c main_arg7 (by decide) (by decide) (by decide)
/-- The read-out bias: only a stretch reads it. -/
theorem W8_main_arg8 (c : Dev nD) : W8 m c (Proc.devRef .tc main_arg8) = m ((c : Thread nD τ).loc main_arg8) :=
  calc W8 m c (Proc.devRef .tc main_arg8)
    _ = W7 m c (Proc.devRef .tc main_arg8) := W8_of_ne m c main_arg8 (by decide)
    _ = W6 m c (Proc.devRef .tc main_arg8) := W7_of m c main_arg8 (by decide)
    _ = W5 m c (Proc.devRef .tc main_arg8) := W6_of_ne m c main_arg8 (by decide)
    _ = W4 m c (Proc.devRef .tc main_arg8) := W5_of m c main_arg8 (by decide)
    _ = W3 m c (Proc.devRef .tc main_arg8) := W4_of_ne m c main_arg8 (by decide)
    _ = m ((c : Thread nD τ).loc main_arg8) := W3_of m c main_arg8 (by decide) (by decide) (by decide)

namespace Run

/-! ## The proof data family and the thread state -/

/-- Every call's proof data, each at the contents its call is entered from. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A stretch of host operations as an item: over the unscoped references from the contents `W`, `R` riding along;
    it leaves those references at what the operations compute from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the end's contents, the generator register at some state. -/
abbrev Tₙ (c : Dev nD) : sProp 𝕄 := iprop(StableHlo.held (c : Thread nD τ) (Pipeline.ucRefs τ sig) (W8 m c) ∗ ∃ r, prngReg c r)

/-! ## The calls as items -/

set_option backward.isDefEq.respectTransparency.types false in
/-- The first call over the thread state: entered from every unscoped buffer at `W3`, left at `W4`.  Its arrays
    are split out of the unscoped buffers and put back at the exit contents; the generator register goes into the
    call's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => W4 m c (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at `W5`, left at `W6`.  Its arrays
    are split out of the unscoped buffers and put back at the exit contents; the generator register goes into the
    call's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => W6 m c (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third call over the thread state: entered from every unscoped buffer at `W7`, left at `W8`.  Its arrays
    are split out of the unscoped buffers and put back at the exit contents; the generator register goes into the
    call's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show iprop((∃ r, prngReg c r) ∗ Pipeline.prefHeld (pcfgs (F := F) 2).pre c (fun _ => fullShare) (adm (F := F) 2).1
        ∗ Pipeline.scopedRest (Pipeline.pin (pcfgs (F := F)) adm 2).spec c) ⊢ (Pipeline.ΦA spec2 c : sProp 𝕄) from ?_).trans (hin2 (E2 m) c)
    unfold Pipeline.ΦA
    iintro ⟨Hp, -, Hr⟩
    isplitl [Hr]; · iexact Hr
    iexact Hp
  hout c := by
    rw [Pipeline.ownSems0_none]
    refine (show (pdats m 2 c).Φ (Fin.last _) ⊢ (Pipeline.ΦA spec2 c : sProp 𝕄) from hout2 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (fun b => W8 m c (Proc.devRef .tc b)) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

/-- The program's eight items in order: a host item per stretch from the contents it finds, a region per call. -/
abbrev items : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh fun c => StableHlo.after hostOps0 (W0 m c)),
    .host (hseg hostOps0_2 hostOps0_2_sub hostOps0_2_fresh fun c => StableHlo.after hostOps0_1 (StableHlo.after hostOps0 (W0 m c))),
    .region (reg0 m),
    .host (hseg hostOps1 hostOps1_sub hostOps1_fresh (W4 m)),
    .region (reg1 m),
    .host (hseg hostOps2 hostOps2_sub hostOps2_fresh (W6 m)),
    .region (reg2 m) ]

end Run

set_option backward.isDefEq.respectTransparency.types false in
/-- Every weakly fair execution terminates, nothing faulting, with every unscoped buffer of every core at W8. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (items m)
    (fun c Q => by
      rewrite [main_chain c, Pipeline.Seg.run_eq_chain,
        show (items m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The run with the result array named and the argument arrays unchanged. -/
theorem run_value : θ_run defs (onTc (τ := τ) (main (F := F))) ⟨m, fun _ => 0, ρ⟩ (fun r => ∀ c : Dev nD,
      r.2.mem ((c.tc : Thread nD τ).loc main_v42) = (dat2 (E2 m) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v42 (by decide))).trans (W8_main_v42 m c),
     (h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c),
     (h c _ (mem_uc main_arg8 (by decide))).trans (W8_main_arg8 m c)⟩) (run_all m ρ)

/-- The frame: the run with only the argument arrays read. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_value m ρ)

end Cert.Kernel.Fr

end
-- ==== Proof.KI.Reg0.lean ====
/-
  The first pallas_call (one grid point per tile of 10000 node rows): at a grid point the body multiplies the tile of the
  node features by the weight matrix and scales row r of the product by the r-th entry of the tile of the column of
  inverse square-root degrees.  Stated here at any contents V of the core's buffers when the call is entered: the
  blocks the windows stage, what the body's one store leaves in the output window's buffer, the pipeline's proof data
  and the body's obligation at every point.
-/
import proofs.«427760_j11510512353338_2_alg».proof.Proof.Gen.KernelIdeal.Launch
import proofs.«427760_j11510512353338_2_alg».proof.Proof.Gen.KernelIdeal.Skeleton
import proofs.«427760_j11510512353338_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The origin of every whole-buffer rectangle of this body is the zero index. -/
theorem firstLayer_origin : (![0, 0] : Fin 2 → Nat) = fun _ => 0 := funext fun a => by fin_cases a <;> rfl

/-- The buffer of the features tile holds the tile's block at every point, for any proof data whose array is V's
    and whose body leaves the block in place. -/
theorem featTile0_before_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The buffer of the tile of the inverse square-root degree column holds its block at every point, likewise. -/
theorem degTile0_before_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The buffer of the weight matrix, brought in at the first point only, holds the matrix at every point: its block
    index never moves, so what the first point brought in is every point's block. -/
theorem weights0_before_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one rectangle every access of the body uses on each buffer: the whole buffer. -/
abbrev rX0 : Rect S10000x128 := Rect.unit (s := S10000x128) ![0, 0] S10000x128.size inb_S10000x128_S10000x128_0_0
abbrev rD0 : Rect S10000x1 := Rect.unit (s := S10000x1) ![0, 0] S10000x1.size inb_S10000x1_S10000x1_0_0
abbrev rW0 : Rect S128x128 := Rect.unit (s := S128x128) ![0, 0] S128x128.size inb_S128x128_S128x128_0_0

/-- The body's one store is through the whole-buffer rectangle, so it covers every index of the output tile. -/
theorem storeCovers0 (p : FVec F S10000x128 .f32) (y : S10000x128.Idx) :
    ∃ pc ∈ ([⟨rX0, p⟩] : List (View.Piece (Elt F) S10000x128 .f32)), y ∈ pc.1.set :=
  ⟨⟨rX0, p⟩, List.mem_singleton_self _, View.mem_set_unit_zero firstLayer_origin inb_S10000x128_S10000x128_0_0 y⟩

/-- The output window's buffer after the body, from the three input blocks (features, degree column, weights). -/
def out0_3 (x0 : Vec F S10000x128 .f32) (x1 : Vec F S10000x1 .f32) (x2 : Vec F S128x128 .f32) : Vec F S10000x128 .f32 :=
  View.canon [⟨rX0, k0_pay1 (View.ld x0 rX0) (View.ld x2 rW0) (View.ld x1 rD0)⟩]

set_option maxHeartbeats 1000000 in
/-- The body on whole buffers: with the features tile, the degree column tile and the weight matrix reading x0, x1, x2
    and the output buffer at anything, it runs to the continuation holding the three inputs as they were and the
    output buffer at the scaled product of them. -/
theorem firstLayer_body_triple (c : Dev nD) (E : Set ℕ) (i : grid0.Coords)
    (arg1 : Memref sig .tc .vmem S10000x128 .f32) (harg1 : arg1.IsWhole)
    (arg2 : Memref sig .tc .vmem S10000x1 .f32) (harg2 : arg2.IsWhole)
    (arg3 : Memref sig .tc .vmem S128x128 .f32) (harg3 : arg3.IsWhole)
    (arg4 : Memref sig .tc .vmem S10000x128 .f32) (harg4 : arg4.IsWhole)
    (x0 : Vec F S10000x128 .f32) (x1 : Vec F S10000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__first_layer_kernel i arg1 harg1 arg2 harg2 arg3 harg3 arg4 harg4) K := by
  simp only [cc0__first_layer_kernel_eq_skeleton]; unfold cc0__first_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (storeCovers0 _)

/-- The proof data of the first pallas_call on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- The output buffer after the body is the body's product term of the three blocks (the whole-buffer reads and the
    one whole-buffer store read through). -/
theorem out0_3_eq (x0 : Vec F S10000x128 .f32) (x1 : Vec F S10000x1 .f32) (x2 : Vec F S128x128 .f32) :
    out0_3 x0 x1 x2 = k0_pay1 x0 x2 x1 := by
  unfold out0_3
  rw [View.canon_unit_zero firstLayer_origin]
  simp only [View.ld_unit_zero (S := S10000x128) firstLayer_origin, View.ld_unit_zero (S := S10000x1) firstLayer_origin,
    View.ld_unit_zero (S := S128x128) firstLayer_origin]

/-- Each input's buffer holds its block at every point. -/
theorem featTile0_before (c : Dev nD) (t : Fin cfg0.N) (d) : (dat0 V c).before 0 t d = iblk0 V c 0 t :=
  featTile0_before_of V (dat0 V c) (A_eq0 V c 0) (after0_0 V c) t d
theorem degTile0_before (c : Dev nD) (t : Fin cfg0.N) (d) : (dat0 V c).before 1 t d = iblk0 V c 1 t :=
  degTile0_before_of V (dat0 V c) (A_eq0 V c 1) (after0_1 V c) t d
theorem weights0_before (c : Dev nD) (t : Fin cfg0.N) (d) : (dat0 V c).before 2 t d = iblk0 V c 2 t :=
  weights0_before_of V (dat0 V c) (A_eq0 V c 2) (after0_2 V c) t d

/-- What the body is called with at point t, the windows one by one, -/
def firstLayerPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def firstLayerPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three input buffers hold their blocks, so the body's triple applies at them; the
    invariant and what the core owes pass through unread. -/
theorem firstLayer_body_at (c : Dev nD) (t : Fin cfg0.N) :
    firstLayerPre V c t ⊢ wp frame (wpE (defs₀ (F := F)) Variants.none c none) Set.univ (bodyAt0 t) (fun _ => firstLayerPost V c t) := by
  unfold firstLayerPre firstLayerPost bodyAt0
  simp only [featTile0_before, degTile0_before, weights0_before]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (firstLayer_body_triple c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every grid point. -/
theorem body_obligation0 (c : Dev nD) : BodyObligation (dat0 (F := F) V c) (defs₀ (F := F)) Variants.none () Set.univ := fun t => by
  rw [bigSep_W0, bigSep_W0]
  exact firstLayer_body_at V c t

end Cert.KernelIdeal.Fr

end
-- ==== Proof.KI.Reg1.lean ====
/-
  The second pallas_call (one grid point per tile of 10000 node rows): at a grid point the body finishes the first
  graph-convolution layer on the tile (scale row r of the raw neighbour sum by the r-th inverse square-root degree, add
  the bias row, clamp below at zero), multiplies the result by the second weight matrix and scales row r of the product
  by the same degree entry.  Stated at any contents V of the core's buffers when the call is entered.
-/
import proofs.«427760_j11510512353338_2_alg».proof.Proof.Gen.KernelIdeal.Launch
import proofs.«427760_j11510512353338_2_alg».proof.Proof.Gen.KernelIdeal.Skeleton
import proofs.«427760_j11510512353338_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The one rectangle every access of the body uses on each buffer: the whole buffer. -/
abbrev rX1 : Rect S10000x128 := Rect.unit (s := S10000x128) ![0, 0] S10000x128.size inb_S10000x128_S10000x128_0_0
abbrev rD1 : Rect S10000x1 := Rect.unit (s := S10000x1) ![0, 0] S10000x1.size inb_S10000x1_S10000x1_0_0
abbrev rB1 : Rect S1x128 := Rect.unit (s := S1x128) ![0, 0] S1x128.size inb_S1x128_S1x128_0_0
abbrev rW1 : Rect S128x128 := Rect.unit (s := S128x128) ![0, 0] S128x128.size inb_S128x128_S128x128_0_0

/-- The output window's buffer after the body, from the four input blocks (raw sums, degree column, bias row, weights). -/
def out1_4 (x0 : Vec F S10000x128 .f32) (x1 : Vec F S10000x1 .f32) (x2 : Vec F S1x128 .f32) (x3 : Vec F S128x128 .f32) : Vec F S10000x128 .f32 :=
  View.canon [⟨rX1, k1_pay1 (View.ld x0 rX1) (View.ld x1 rD1) (View.ld x2 rB1) (View.ld x3 rW1) (View.ld x1 rD1)⟩]

/-- The proof data of the second pallas_call on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- The offset of every whole-buffer rectangle is the zero index. -/
theorem origin1 : (![0, 0] : Fin 2 → Nat) = fun _ => 0 := funext fun a => by fin_cases a <;> rfl

/-- The output buffer after the body is the body's term of the four blocks (the whole-buffer reads and the one
    whole-buffer store read through). -/
theorem out1_4_eq (x0 : Vec F S10000x128 .f32) (x1 : Vec F S10000x1 .f32) (x2 : Vec F S1x128 .f32) (x3 : Vec F S128x128 .f32) :
    out1_4 x0 x1 x2 x3 = k1_pay1 x0 x1 x2 x3 x1 := by
  unfold out1_4
  rw [View.canon_unit_zero origin1]
  simp only [View.ld_unit_zero (S := S10000x128) origin1, View.ld_unit_zero (S := S10000x1) origin1,
    View.ld_unit_zero (S := S1x128) origin1, View.ld_unit_zero (S := S128x128) origin1]

/-! ## What each input window's current buffer holds when the body is entered -/

/-- The raw-sums tile: its current buffer holds the tile's block at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The degree-column tile: likewise. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The bias row, brought in at the first point only and left in place by the body: its buffer holds the row at
    every point, the block index never moving. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The second weight matrix: likewise. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body's triple -/

/-- The one store is through the whole-buffer rectangle, so it covers the output buffer. -/
theorem cover1_4 (p : Vec F S10000x128 .f32) (y : S10000x128.Idx) :
    ∃ pc ∈ ([⟨rX1, p⟩] : List (View.Piece (Elt F) S10000x128 .f32)), y ∈ pc.1.set :=
  ⟨_, List.mem_singleton_self _, View.mem_set_unit_zero origin1 inb_S10000x128_S10000x128_0_0 y⟩

set_option maxHeartbeats 1000000 in
/-- The body on whole staging buffers, the four inputs' at contents x0 … x3 and the output's at anything, runs to the
    continuation holding the inputs' as they were and the output's at the layer's term of the inputs. -/
theorem sound_kernel1 (c : Dev nD) (E : Set ℕ) (i : grid1.Coords)
    (arg1 : Memref sig .tc .vmem S10000x128 .f32) (harg1 : arg1.IsWhole)
    (arg2 : Memref sig .tc .vmem S10000x1 .f32) (harg2 : arg2.IsWhole)
    (arg3 : Memref sig .tc .vmem S1x128 .f32) (harg3 : arg3.IsWhole)
    (arg4 : Memref sig .tc .vmem S128x128 .f32) (harg4 : arg4.IsWhole)
    (arg5 : Memref sig .tc .vmem S10000x128 .f32) (harg5 : arg5.IsWhole)
    (x0 : Vec F S10000x128 .f32) (x1 : Vec F S10000x1 .f32) (x2 : Vec F S1x128 .f32) (x3 : Vec F S128x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__hidden_layer_kernel i arg1 harg1 arg2 harg2 arg3 harg3 arg4 harg4 arg5 harg5) K := by
  simp only [cc1__hidden_layer_kernel_eq_skeleton]; unfold cc1__hidden_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the four input buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
/-
  The third pallas_call (one grid point per tile of 10000 node rows, the points run in order): the body finishes the
  second graph-convolution layer on the tile, adds the tile's per-graph feature sums (a one-hot matrix of the graph ids
  against the features) into a 64 x 128 accumulator and the tile's per-graph node counts into a 64 x 1 accumulator, both
  cleared at the first point and kept between points, and at the last point divides the sums by the counts clamped below
  at one, multiplies by the head's weights, adds its bias and stores the 64 x 10 result.  Stated at any contents V of
  the core's buffers when the call is entered.
-/
import proofs.«427760_j11510512353338_2_alg».proof.Proof.Gen.KernelIdeal.Launch
import proofs.«427760_j11510512353338_2_alg».proof.Proof.Gen.KernelIdeal.Skeleton
import proofs.«427760_j11510512353338_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two accumulators the body keeps between grid points, as whole memrefs. -/
abbrev scM2_0 : Memref sig .tc .vmem S64x128 .f32 := Memref.whole cc2_scratch0
abbrev scM2_1 : Memref sig .tc .vmem S64x1 .f32 := Memref.whole cc2_scratch1

/-- What the two accumulators (sums, counts) hold after the body at position n: at the first point the tile's
    contribution over the cleared accumulators, afterwards over what the point before left. -/
def scAt2 (c : Dev nD) : (n : ℕ) → n < cfg2.N → Vec F S64x128 .f32 × Vec F S64x1 .f32
  | 0, hn => (k2_pay5 (iblk2 V c 0 ⟨0, hn⟩) (iblk2 V c 1 ⟨0, hn⟩) (iblk2 V c 2 ⟨0, hn⟩) (iblk2 V c 3 ⟨0, hn⟩) (k2_pay2 (F := F)),
              k2_pay6 (iblk2 V c 3 ⟨0, hn⟩) (k2_pay3 (F := F)))
  | n + 1, hn => (k2_pay5 (iblk2 V c 0 ⟨n + 1, hn⟩) (iblk2 V c 1 ⟨n + 1, hn⟩) (iblk2 V c 2 ⟨n + 1, hn⟩) (iblk2 V c 3 ⟨n + 1, hn⟩) (scAt2 c n (Nat.lt_of_succ_lt hn)).1,
              k2_pay6 (iblk2 V c 3 ⟨n + 1, hn⟩) (scAt2 c n (Nat.lt_of_succ_lt hn)).2)

/-- What the output window's buffer holds after the body at the last point: the head applied to the finished
    accumulators. (At the other points the body stores nothing there and the window is idle.) -/
def out2_6 (c : Dev nD) (t : Fin cfg2.N) : Vec F S64x10 .f32 :=
  k2_pay1 (scAt2 V c t.val t.isLt).1 (scAt2 V c t.val t.isLt).2 (iblk2 V c 4 t) (iblk2 V c 5 t)

/-- The scoped buffers of the core that this call neither stages nor keeps as an accumulator (the other two calls'
    staging buffers), each whole at some contents. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The call's invariant before position n: before the first point every scoped buffer the call does not stage at
    anything and the generator register at some state; afterwards the two accumulators at what the point before left,
    the other scoped buffers at anything, the register at some state. -/
def PhiS2 (c : Dev nD) : (n : ℕ) → n ≤ cfg2.N → sProp 𝕄
  | 0, _ => Pipeline.ΦA spec2 c
  | n + 1, hn => iprop(owns (c : Thread nD τ) scM2_0 fullShare (scAt2 V c n hn).1 ∗ owns (c : Thread nD τ) scM2_1 fullShare (scAt2 V c n hn).2
      ∗ rest2 (F := F) c ∗ (∃ r, prngReg c r))

/-- The proof data of the third pallas_call on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out2_6 V c t := by dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]

/-! ## The body's two conditionals -/

/-- The conditions of the body's two conditionals, from the grid coordinate: the first point, the last point. -/
abbrev cond2_0 (i : grid2.Coords) : Prop := (Scalar.cmpi .ne (Scalar.extui (Scalar.cmpi .eq (BitVec.ofNat 32 (i 0).val) 0#32)) 0#32) = 1#1
abbrev cond2_1 (i : grid2.Coords) : Prop := k2_cond2 i = 1#1

theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 9 :=
  (by decide +kernel : ∀ t : Fin grid2.N, cond2_1 (grid2.coords t) ↔ t.val = 9)

/-- Zero offsets on two axes, however spelt. -/
theorem zero_off2 : (![0, 0] : Fin 2 → Nat) = fun _ => 0 := funext fun a => by fin_cases a <;> rfl

/-- A whole-buffer store made last is what the buffer then reads, whatever was stored before. -/
theorem read_last_whole_store {sg : RefSig} {κ : Kind} {sp : Space} {S : Shape} {e : EltTy} {Val : EltTy → Type} [∀ e, Nonempty (Val e)]
    {off : Fin S.rank → Nat} (h : off = fun _ => 0) (inb : ∀ a, off a + S.size a ≤ S.size a)
    (v : View sg κ sp S e) (f : v.ty.Contents Val) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h inb]

/-- A whole-buffer load of a whole memref held at contents that read X reads X. -/
theorem load_whole_unread {sg : RefSig} {κ : Kind} {sp : Space} {S : Shape} {e : EltTy} {Val : EltTy → Type}
    {off : Fin S.rank → Nat} (h : off = fun _ => 0) (inb : ∀ a, off a + S.size a ≤ S.size a)
    (m : Memref sg κ sp S e) (hm : m.IsWhole) (X : S.Idx → Val e) :
    m.view.readAt Val (Rect.unit off S.size inb).toLoadRect (hm.unread X) = X := by
  rw [View.readAt_eq_ld, hm.read_unread, View.ld_unit_zero h inb]

/-! ## The body run in each of its three cases -/

set_option maxHeartbeats 4000000 in
/-- The body at the first point: whatever the two accumulators held, they are cleared and then take the tile's
    contribution; the four blocks the update reads are left as they were. -/
theorem body_first_point (c : Dev nD) (i : grid2.Coords) (arg1 : Memref sig .tc .vmem S10000x128 .f32) (harg1 : arg1.IsWhole) (arg2 : Memref sig .tc .vmem S10000x1 .f32) (harg2 : arg2.IsWhole) (arg3 : Memref sig .tc .vmem S1x128 .f32) (harg3 : arg3.IsWhole) (arg4 : Memref sig .tc .vmem S10000x1 .i32) (harg4 : arg4.IsWhole) (arg5 : Memref sig .tc .vmem S128x10 .f32) (harg5 : arg5.IsWhole) (arg6 : Memref sig .tc .vmem S1x10 .f32) (harg6 : arg6.IsWhole) (arg7 : Memref sig .tc .vmem S64x10 .f32) (harg7 : arg7.IsWhole) (arg8 : Memref sig .tc .vmem S64x128 .f32) (harg8 : arg8.IsWhole) (arg9 : Memref sig .tc .vmem S64x1 .f32) (harg9 : arg9.IsWhole)
    (hc0 : cond2_0 i) (hc1 : ¬cond2_1 i)
    (x0 : Vec F S10000x128 .f32) (x1 : Vec F S10000x1 .f32) (x2 : Vec F S1x128 .f32) (x3 : Vec F S10000x1 .i32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg8 fullShare (k2_pay5 x0 x1 x2 x3 (k2_pay2 (F := F)))
            ∗ owns (c : Thread nD τ) arg9 fullShare (k2_pay6 x3 (k2_pay3 (F := F)))) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9) K := by
  simp only [cc2_kernel_eq_skeleton]; unfold cc2_kernel_skel
  simp only [k2_part1_eq_skeleton]
  unfold owns
  iintro ⟨⟨%f1, %hf1, H1⟩, ⟨%f2, %hf2, H2⟩, ⟨%f3, %hf3, H3⟩, ⟨%f4, %hf4, H4⟩, ⟨%d8, %f8, -, H8⟩, ⟨%d9, %f9, -, H9⟩, Hk⟩
  obtain rfl := harg1.eq_unread hf1; obtain rfl := harg2.eq_unread hf2; obtain rfl := harg3.eq_unread hf3
  obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H8]
  · iexists _; isplitr
    swap; · iexact H8
    ipureintro; sl_unfold_words
    simp only [read_last_whole_store (S := S64x128) zero_off2, read_last_whole_store (S := S64x1) zero_off2, read_last_whole_store (S := S64x10) zero_off2,
      load_whole_unread (S := S10000x128) zero_off2, load_whole_unread (S := S10000x1) zero_off2, load_whole_unread (S := S1x128) zero_off2,
      load_whole_unread (S := S128x10) zero_off2, load_whole_unread (S := S1x10) zero_off2, load_whole_unread (S := S64x128) zero_off2, load_whole_unread (S := S64x1) zero_off2,
      View.readCov_unit_zero (S := S64x128) _ zero_off2, View.readCov_unit_zero (S := S64x1) _ zero_off2]
  iexists _; isplitr
  swap; · iexact H9
  ipureintro; sl_unfold_words
  simp only [read_last_whole_store (S := S64x128) zero_off2, read_last_whole_store (S := S64x1) zero_off2, read_last_whole_store (S := S64x10) zero_off2,
      load_whole_unread (S := S10000x128) zero_off2, load_whole_unread (S := S10000x1) zero_off2, load_whole_unread (S := S1x128) zero_off2,
      load_whole_unread (S := S128x10) zero_off2, load_whole_unread (S := S1x10) zero_off2, load_whole_unread (S := S64x128) zero_off2, load_whole_unread (S := S64x1) zero_off2,
      View.readCov_unit_zero (S := S64x128) _ zero_off2, View.readCov_unit_zero (S := S64x1) _ zero_off2]

set_option maxHeartbeats 4000000 in
/-- The body at a point that is neither the first nor the last: each accumulator takes the tile's contribution over
    what it held; the four blocks the update reads are left as they were. -/
theorem body_inner_point (c : Dev nD) (i : grid2.Coords) (arg1 : Memref sig .tc .vmem S10000x128 .f32) (harg1 : arg1.IsWhole) (arg2 : Memref sig .tc .vmem S10000x1 .f32) (harg2 : arg2.IsWhole) (arg3 : Memref sig .tc .vmem S1x128 .f32) (harg3 : arg3.IsWhole) (arg4 : Memref sig .tc .vmem S10000x1 .i32) (harg4 : arg4.IsWhole) (arg5 : Memref sig .tc .vmem S128x10 .f32) (harg5 : arg5.IsWhole) (arg6 : Memref sig .tc .vmem S1x10 .f32) (harg6 : arg6.IsWhole) (arg7 : Memref sig .tc .vmem S64x10 .f32) (harg7 : arg7.IsWhole) (arg8 : Memref sig .tc .vmem S64x128 .f32) (harg8 : arg8.IsWhole) (arg9 : Memref sig .tc .vmem S64x1 .f32) (harg9 : arg9.IsWhole)
    (hc0 : ¬cond2_0 i) (hc1 : ¬cond2_1 i)
    (x0 : Vec F S10000x128 .f32) (x1 : Vec F S10000x1 .f32) (x2 : Vec F S1x128 .f32) (x3 : Vec F S10000x1 .i32)
    (s0 : Vec F S64x128 .f32) (s1 : Vec F S64x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg8 fullShare (k2_pay5 x0 x1 x2 x3 s0)
            ∗ owns (c : Thread nD τ) arg9 fullShare (k2_pay6 x3 s1)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9) K := by
  simp only [cc2_kernel_eq_skeleton]; unfold cc2_kernel_skel
  simp only [k2_part1_eq_skeleton]
  unfold owns
  iintro ⟨⟨%f1, %hf1, H1⟩, ⟨%f2, %hf2, H2⟩, ⟨%f3, %hf3, H3⟩, ⟨%f4, %hf4, H4⟩, ⟨%f8, %hf8, H8⟩, ⟨%f9, %hf9, H9⟩, Hk⟩
  obtain rfl := harg1.eq_unread hf1; obtain rfl := harg2.eq_unread hf2; obtain rfl := harg3.eq_unread hf3
  obtain rfl := harg4.eq_unread hf4; obtain rfl := harg8.eq_unread hf8; obtain rfl := harg9.eq_unread hf9
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H8]
  · iexists _; isplitr
    swap; · iexact H8
    ipureintro; sl_unfold_words
    simp only [read_last_whole_store (S := S64x128) zero_off2, read_last_whole_store (S := S64x1) zero_off2, read_last_whole_store (S := S64x10) zero_off2,
      load_whole_unread (S := S10000x128) zero_off2, load_whole_unread (S := S10000x1) zero_off2, load_whole_unread (S := S1x128) zero_off2,
      load_whole_unread (S := S128x10) zero_off2, load_whole_unread (S := S1x10) zero_off2, load_whole_unread (S := S64x128) zero_off2, load_whole_unread (S := S64x1) zero_off2,
      View.readCov_unit_zero (S := S64x128) _ zero_off2, View.readCov_unit_zero (S := S64x1) _ zero_off2]
  iexists _; isplitr
  swap; · iexact H9
  ipureintro; sl_unfold_words
  simp only [read_last_whole_store (S := S64x128) zero_off2, read_last_whole_store (S := S64x1) zero_off2, read_last_whole_store (S := S64x10) zero_off2,
      load_whole_unread (S := S10000x128) zero_off2, load_whole_unread (S := S10000x1) zero_off2, load_whole_unread (S := S1x128) zero_off2,
      load_whole_unread (S := S128x10) zero_off2, load_whole_unread (S := S1x10) zero_off2, load_whole_unread (S := S64x128) zero_off2, load_whole_unread (S := S64x1) zero_off2,
      View.readCov_unit_zero (S := S64x128) _ zero_off2, View.readCov_unit_zero (S := S64x1) _ zero_off2]

set_option maxHeartbeats 4000000 in
/-- The body at the last point: each accumulator takes the tile's contribution over what it held, and the output
    buffer, whatever it held, takes the head applied to the finished accumulators; the six blocks read are left as
    they were. -/
theorem body_last_point (c : Dev nD) (i : grid2.Coords) (arg1 : Memref sig .tc .vmem S10000x128 .f32) (harg1 : arg1.IsWhole) (arg2 : Memref sig .tc .vmem S10000x1 .f32) (harg2 : arg2.IsWhole) (arg3 : Memref sig .tc .vmem S1x128 .f32) (harg3 : arg3.IsWhole) (arg4 : Memref sig .tc .vmem S10000x1 .i32) (harg4 : arg4.IsWhole) (arg5 : Memref sig .tc .vmem S128x10 .f32) (harg5 : arg5.IsWhole) (arg6 : Memref sig .tc .vmem S1x10 .f32) (harg6 : arg6.IsWhole) (arg7 : Memref sig .tc .vmem S64x10 .f32) (harg7 : arg7.IsWhole) (arg8 : Memref sig .tc .vmem S64x128 .f32) (harg8 : arg8.IsWhole) (arg9 : Memref sig .tc .vmem S64x1 .f32) (harg9 : arg9.IsWhole)
    (hc0 : ¬cond2_0 i) (hc1 : cond2_1 i)
    (x0 : Vec F S10000x128 .f32) (x1 : Vec F S10000x1 .f32) (x2 : Vec F S1x128 .f32) (x3 : Vec F S10000x1 .i32)
    (x4 : Vec F S128x10 .f32) (x5 : Vec F S1x10 .f32) (s0 : Vec F S64x128 .f32) (s1 : Vec F S64x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k2_pay1 (k2_pay5 x0 x1 x2 x3 s0) (k2_pay6 x3 s1) x4 x5)
            ∗ owns (c : Thread nD τ) arg8 fullShare (k2_pay5 x0 x1 x2 x3 s0)
            ∗ owns (c : Thread nD τ) arg9 fullShare (k2_pay6 x3 s1)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9) K := by
  simp only [cc2_kernel_eq_skeleton]; unfold cc2_kernel_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg8.eq_unread hf8; obtain rfl := harg9.eq_unread hf9
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro; sl_unfold_words
    simp only [read_last_whole_store (S := S64x128) zero_off2, read_last_whole_store (S := S64x1) zero_off2, read_last_whole_store (S := S64x10) zero_off2,
      load_whole_unread (S := S10000x128) zero_off2, load_whole_unread (S := S10000x1) zero_off2, load_whole_unread (S := S1x128) zero_off2,
      load_whole_unread (S := S128x10) zero_off2, load_whole_unread (S := S1x10) zero_off2, load_whole_unread (S := S64x128) zero_off2, load_whole_unread (S := S64x1) zero_off2,
      View.readCov_unit_zero (S := S64x128) _ zero_off2, View.readCov_unit_zero (S := S64x1) _ zero_off2]
  isplitl [H8]
  · iexists _; isplitr
    swap; · iexact H8
    ipureintro; sl_unfold_words
    simp only [read_last_whole_store (S := S64x128) zero_off2, read_last_whole_store (S := S64x1) zero_off2, read_last_whole_store (S := S64x10) zero_off2,
      load_whole_unread (S := S10000x128) zero_off2, load_whole_unread (S := S10000x1) zero_off2, load_whole_unread (S := S1x128) zero_off2,
      load_whole_unread (S := S128x10) zero_off2, load_whole_unread (S := S1x10) zero_off2, load_whole_unread (S := S64x128) zero_off2, load_whole_unread (S := S64x1) zero_off2,
      View.readCov_unit_zero (S := S64x128) _ zero_off2, View.readCov_unit_zero (S := S64x1) _ zero_off2]
  iexists _; isplitr
  swap; · iexact H9
  ipureintro; sl_unfold_words
  simp only [read_last_whole_store (S := S64x128) zero_off2, read_last_whole_store (S := S64x1) zero_off2, read_last_whole_store (S := S64x10) zero_off2,
      load_whole_unread (S := S10000x128) zero_off2, load_whole_unread (S := S10000x1) zero_off2, load_whole_unread (S := S1x128) zero_off2,
      load_whole_unread (S := S128x10) zero_off2, load_whole_unread (S := S1x10) zero_off2, load_whole_unread (S := S64x128) zero_off2, load_whole_unread (S := S64x1) zero_off2,
      View.readCov_unit_zero (S := S64x128) _ zero_off2, View.readCov_unit_zero (S := S64x1) _ zero_off2]

/-! ## Where the conditionals hold, and where the output window is idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Off the last point the printed configuration calls the output window idle, and the pipeline does not write it back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
/-- At the last point it is live. -/
theorem liveAt2_6 : ∀ t : Fin cfg2.N, cond2_1 (grid2.coords t) → cfg2.idle 6 (grid2.coords t) = false := by decide +kernel

/-- Each window's current staging memref at point t, spelled as the pipeline passes it, and its wholeness. -/
abbrev ms2_0 (t : Fin cfg2.N) : Memref sig .tc .vmem S10000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S10000x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x10 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x10 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S64x10 .f32 := win2_6.stage (cfg2.slots t 6)
abbrev hs2_6 (t : Fin cfg2.N) : (ms2_6 t).IsWhole := hstage2_6 ((cfg2.slots t 6).cast nbuf2_6)

/-! ## The accumulators point by point, and the invariant -/

theorem scAt2_zero_fst (c : Dev nD) (t : Fin cfg2.N) (h : t.val = 0) :
    (scAt2 V c t.val t.isLt).1 = k2_pay5 (iblk2 V c 0 t) (iblk2 V c 1 t) (iblk2 V c 2 t) (iblk2 V c 3 t) (k2_pay2 (F := F)) := by
  obtain ⟨n, hn⟩ := t
  cases n with
  | zero => rfl
  | succ n => exact absurd h (Nat.succ_ne_zero n)

theorem scAt2_zero_snd (c : Dev nD) (t : Fin cfg2.N) (h : t.val = 0) :
    (scAt2 V c t.val t.isLt).2 = k2_pay6 (iblk2 V c 3 t) (k2_pay3 (F := F)) := by
  obtain ⟨n, hn⟩ := t
  cases n with
  | zero => rfl
  | succ n => exact absurd h (Nat.succ_ne_zero n)

theorem scAt2_pos_fst (c : Dev nD) (t : Fin cfg2.N) (h : t.val ≠ 0) (hp : t.val - 1 < cfg2.N) :
    (scAt2 V c t.val t.isLt).1 = k2_pay5 (iblk2 V c 0 t) (iblk2 V c 1 t) (iblk2 V c 2 t) (iblk2 V c 3 t) (scAt2 V c (t.val - 1) hp).1 := by
  obtain ⟨n, hn⟩ := t
  cases n with
  | zero => exact absurd rfl h
  | succ n => rfl

theorem scAt2_pos_snd (c : Dev nD) (t : Fin cfg2.N) (h : t.val ≠ 0) (hp : t.val - 1 < cfg2.N) :
    (scAt2 V c t.val t.isLt).2 = k2_pay6 (iblk2 V c 3 t) (scAt2 V c (t.val - 1) hp).2 := by
  obtain ⟨n, hn⟩ := t
  cases n with
  | zero => exact absurd rfl h
  | succ n => rfl

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2_0 fullShare (scAt2 V c n hn).1 ∗ owns (c : Thread nD τ) scM2_1 fullShare (scAt2 V c n hn).2
      ∗ rest2 (F := F) c ∗ (∃ r, prngReg c r)) := rfl

theorem PhiS2_pos (c : Dev nD) (n : ℕ) (h : n ≤ cfg2.N) (hz : n ≠ 0) (hp : n - 1 < cfg2.N) :
    PhiS2 V c n h = iprop(owns (c : Thread nD τ) scM2_0 fullShare (scAt2 V c (n - 1) hp).1 ∗ owns (c : Thread nD τ) scM2_1 fullShare (scAt2 V c (n - 1) hp).2
      ∗ rest2 (F := F) c ∗ (∃ r, prngReg c r)) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

/-- What the launch hands the call, with the two accumulators as whole memrefs at some contents and the other
    scoped buffers gathered: the same seventeen buffers and the register, regrouped. -/
theorem PhiA2_eq (c : Dev nD) :
    (Pipeline.ΦA spec2 c : sProp 𝕄)
      = iprop((∃ d, owns (c : Thread nD τ) scM2_0 fullShare d) ∗ (∃ d, owns (c : Thread nD τ) scM2_1 fullShare d)
          ∗ rest2 (F := F) c ∗ (∃ r, prngReg c r)) := by
  unfold Pipeline.ΦA rest2; rw [scopedRest2_eq]; simp only [scM2_0, scM2_1, owns_whole]
  refine BI.equiv_iff.mp ⟨?_, ?_⟩
  · show (_ : sProp 𝕄) ⊢ _
    iintro ⟨⟨B1, B2, B3, B4, B5, B6, B7, B8, B9, B10, B11, B12, B13, B14, B15, S0, S1⟩, Hg⟩
    isplitl [S0]; · iexact S0
    isplitl [S1]; · iexact S1
    isplitr [Hg]
    swap; · iexact Hg
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    iexact B15
  · show (_ : sProp 𝕄) ⊢ _
    iintro ⟨S0, S1, ⟨B1, B2, B3, B4, B5, B6, B7, B8, B9, B10, B11, B12, B13, B14, B15⟩, Hg⟩
    isplitr [Hg]
    swap; · iexact Hg
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    isplitl [S0]; · iexact S0
    iexact S1

/-! ## The input windows hold their blocks -/

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)

theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (ms2_3 t) fullShare (iblk2 V c 3 t) := by
  unfold Dat.leavesExact; rw [liveAt2_3 t, after2_3]
theorem leaves2_4 (c : Dev nD) (t : Fin cfg2.N) :
    (dat2 V c).leavesExact 4 t = owns (c : Thread nD τ) (ms2_4 t) fullShare (iblk2 V c 4 t) := by
  unfold Dat.leavesExact; rw [liveAt2_4 t, after2_4]
theorem leaves2_5 (c : Dev nD) (t : Fin cfg2.N) :
    (dat2 V c).leavesExact 5 t = owns (c : Thread nD τ) (ms2_5 t) fullShare (iblk2 V c 5 t) := by
  unfold Dat.leavesExact; rw [liveAt2_5 t, after2_5]

/-! ## The body's obligation at a point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the input windows' memrefs hold their blocks; the point is the first, the last or neither,
    and the matching run applies; the invariant hands the body the two accumulators at what the point before left (at
    anything at the first point) and takes them back at this point's contents; off the last point the output window's
    buffer goes back untouched, at the last point it holds the head of the finished accumulators. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5]
  have hN : t.val < 10 := lt_of_lt_of_eq t.isLt (show cfg2.N = 10 from N_2)
  have hp : t.val - 1 < cfg2.N := Nat.lt_of_le_of_lt (Nat.sub_le _ _) t.isLt
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 6 t (idleAt2_6 t hc1) (noFlush2_6 t hc1)]
    rw [scAt2_zero_fst V c t h0, scAt2_zero_snd V c t h0]
    rw [PhiS2_castSucc V c t, PhiS2_zero V c _ _ h0, PhiA2_eq]
    iintro ⟨⟨⟨%e0, HS0⟩, ⟨%e1, HS1⟩, HR, Hg⟩, Ho, ⟨%d0, H0⟩, ⟨%d1, H1⟩, ⟨%d2, H2⟩, ⟨%d3, H3⟩, ⟨%d4, H4⟩, ⟨%d5, H5⟩, ⟨%d6, H6⟩⟩
    iapply (body_first_point c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    iintro ⟨H0, H1, H2, H3, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hc0 : ¬cond2_0 (grid2.coords t) := fun h => h0 ((hcond2_0 t).mp h)
    rw [scAt2_pos_fst V c t h0 hp, scAt2_pos_snd V c t h0 hp]
    rw [PhiS2_castSucc V c t, PhiS2_pos V c _ _ h0 hp]
    by_cases h9 : t.val = 9
    · have hc1 : cond2_1 (grid2.coords t) := (hcond2_1 t).mpr h9
      rw [show (dat2 V c).leavesExact 6 t = owns (c : Thread nD τ) (ms2_6 t) fullShare (out2_6 V c t) from by
        unfold Dat.leavesExact; rw [liveAt2_6 t hc1, after2_6]]
      unfold out2_6
      rw [scAt2_pos_fst V c t h0 hp, scAt2_pos_snd V c t h0 hp]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩⟩
      iapply (body_last_point c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (scAt2 V c (t.val - 1) hp).1 (scAt2 V c (t.val - 1) hp).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond2_1 (grid2.coords t) := fun h => h9 ((hcond2_1 t).mp h)
      rw [Dat.leavesExact_idle (dat2 V c) 6 t (idleAt2_6 t hc1) (noFlush2_6 t hc1)]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩⟩
      iapply (body_inner_point c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (scAt2 V c (t.val - 1) hp).1 (scAt2 V c (t.val - 1) hp).2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulators' named contents are forgotten. -/
theorem hout2 (c : Dev nD) : (dat2 V c).Φ (Fin.last cfg2.N) ⊢ Pipeline.ΦA spec2 c := by
  have hN : cfg2.N = 10 := N_2
  have hz : (Fin.last cfg2.N).val ≠ 0 := by rw [Fin.val_last]; omega
  have hp : (Fin.last cfg2.N).val - 1 < cfg2.N := by rw [Fin.val_last]; omega
  rw [show (dat2 V c).Φ (Fin.last cfg2.N) = PhiS2 V c (Fin.last cfg2.N).val (Nat.le_of_lt_succ (Fin.last cfg2.N).isLt) from rfl,
    PhiS2_pos V c _ _ hz hp, PhiA2_eq]
  iintro ⟨HS0, HS1, HR, Hg⟩
  isplitl [HS0]; · iexists _; iexact HS0
  isplitl [HS1]; · iexists _; iexact HS1
  isplitl [HR]; · iexact HR
  iexact Hg

/-- The body's obligation at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Fold.lean ====
/-
  The contents of the core's buffers between the items of the program: the launch contents, then what each stretch of
  host operations computes from what it finds, then, after each pallas_call, the call's arrays at what its write-backs
  leave (an input array as entered, the output array every block written back) and every other buffer as entered.
-/
import proofs.«427760_j11510512353338_2_alg».proof.Proof.Gen.KernelIdeal.Launch
import proofs.«427760_j11510512353338_2_alg».proof.Proof.Gen.KernelIdeal.Skeleton
import proofs.«427760_j11510512353338_2_alg».proof.Proof.Gen.KernelIdeal.Points
import proofs.«427760_j11510512353338_2_alg».proof.Proof.KI.Reg0
import proofs.«427760_j11510512353338_2_alg».proof.Proof.KI.Reg1
import proofs.«427760_j11510512353338_2_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At launch. -/
abbrev W0 (c : Dev nD) : Valuation τ sig (Elt F) := fun b => m (c, b)
/-- After the three stretches of host operations before the first call (the index vectors, the degrees and their
    inverse square roots, the reshaped columns and rows). -/
abbrev W3 (c : Dev nD) : Valuation τ sig (Elt F) :=
  StableHlo.after hostOps0_2 (StableHlo.after hostOps0_1 (StableHlo.after hostOps0 (W0 m c)))
/-- The same read at the TensorCore's references: what the first call is entered from. -/
abbrev E0 (c : Dev nD) (b : Ref sig .tc) : Buf (Elt F) ((c : Thread nD τ).loc b) := W3 m c b
/-- After the first call. -/
def W4 (c : Dev nD) : Valuation τ sig (Elt F) :=
  Pipeline.withArrays spec0 c (W3 m c) fun w => (dat0 (E0 m) c).arrAt w cfg0.N
/-- After the host operations between the first and the second call (gather the rows by source, add them up by
    destination). -/
abbrev W5 (c : Dev nD) : Valuation τ sig (Elt F) := StableHlo.after hostOps1 (W4 m c)
abbrev E1 (c : Dev nD) (b : Ref sig .tc) : Buf (Elt F) ((c : Thread nD τ).loc b) := W5 m c b
/-- After the second call. -/
def W6 (c : Dev nD) : Valuation τ sig (Elt F) :=
  Pipeline.withArrays spec1 c (W5 m c) fun w => (dat1 (E1 m) c).arrAt w cfg1.N
/-- After the host operations between the second and the third call. -/
abbrev W7 (c : Dev nD) : Valuation τ sig (Elt F) := StableHlo.after hostOps2 (W6 m c)
abbrev E2 (c : Dev nD) (b : Ref sig .tc) : Buf (Elt F) ((c : Thread nD τ).loc b) := W7 m c b
/-- After the third call: the end of the program. -/
def W8 (c : Dev nD) : Valuation τ sig (Elt F) :=
  Pipeline.withArrays spec2 c (W7 m c) fun w => (dat2 (E2 m) c).arrAt w cfg2.N

end Cert.KernelIdeal.Fr

end
-- ==== Proof.KI.Whole.lean ====
/-
  The whole program's run: the program is a list of eight items — three stretches of host operations, the first
  pallas_call, a stretch, the second call, a stretch, the third call — and core c's unscoped buffers go from the
  launch contents through the contents W3 … W8 between the items.  Every weakly fair execution terminates with every
  unscoped buffer at W8; the argument arrays are read back through the fold to their launch contents (no host
  operation writes one and every call only reads them), the result array is what the third call's write-back leaves.
-/
import proofs.«427760_j11510512353338_2_alg».proof.Proof.Gen.KernelIdeal.Launch
import proofs.«427760_j11510512353338_2_alg».proof.Proof.Gen.KernelIdeal.Skeleton
import proofs.«427760_j11510512353338_2_alg».proof.Proof.Gen.KernelIdeal.Points
import proofs.«427760_j11510512353338_2_alg».proof.Proof.KI.Fold
import proofs.«427760_j11510512353338_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Run

/-! ## The fold read at a call's arrays and off them -/

theorem W4_arr (c : Dev nD) (w : Fin cfg0.W) :
    W4 m c (Proc.devRef .tc (Pipeline.arrRef spec0 w)) = (dat0 (E0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W6_arr (c : Dev nD) (w : Fin cfg1.W) :
    W6 m c (Proc.devRef .tc (Pipeline.arrRef spec1 w)) = (dat1 (E1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem W8_arr (c : Dev nD) (w : Fin cfg2.W) :
    W8 m c (Proc.devRef .tc (Pipeline.arrRef spec2 w)) = (dat2 (E2 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb

/-- The three stretches before the first call leave a reference none of them writes as launched. -/
theorem W3_of (c : Dev nD) (r : Ref sig .tc) (h0 : r ∉ hostOps0_W) (h1 : r ∉ hostOps0_1_W) (h2 : r ∉ hostOps0_2_W) :
    W3 m c (Proc.devRef .tc r) = m ((c : Thread nD τ).loc r) :=
  (StableHlo.after_of_writes_sub hostOps0_2 _ hostOps0_2_writes h2).trans <|
    (StableHlo.after_of_writes_sub hostOps0_1 _ hostOps0_1_writes h1).trans <|
      (StableHlo.after_of_writes_sub hostOps0 _ hostOps0_writes h0).trans rfl
/-- The stretch between the first and the second call leaves a reference it does not write as it found it. -/
theorem W5_of (c : Dev nD) (r : Ref sig .tc) (h : r ∉ hostOps1_W) :
    W5 m c (Proc.devRef .tc r) = W4 m c (Proc.devRef .tc r) :=
  StableHlo.after_of_writes_sub hostOps1 _ hostOps1_writes h
/-- The stretch between the second and the third call leaves a reference it does not write as it found it. -/
theorem W7_of (c : Dev nD) (r : Ref sig .tc) (h : r ∉ hostOps2_W) :
    W7 m c (Proc.devRef .tc r) = W6 m c (Proc.devRef .tc r) :=
  StableHlo.after_of_writes_sub hostOps2 _ hostOps2_writes h

/-- At a call's exit each of its arrays holds what the pipeline leaves and every other buffer what it held at entry. -/
theorem hF0 (c : Dev nD) (w : Fin cfg0.W) : (dat0 (E0 m) c).arrAt w cfg0.N = W4 m c (Proc.devRef .tc (Pipeline.arrRef spec0 w)) :=
  (W4_arr m c w).symm
theorem hrest0 (c : Dev nD) : ∀ b : Ref sig .tc, b ∉ Finset.univ.image (Pipeline.arrRef spec0) → W4 m c (Proc.devRef .tc b) = E0 m c b :=
  fun b hb => W4_of_ne m c b fun w e => hb (Finset.mem_image.mpr ⟨w, Finset.mem_univ _, e⟩)
theorem hF1 (c : Dev nD) (w : Fin cfg1.W) : (dat1 (E1 m) c).arrAt w cfg1.N = W6 m c (Proc.devRef .tc (Pipeline.arrRef spec1 w)) :=
  (W6_arr m c w).symm
theorem hrest1 (c : Dev nD) : ∀ b : Ref sig .tc, b ∉ Finset.univ.image (Pipeline.arrRef spec1) → W6 m c (Proc.devRef .tc b) = E1 m c b :=
  fun b hb => W6_of_ne m c b fun w e => hb (Finset.mem_image.mpr ⟨w, Finset.mem_univ _, e⟩)
theorem hF2 (c : Dev nD) (w : Fin cfg2.W) : (dat2 (E2 m) c).arrAt w cfg2.N = W8 m c (Proc.devRef .tc (Pipeline.arrRef spec2 w)) :=
  (W8_arr m c w).symm
theorem hrest2 (c : Dev nD) : ∀ b : Ref sig .tc, b ∉ Finset.univ.image (Pipeline.arrRef spec2) → W8 m c (Proc.devRef .tc b) = E2 m c b :=
  fun b hb => W8_of_ne m c b fun w e => hb (Finset.mem_image.mpr ⟨w, Finset.mem_univ _, e⟩)

end Run

open Run

/-- The result array at the end is what the third call's one write-back (at its last point) leaves. -/
theorem W8_main_v42 (c : Dev nD) : W8 m c (Proc.devRef .tc main_v42) = (dat2 (E2 m) c).arrAt 6 cfg2.N :=
  W8_arr m c 6

/-! ### The arguments end as launched: no stretch writes one, and a call that names one stages it as an input -/

/-- The node features: the first call stages them as an input; no stretch writes them, no other call names them. -/
theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_of_ne m c main_arg0 (by decide)
    _ = W6 m c (Proc.devRef .tc main_arg0) := W7_of m c main_arg0 (by decide)
    _ = W5 m c (Proc.devRef .tc main_arg0) := W6_of_ne m c main_arg0 (by decide)
    _ = W4 m c (Proc.devRef .tc main_arg0) := W5_of m c main_arg0 (by decide)
    _ = W3 m c (Proc.devRef .tc main_arg0) := (W4_arr m c 0).trans (((dat0 (E0 m) c).arrAt_in 0 rfl _).trans (A_eq0 (E0 m) c 0))
    _ = m ((c : Thread nD τ).loc main_arg0) := W3_of m c main_arg0 (by decide) (by decide) (by decide)
/-- The edge list: only the stretches read it. -/
theorem W8_main_arg1 (c : Dev nD) : W8 m c (Proc.devRef .tc main_arg1) = m ((c : Thread nD τ).loc main_arg1) :=
  calc W8 m c (Proc.devRef .tc main_arg1)
    _ = W7 m c (Proc.devRef .tc main_arg1) := W8_of_ne m c main_arg1 (by decide)
    _ = W6 m c (Proc.devRef .tc main_arg1) := W7_of m c main_arg1 (by decide)
    _ = W5 m c (Proc.devRef .tc main_arg1) := W6_of_ne m c main_arg1 (by decide)
    _ = W4 m c (Proc.devRef .tc main_arg1) := W5_of m c main_arg1 (by decide)
    _ = W3 m c (Proc.devRef .tc main_arg1) := W4_of_ne m c main_arg1 (by decide)
    _ = m ((c : Thread nD τ).loc main_arg1) := W3_of m c main_arg1 (by decide) (by decide) (by decide)
/-- The graph index of every node: only a stretch reads it (to reshape it into a column). -/
theorem W8_main_arg2 (c : Dev nD) : W8 m c (Proc.devRef .tc main_arg2) = m ((c : Thread nD τ).loc main_arg2) :=
  calc W8 m c (Proc.devRef .tc main_arg2)
    _ = W7 m c (Proc.devRef .tc main_arg2) := W8_of_ne m c main_arg2 (by decide)
    _ = W6 m c (Proc.devRef .tc main_arg2) := W7_of m c main_arg2 (by decide)
    _ = W5 m c (Proc.devRef .tc main_arg2) := W6_of_ne m c main_arg2 (by decide)
    _ = W4 m c (Proc.devRef .tc main_arg2) := W5_of m c main_arg2 (by decide)
    _ = W3 m c (Proc.devRef .tc main_arg2) := W4_of_ne m c main_arg2 (by decide)
    _ = m ((c : Thread nD τ).loc main_arg2) := W3_of m c main_arg2 (by decide) (by decide) (by decide)
/-- The first layer's weights: the first call stages them as an input. -/
theorem W8_main_arg3 (c : Dev nD) : W8 m c (Proc.devRef .tc main_arg3) = m ((c : Thread nD τ).loc main_arg3) :=
  calc W8 m c (Proc.devRef .tc main_arg3)
    _ = W7 m c (Proc.devRef .tc main_arg3) := W8_of_ne m c main_arg3 (by decide)
    _ = W6 m c (Proc.devRef .tc main_arg3) := W7_of m c main_arg3 (by decide)
    _ = W5 m c (Proc.devRef .tc main_arg3) := W6_of_ne m c main_arg3 (by decide)
    _ = W4 m c (Proc.devRef .tc main_arg3) := W5_of m c main_arg3 (by decide)
    _ = W3 m c (Proc.devRef .tc main_arg3) := (W4_arr m c 2).trans (((dat0 (E0 m) c).arrAt_in 2 rfl _).trans (A_eq0 (E0 m) c 2))
    _ = m ((c : Thread nD τ).loc main_arg3) := W3_of m c main_arg3 (by decide) (by decide) (by decide)
/-- The first layer's bias: only a stretch reads it (to reshape it into a row). -/
theorem W8_main_arg4 (c : Dev nD) : W8 m c (Proc.devRef .tc main_arg4) = m ((c : Thread nD τ).loc main_arg4) :=
  calc W8 m c (Proc.devRef .tc main_arg4)
    _ = W7 m c (Proc.devRef .tc main_arg4) := W8_of_ne m c main_arg4 (by decide)
    _ = W6 m c (Proc.devRef .tc main_arg4) := W7_of m c main_arg4 (by decide)
    _ = W5 m c (Proc.devRef .tc main_arg4) := W6_of_ne m c main_arg4 (by decide)
    _ = W4 m c (Proc.devRef .tc main_arg4) := W5_of m c main_arg4 (by decide)
    _ = W3 m c (Proc.devRef .tc main_arg4) := W4_of_ne m c main_arg4 (by decide)
    _ = m ((c : Thread nD τ).loc main_arg4) := W3_of m c main_arg4 (by decide) (by decide) (by decide)
/-- The second layer's weights: the second call stages them as an input. -/
theorem W8_main_arg5 (c : Dev nD) : W8 m c (Proc.devRef .tc main_arg5) = m ((c : Thread nD τ).loc main_arg5) :=
  calc W8 m c (Proc.devRef .tc main_arg5)
    _ = W7 m c (Proc.devRef .tc main_arg5) := W8_of_ne m c main_arg5 (by decide)
    _ = W6 m c (Proc.devRef .tc main_arg5) := W7_of m c main_arg5 (by decide)
    _ = W5 m c (Proc.devRef .tc main_arg5) := (W6_arr m c 3).trans (((dat1 (E1 m) c).arrAt_in 3 rfl _).trans (A_eq1 (E1 m) c 3))
    _ = W4 m c (Proc.devRef .tc main_arg5) := W5_of m c main_arg5 (by decide)
    _ = W3 m c (Proc.devRef .tc main_arg5) := W4_of_ne m c main_arg5 (by decide)
    _ = m ((c : Thread nD τ).loc main_arg5) := W3_of m c main_arg5 (by decide) (by decide) (by decide)
/-- The second layer's bias: only a stretch reads it. -/
theorem W8_main_arg6 (c : Dev nD) : W8 m c (Proc.devRef .tc main_arg6) = m ((c : Thread nD τ).loc main_arg6) :=
  calc W8 m c (Proc.devRef .tc main_arg6)
    _ = W7 m c (Proc.devRef .tc main_arg6) := W8_of_ne m c main_arg6 (by decide)
    _ = W6 m c (Proc.devRef .tc main_arg6) := W7_of m c main_arg6 (by decide)
    _ = W5 m c (Proc.devRef .tc main_arg6) := W6_of_ne m c main_arg6 (by decide)
    _ = W4 m c (Proc.devRef .tc main_arg6) := W5_of m c main_arg6 (by decide)
    _ = W3 m c (Proc.devRef .tc main_arg6) := W4_of_ne m c main_arg6 (by decide)
    _ = m ((c : Thread nD τ).loc main_arg6) := W3_of m c main_arg6 (by decide) (by decide) (by decide)
/-- The read-out weights: the third call stages them as an input. -/
theorem W8_main_arg7 (c : Dev nD) : W8 m c (Proc.devRef .tc main_arg7) = m ((c : Thread nD τ).loc main_arg7) :=
  calc W8 m c (Proc.devRef .tc main_arg7)
    _ = W7 m c (Proc.devRef .tc main_arg7) := (W8_arr m c 4).trans (((dat2 (E2 m) c).arrAt_in 4 rfl _).trans (A_eq2 (E2 m) c 4))
    _ = W6 m c (Proc.devRef .tc main_arg7) := W7_of m c main_arg7 (by decide)
    _ = W5 m c (Proc.devRef .tc main_arg7) := W6_of_ne m c main_arg7 (by decide)
    _ = W4 m c (Proc.devRef .tc main_arg7) := W5_of m c main_arg7 (by decide)
    _ = W3 m c (Proc.devRef .tc main_arg7) := W4_of_ne m c main_arg7 (by decide)
    _ = m ((c : Thread nD τ).loc main_arg7) := W3_of m c main_arg7 (by decide) (by decide) (by decide)
/-- The read-out bias: only a stretch reads it. -/
theorem W8_main_arg8 (c : Dev nD) : W8 m c (Proc.devRef .tc main_arg8) = m ((c : Thread nD τ).loc main_arg8) :=
  calc W8 m c (Proc.devRef .tc main_arg8)
    _ = W7 m c (Proc.devRef .tc main_arg8) := W8_of_ne m c main_arg8 (by decide)
    _ = W6 m c (Proc.devRef .tc main_arg8) := W7_of m c main_arg8 (by decide)
    _ = W5 m c (Proc.devRef .tc main_arg8) := W6_of_ne m c main_arg8 (by decide)
    _ = W4 m c (Proc.devRef .tc main_arg8) := W5_of m c main_arg8 (by decide)
    _ = W3 m c (Proc.devRef .tc main_arg8) := W4_of_ne m c main_arg8 (by decide)
    _ = m ((c : Thread nD τ).loc main_arg8) := W3_of m c main_arg8 (by decide) (by decide) (by decide)

namespace Run

/-! ## The proof data family and the thread state -/

/-- Every call's proof data, each at the contents its call is entered from. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A stretch of host operations as an item: over the unscoped references from the contents `W`, `R` riding along;
    it leaves those references at what the operations compute from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the end's contents, the generator register at some state. -/
abbrev Tₙ (c : Dev nD) : sProp 𝕄 := iprop(StableHlo.held (c : Thread nD τ) (Pipeline.ucRefs τ sig) (W8 m c) ∗ ∃ r, prngReg c r)

/-! ## The calls as items -/

set_option backward.isDefEq.respectTransparency.types false in
/-- The first call over the thread state: entered from every unscoped buffer at `W3`, left at `W4`.  Its arrays
    are split out of the unscoped buffers and put back at the exit contents; the generator register goes into the
    call's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => W4 m c (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at `W5`, left at `W6`.  Its arrays
    are split out of the unscoped buffers and put back at the exit contents; the generator register goes into the
    call's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => W6 m c (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third call over the thread state: entered from every unscoped buffer at `W7`, left at `W8`.  Its arrays
    are split out of the unscoped buffers and put back at the exit contents; the generator register goes into the
    call's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show iprop((∃ r, prngReg c r) ∗ Pipeline.prefHeld (pcfgs (F := F) 2).pre c (fun _ => fullShare) (adm (F := F) 2).1
        ∗ Pipeline.scopedRest (Pipeline.pin (pcfgs (F := F)) adm 2).spec c) ⊢ (Pipeline.ΦA spec2 c : sProp 𝕄) from ?_).trans (hin2 (E2 m) c)
    unfold Pipeline.ΦA
    iintro ⟨Hp, -, Hr⟩
    isplitl [Hr]; · iexact Hr
    iexact Hp
  hout c := by
    rw [Pipeline.ownSems0_none]
    refine (show (pdats m 2 c).Φ (Fin.last _) ⊢ (Pipeline.ΦA spec2 c : sProp 𝕄) from hout2 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (fun b => W8 m c (Proc.devRef .tc b)) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

/-- The program's eight items in order: a host item per stretch from the contents it finds, a region per call. -/
abbrev items : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh fun c => StableHlo.after hostOps0 (W0 m c)),
    .host (hseg hostOps0_2 hostOps0_2_sub hostOps0_2_fresh fun c => StableHlo.after hostOps0_1 (StableHlo.after hostOps0 (W0 m c))),
    .region (reg0 m),
    .host (hseg hostOps1 hostOps1_sub hostOps1_fresh (W4 m)),
    .region (reg1 m),
    .host (hseg hostOps2 hostOps2_sub hostOps2_fresh (W6 m)),
    .region (reg2 m) ]

end Run

set_option backward.isDefEq.respectTransparency.types false in
/-- Every weakly fair execution terminates, nothing faulting, with every unscoped buffer of every core at W8. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (items m)
    (fun c Q => by
      rewrite [main_chain c, Pipeline.Seg.run_eq_chain,
        show (items m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The run with the result array named and the argument arrays unchanged. -/
theorem run_value : θ_run defs (onTc (τ := τ) (main (F := F))) ⟨m, fun _ => 0, ρ⟩ (fun r => ∀ c : Dev nD,
      r.2.mem ((c.tc : Thread nD τ).loc main_v42) = (dat2 (E2 m) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v42 (by decide))).trans (W8_main_v42 m c),
     (h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c),
     (h c _ (mem_uc main_arg8 (by decide))).trans (W8_main_arg8 m c)⟩) (run_all m ρ)

/-- The frame: the run with only the argument arrays read. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_value m ρ)

end Cert.KernelIdeal.Fr

end
-- ==== Proof.KI.Val0.lean ====
/-
  What the first pallas_call leaves in its output array, at the ideal instance, entry by entry: block t of the array is
  what point t wrote back, the blocks tile the 100000 rows, and the body's term at row r of tile t, column f, is the
  dot product of row 10000 t + r of the features with column f of the weights, times the degree weight of that row.
-/
import proofs.«427760_j11510512353338_2_alg».proof.Proof.Gen.KernelIdeal.Launch
import proofs.«427760_j11510512353338_2_alg».proof.Proof.Gen.KernelIdeal.Skeleton
import proofs.«427760_j11510512353338_2_alg».proof.Proof.Gen.KernelIdeal.Points
import proofs.«427760_j11510512353338_2_alg».proof.Proof.KI.Reg0
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The arrays the call reads and the one it writes, at their literal types. -/
abbrev feat0 (c : Dev nD) : S100000x128.Idx → EReal := V c main_arg0
abbrev wts0 (c : Dev nD) : S128x128.Idx → EReal := V c main_arg3
abbrev dcol0 (c : Dev nD) : S100000x1.Idx → EReal := V c main_v15
abbrev res0 (c : Dev nD) : S100000x128.Idx → EReal := (dat0 (F := Ideal) V c).arrAt 3 cfg0.N

/-! ## The body's term at an index -/

/-- A column of shape [a, 1] broadcast along its unit axis to [a, b] reads, at (p, q), the column's entry p. -/
theorem colBroadcast0_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The product's left operand is read at the output's row; -/
theorem prodLhsRow0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- and at the summation index as its column; -/
theorem prodLhsCol0 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- the right operand at the summation index as its row -/
theorem prodRhsRow0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- and at the output's column. -/
theorem prodRhsCol0 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The tile's matrix product onto the zero accumulator, at (r, f): row r of the tile against column f of the weights. -/
theorem tileProduct0_apply (x0 : FVec Ideal S10000x128 .f32) (x2 : FVec Ideal S128x128 .f32) (r : Fin 10000) (f : Fin 128) :
    matmul dot_S10000x128_S128x128_S10000x128_1_0_0_1_n_n none x0 x2 (constant S10000x128 .f32 0x00000000#32) (ix2 r f)
      = ∑ k : Fin 128, x0 (ix2 r k) * x2 (ix2 k f) := by
  refine (Ideal.matmul_constant_zero_apply dot_S10000x128_S128x128_S10000x128_1_0_0_1_n_n none x0 x2 (ix2 r f)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r f) ((contrEquiv1 dot_S10000x128_S128x128_S10000x128_1_0_0_1_n_n 128 rfl rfl).symm k) = ix2 r k := funext fun a => Fin.ext (by
    match a with
    | ⟨0, _⟩ => exact prodLhsRow0 _ _
    | ⟨1, _⟩ => exact (prodLhsCol0 _ _).trans hk)
  have er : dot_S10000x128_S128x128_S10000x128_1_0_0_1_n_n.rhsIdx (ix2 r f) ((contrEquiv1 dot_S10000x128_S128x128_S10000x128_1_0_0_1_n_n 128 rfl rfl).symm k) = ix2 k f := funext fun a => Fin.ext (by
    match a with
    | ⟨0, _⟩ => exact (prodRhsRow0 _ _).trans hk
    | ⟨1, _⟩ => exact prodRhsCol0 _ _)
  rw [el, er]

/-- The body's term at (r, f): the product above times the r-th entry of the tile of the degree column. -/
theorem firstLayerTerm0_apply (x0 : Vec Ideal S10000x128 .f32) (x2 : Vec Ideal S128x128 .f32) (x1 : Vec Ideal S10000x1 .f32)
    (r : Fin 10000) (f : Fin 128) :
    k0_pay1 (F := Ideal) x0 x2 x1 (ix2 r f) = (∑ k : Fin 128, x0 (ix2 r k) * x2 (ix2 k f)) * x1 (ix2 r (0 : Fin 1)) := by
  unfold k0_pay1
  rw [mulf_apply, tileProduct0_apply, shapeCast_self]
  exact congrArg _ (colBroadcast0_apply x1 broadcasts_S10000x1_S10000x128 r f)

/-! ## From the blocks to the array -/

/-- The printed index maps over the grid: the features tile, the degree column tile and the output tile sit at block
    row t and block column 0; the weights at block (0, 0). -/
theorem tileIndex0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The whole output array as one function of the arrays the call reads: at (i, f), row i of the features against
    column f of the weights, times the i-th degree weight. -/
def scaledProduct0 (c : Dev nD) : S100000x128.Idx → EReal := fun j =>
  (∑ k : Fin 128, feat0 V c (ix2 (⟨(j 0).val, idx2_lt0 j⟩ : Fin 100000) k) * wts0 V c (ix2 k (⟨(j 1).val, idx2_lt1 j⟩ : Fin 128)))
    * dcol0 V c (ix2 (⟨(j 0).val, idx2_lt0 j⟩ : Fin 100000) (0 : Fin 1))

theorem scaledProduct0_apply (c : Dev nD) (i : Fin 100000) (f : Fin 128) :
    scaledProduct0 V c (ix2 i f)
      = (∑ k : Fin 128, feat0 V c (ix2 i k) * wts0 V c (ix2 k f)) * dcol0 V c (ix2 i (0 : Fin 1)) := rfl

/-- Entry (r, k) of the features tile at point t is entry (10000 t + r, k) of the features. -/
theorem featTile0_apply (c : Dev nD) (t : Fin cfg0.N) (r : Fin 10000) (k : Fin 128) (i : Fin 100000)
    (hi : i.val = 10000 * t.val + r.val) :
    (iblk0 V c 0 t : Vec Ideal S10000x128 .f32) (ix2 r k) = feat0 V c (ix2 i k) := by
  obtain ⟨e00, e01, -⟩ := tileIndex0 t
  unfold iblk0
  rw [View.read_apply]
  show V c main_arg0 _ = V c main_arg0 _
  congr 1
  funext a
  apply Fin.ext
  match a with
  | ⟨0, _⟩ => show win0_0.index t (0 : Fin 2) * 10000 + 1 * r.val = i.val; rw [e00, hi]; omega
  | ⟨1, _⟩ => show win0_0.index t (1 : Fin 2) * 128 + 1 * k.val = k.val; rw [e01]; omega

/-- Entry (r, 0) of the degree column tile at point t is entry (10000 t + r, 0) of the degree column. -/
theorem degTile0_apply (c : Dev nD) (t : Fin cfg0.N) (r : Fin 10000) (i : Fin 100000)
    (hi : i.val = 10000 * t.val + r.val) :
    (iblk0 V c 1 t : Vec Ideal S10000x1 .f32) (ix2 r (0 : Fin 1)) = dcol0 V c (ix2 i (0 : Fin 1)) := by
  obtain ⟨-, -, e10, e11, -⟩ := tileIndex0 t
  unfold iblk0
  rw [View.read_apply]
  show V c main_v15 _ = V c main_v15 _
  congr 1
  funext a
  apply Fin.ext
  match a with
  | ⟨0, _⟩ => show win0_1.index t (0 : Fin 2) * 10000 + 1 * r.val = i.val; rw [e10, hi]; omega
  | ⟨1, _⟩ => show win0_1.index t (1 : Fin 2) * 1 + 1 * 0 = 0; rw [e11]

/-- The weights' block at every point is the weight matrix. -/
theorem weights0_apply (c : Dev nD) (t : Fin cfg0.N) (k f : Fin 128) :
    (iblk0 V c 2 t : Vec Ideal S128x128 .f32) (ix2 k f) = wts0 V c (ix2 k f) := by
  obtain ⟨-, -, -, -, e20, e21, -⟩ := tileIndex0 t
  unfold iblk0
  rw [View.read_apply]
  show V c main_arg3 _ = V c main_arg3 _
  congr 1
  funext a
  apply Fin.ext
  match a with
  | ⟨0, _⟩ => show win0_2.index t (0 : Fin 2) * 128 + 1 * k.val = k.val; rw [e20]; omega
  | ⟨1, _⟩ => show win0_2.index t (1 : Fin 2) * 128 + 1 * f.val = f.val; rw [e21]; omega

/-- What point t writes back is block t of the whole-array function. -/
theorem writtenBack0_eq (c : Dev nD) (t : Fin cfg0.N) :
    (dat0 (F := Ideal) V c).flushed 3 t = ((cfg0.win 3).blk t).view.read (Elt Ideal) (scaledProduct0 V c) := by
  obtain ⟨-, -, -, -, -, -, e30, e31⟩ := tileIndex0 t
  have hN : cfg0.N = 10 := N_0
  show (cfg0.win 3).cut (grid0.coords t) ((dat0 (F := Ideal) V c).after 3 t) = _
  rw [after0_3, out0_3_eq]
  funext j
  obtain ⟨r, f, rfl⟩ : ∃ (r : Fin 10000) (f : Fin 128), j = ix2 r f := ⟨j 0, j 1, eq_ix2 j⟩
  have ht : t.val < 10 := hN ▸ t.isLt
  have hrow : 10000 * t.val + r.val < 100000 := by have := r.isLt; omega
  have he : ((cfg0.win 3).blk t).view.emb (ix2 r f) = ix2 (⟨10000 * t.val + r.val, hrow⟩ : Fin 100000) f := funext fun a => Fin.ext (by
    match a with
    | ⟨0, _⟩ => show win0_3.index t (0 : Fin 2) * 10000 + 1 * r.val = 10000 * t.val + r.val; rw [e30]; omega
    | ⟨1, _⟩ => show win0_3.index t (1 : Fin 2) * 128 + 1 * f.val = f.val; rw [e31]; omega)
  show k0_pay1 (F := Ideal) (iblk0 V c 0 t) (iblk0 V c 2 t) (iblk0 V c 1 t) (ix2 r f) = scaledProduct0 V c (((cfg0.win 3).blk t).view.emb (ix2 r f))
  rw [he, scaledProduct0_apply, firstLayerTerm0_apply]
  rw [degTile0_apply V c t r ⟨10000 * t.val + r.val, hrow⟩ rfl]
  congr 1
  refine Finset.sum_congr rfl fun k _ => ?_
  rw [featTile0_apply V c t r k ⟨10000 * t.val + r.val, hrow⟩ rfl, weights0_apply V c t k f]

/-- An index of the output array is in point t's block iff each coordinate is in the block's range on its axis. -/
theorem mem_outTile0 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v20).slice (win0_3.rect t)).set ↔ _
  rw [View.set_slice_whole, Rect.mem_set_unit]
  exact Iff.rfl

/-- Row i of the output array is in the block of point i / 10000: the ten tiles cover the array. -/
theorem outTiles0_cover (i : S100000x128.Idx) :
    ∃ t : Fin cfg0.N, (cfg0.win 3).flush t = true ∧ i ∈ ((cfg0.win 3).blk t).view.set := by
  have hN : cfg0.N = 10 := N_0
  have hi0 : (i 0).val < 100000 := idx2_lt0 i
  have hi1 : (i 1).val < 128 := idx2_lt1 i
  let t : Fin cfg0.N := ⟨(i 0).val / 10000, by rw [hN]; omega⟩
  obtain ⟨-, -, -, -, -, -, e30, e31⟩ := tileIndex0 t
  have e30' : win0_3.index t (0 : Fin 2) = (i 0).val / 10000 := e30
  refine ⟨t, flush0_3 t, ?_⟩
  rw [mem_outTile0]
  intro a
  match a with
  | ⟨0, _⟩ => show win0_3.index t (0 : Fin 2) * 10000 ≤ (i 0).val ∧ (i 0).val < win0_3.index t (0 : Fin 2) * 10000 + 10000; rw [e30']; omega
  | ⟨1, _⟩ => show win0_3.index t (1 : Fin 2) * 128 ≤ (i 1).val ∧ (i 1).val < win0_3.index t (1 : Fin 2) * 128 + 128; rw [e31]; omega

/-- The output array after the call is the whole-array function. -/
theorem res0_eq (c : Dev nD) : res0 V c = scaledProduct0 V c :=
  (dat0 (F := Ideal) V c).arrAt_eq_of_cover 3 (scaledProduct0 V c) (fun t _ => writtenBack0_eq V c t) outTiles0_cover

/-- The output array after the call, at (i, f): (row i of the features) · (column f of the weights) times the i-th
    degree weight. -/
theorem arr0_apply (c : Dev nD) (i : Fin 100000) (f : Fin 128) :
    res0 V c (ix2 i f)
      = (∑ k : Fin 128, feat0 V c (ix2 i k) * wts0 V c (ix2 k f)) * dcol0 V c (ix2 i (0 : Fin 1)) :=
  (congrFun (res0_eq V c) (ix2 i f)).trans (scaledProduct0_apply V c i f)

end Cert.KernelIdeal.Fr

end
-- ==== Proof.KI.Val1.lean ====
/-
  What the second pallas_call leaves in its output array, at the ideal instance, entry by entry: with
  h (i, k) = max (raw (i, k) · dinv i + bias k, 0) the finished first layer, the entry (i, f) is
  (row i of h) · (column f of the second weights) times dinv i.
-/
import proofs.«427760_j11510512353338_2_alg».proof.Proof.Gen.KernelIdeal.Launch
import proofs.«427760_j11510512353338_2_alg».proof.Proof.Gen.KernelIdeal.Skeleton
import proofs.«427760_j11510512353338_2_alg».proof.Proof.Gen.KernelIdeal.Points
import proofs.«427760_j11510512353338_2_alg».proof.Proof.KI.Reg1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The arrays the call reads and the one it writes, at their literal types. -/
abbrev raw1 (c : Dev nD) : S100000x128.Idx → EReal := V c main_v30
abbrev dcol1 (c : Dev nD) : S100000x1.Idx → EReal := V c main_v15
abbrev bias1 (c : Dev nD) : S1x128.Idx → EReal := V c main_v17
abbrev wts1 (c : Dev nD) : S128x128.Idx → EReal := V c main_arg5
abbrev res1 (c : Dev nD) : S100000x128.Idx → EReal := (dat1 (F := Ideal) V c).arrAt 4 cfg1.N

/-! ## The body's term at an entry of the tile -/

/-- The matrix product's left operand index at output (r, f) and contraction index q: row r, -/
theorem lhsRow1 (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- column q; -/
theorem lhsCol1 (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q
/-- the right operand's: row q, -/
theorem rhsRow1 (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q
/-- column f. -/
theorem rhsCol1 (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A column of 10000 entries spread along the 128 lanes reads, at (r, k), its entry r. -/
theorem colSpread1 (x : S10000x1.Idx → EReal) (r : Fin 10000) (k : Fin 128) :
    broadcastTo S10000x128 x broadcasts_S10000x1_S10000x128 (ix2 r k) = x (ix2 r (0 : Fin 1)) :=
  broadcastTo_apply x _ (ix2 r k) (ix2 r (0 : Fin 1)) fun a => by
    match a with
    | ⟨0, _⟩ => rfl
    | ⟨1, _⟩ => rfl

/-- A row of 128 entries spread down the 10000 rows reads, at (r, k), its entry k. -/
theorem rowSpread1 (x : S1x128.Idx → EReal) (r : Fin 10000) (k : Fin 128) :
    broadcastTo S10000x128 x broadcasts_S1x128_S10000x128 (ix2 r k) = x (ix2 (0 : Fin 1) k) :=
  broadcastTo_apply x _ (ix2 r k) (ix2 (0 : Fin 1) k) fun a => by
    match a with
    | ⟨0, _⟩ => rfl
    | ⟨1, _⟩ => rfl

/-- The body's term at entry (r, f) of the tile: with h (r, k) = max (x0 (r, k) · x1 r + x2 k, 0), the sum over k of
    h (r, k) · x3 (k, f), times x1 r. -/
theorem pay1_apply (x0 : Vec Ideal S10000x128 .f32) (x1 : Vec Ideal S10000x1 .f32) (x2 : Vec Ideal S1x128 .f32) (x3 : Vec Ideal S128x128 .f32)
    (r : Fin 10000) (f : Fin 128) :
    k1_pay1 x0 x1 x2 x3 x1 (ix2 r f)
      = (∑ k : Fin 128, max (x0 (ix2 r k) * x1 (ix2 r (0 : Fin 1)) + x2 (ix2 (0 : Fin 1) k)) 0 * x3 (ix2 k f)) * x1 (ix2 r (0 : Fin 1)) := by
  unfold k1_pay1
  simp only [shapeCast_self]
  rw [mulf_apply, colSpread1]
  congr 1
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r f) ((contrEquiv1 dot_S10000x128_S128x128_S10000x128_1_0_0_1_n_n 128 rfl rfl).symm k) = ix2 r k := funext fun a => Fin.ext (by
    match a with
    | ⟨0, _⟩ => exact lhsRow1 _ _
    | ⟨1, _⟩ => exact (lhsCol1 _ _).trans hk)
  have er : dot_S10000x128_S128x128_S10000x128_1_0_0_1_n_n.rhsIdx (ix2 r f) ((contrEquiv1 dot_S10000x128_S128x128_S10000x128_1_0_0_1_n_n 128 rfl rfl).symm k) = ix2 k f := funext fun a => Fin.ext (by
    match a with
    | ⟨0, _⟩ => exact (rhsRow1 _ _).trans hk
    | ⟨1, _⟩ => exact rhsCol1 _ _)
  rw [el, er, maximumf_apply, addf_apply, mulf_apply, colSpread1, rowSpread1, broadcast_apply]
  show max _ (Ideal.ofBits .f32 0x00000000#32) * _ = _
  rw [Ideal.ofBits_zero_f32]

/-! ## The array the call leaves -/

/-- Entry (i, f) of what the call computes from its four arrays: with h (i, k) = max (raw (i, k) · dinv i + bias k, 0),
    the sum over k of h (i, k) · weights (k, f), times dinv i. -/
def entry1 (c : Dev nD) (i : Fin 100000) (f : Fin 128) : EReal :=
  (∑ k : Fin 128, max (raw1 V c (ix2 i k) * dcol1 V c (ix2 i (0 : Fin 1)) + bias1 V c (ix2 (0 : Fin 1) k)) 0
        * wts1 V c (ix2 k f))
      * dcol1 V c (ix2 i (0 : Fin 1))

/-- The same as one array of the output's shape. -/
def layer1 (c : Dev nD) : S100000x128.Idx → EReal :=
  fun j => entry1 V c ⟨(j 0).val, idx2_lt0 j⟩ ⟨(j 1).val, idx2_lt1 j⟩

/-- The block indices at grid point t: the two tiled inputs and the output are at block (t, 0); the bias row and the
    weights stay at block (0, 0). -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The raw-sums tile at point t is rows 10000 t … 10000 t + 9999 of its array. -/
theorem rawTile1 (c : Dev nD) (t : Fin cfg1.N) (x : S10000x128.Idx) (k : S100000x128.Idx)
    (hk0 : (k 0).val = 10000 * t.val + (x 0).val) (hk1 : (k 1).val = (x 1).val) :
    (iblk1 V c 0 t : Vec Ideal S10000x128 .f32) x = raw1 V c k := by
  obtain ⟨e0, e1, -⟩ := blockIdx1 t
  unfold iblk1
  rw [View.read_apply]
  show V c main_v30 _ = V c main_v30 _
  congr 1
  funext a
  apply Fin.ext
  match a with
  | ⟨0, _⟩ => show win1_0.index t 0 * 10000 + 1 * (x 0).val = (k 0).val; rw [e0, hk0]; omega
  | ⟨1, _⟩ => show win1_0.index t 1 * 128 + 1 * (x 1).val = (k 1).val; rw [e1, hk1]; omega

/-- The degree-column tile at point t is the same rows of the column. -/
theorem degTile1 (c : Dev nD) (t : Fin cfg1.N) (x : S10000x1.Idx) (k : S100000x1.Idx)
    (hk0 : (k 0).val = 10000 * t.val + (x 0).val) (hk1 : (k 1).val = (x 1).val) :
    (iblk1 V c 1 t : Vec Ideal S10000x1 .f32) x = dcol1 V c k := by
  obtain ⟨-, -, e0, e1, -⟩ := blockIdx1 t
  unfold iblk1
  rw [View.read_apply]
  show V c main_v15 _ = V c main_v15 _
  congr 1
  funext a
  apply Fin.ext
  match a with
  | ⟨0, _⟩ => show win1_1.index t 0 * 10000 + 1 * (x 0).val = (k 0).val; rw [e0, hk0]; omega
  | ⟨1, _⟩ => show win1_1.index t 1 * 1 + 1 * (x 1).val = (k 1).val; rw [e1, hk1]; omega

/-- The bias row's block is the row at every point. -/
theorem biasRow1 (c : Dev nD) (t : Fin cfg1.N) (x : S1x128.Idx) :
    (iblk1 V c 2 t : Vec Ideal S1x128 .f32) x = bias1 V c x := by
  obtain ⟨-, -, -, -, e0, e1, -⟩ := blockIdx1 t
  unfold iblk1
  rw [View.read_apply]
  show V c main_v17 _ = V c main_v17 _
  congr 1
  funext a
  apply Fin.ext
  match a with
  | ⟨0, _⟩ => show win1_2.index t 0 * 1 + 1 * (x 0).val = (x 0).val; rw [e0]; omega
  | ⟨1, _⟩ => show win1_2.index t 1 * 128 + 1 * (x 1).val = (x 1).val; rw [e1]; omega

/-- The weights' block is the matrix at every point. -/
theorem wtsBlock1 (c : Dev nD) (t : Fin cfg1.N) (x : S128x128.Idx) :
    (iblk1 V c 3 t : Vec Ideal S128x128 .f32) x = wts1 V c x := by
  obtain ⟨-, -, -, -, -, -, e0, e1, -⟩ := blockIdx1 t
  unfold iblk1
  rw [View.read_apply]
  show V c main_arg5 _ = V c main_arg5 _
  congr 1
  funext a
  apply Fin.ext
  match a with
  | ⟨0, _⟩ => show win1_3.index t 0 * 128 + 1 * (x 0).val = (x 0).val; rw [e0]; omega
  | ⟨1, _⟩ => show win1_3.index t 1 * 128 + 1 * (x 1).val = (x 1).val; rw [e1]; omega

/-- The body's term of the four blocks at point t, at entry j of the tile, is the layer at the array entry j names:
    row 10000 t + (j 0), column j 1. -/
theorem tileEntry1 (c : Dev nD) (t : Fin cfg1.N) (j : S10000x128.Idx) (i : S100000x128.Idx)
    (h0 : (i 0).val = 10000 * t.val + (j 0).val) (h1 : (i 1).val = (j 1).val) :
    k1_pay1 (iblk1 V c 0 t) (iblk1 V c 1 t) (iblk1 V c 2 t) (iblk1 V c 3 t) (iblk1 V c 1 t) j = layer1 V c i := by
  have hj : j = ix2 (⟨(j 0).val, idx2_lt0 j⟩ : Fin 10000) (⟨(j 1).val, idx2_lt1 j⟩ : Fin 128) := funext fun a => by
    match a with
    | ⟨0, _⟩ => rfl
    | ⟨1, _⟩ => rfl
  refine (congrArg (k1_pay1 (F := Ideal) _ _ _ _ _) hj).trans ?_
  rw [pay1_apply]
  unfold layer1 entry1
  rw [degTile1 V c t (ix2 (⟨(j 0).val, idx2_lt0 j⟩ : Fin 10000) (0 : Fin 1)) (ix2 (⟨(i 0).val, idx2_lt0 i⟩ : Fin 100000) (0 : Fin 1)) h0 rfl]
  refine congrArg (fun s : EReal => s * _) ?_
  refine Finset.sum_congr rfl fun k _ => ?_
  rw [rawTile1 V c t (ix2 (⟨(j 0).val, idx2_lt0 j⟩ : Fin 10000) k) (ix2 (⟨(i 0).val, idx2_lt0 i⟩ : Fin 100000) k) h0 rfl, biasRow1, wtsBlock1]
  have hf : (⟨(j 1).val, idx2_lt1 j⟩ : Fin 128) = ⟨(i 1).val, idx2_lt1 i⟩ := Fin.ext h1.symm
  rw [hf]

/-- What point t writes back is block t of the layer. -/
theorem flushed1_eq (c : Dev nD) (t : Fin cfg1.N) :
    (dat1 (F := Ideal) V c).flushed 4 t = ((cfg1.win 4).blk t).view.read (Elt Ideal) (layer1 V c) := by
  show (cfg1.win 4).cut (grid1.coords t) ((dat1 V c).after 4 t) = _
  rw [after1_4, out1_4_eq]
  obtain ⟨-, -, -, -, -, -, -, -, e0, e1⟩ := blockIdx1 t
  funext j
  refine tileEntry1 V c t j _ ?_ ?_
  · show win1_4.index t 0 * 10000 + 1 * (j 0).val = 10000 * t.val + (j 0).val
    rw [e0]; omega
  · show win1_4.index t 1 * 128 + 1 * (j 1).val = (j 1).val
    rw [e1]; omega

/-- An entry of the output array is in point t's block iff each coordinate is in the block's range on its axis. -/
theorem mem_blk1 (t : Fin cfg1.N) (i : S100000x128.Idx) :
    i ∈ ((cfg1.win 4).blk t).view.set
      ↔ ∀ a : Fin 2, win1_4.index t a * S10000x128.size a ≤ (i a).val
          ∧ (i a).val < win1_4.index t a * S10000x128.size a + S10000x128.size a := by
  show i ∈ ((View.whole main_v31).slice (win1_4.rect t)).set ↔ _
  rw [View.set_slice_whole, Rect.mem_set_unit]
  exact Iff.rfl

/-- Every entry of the output array is in the block of the point its row's tile names: row i is in tile i / 10000. -/
theorem cover1 (i : S100000x128.Idx) :
    ∃ t : Fin cfg1.N, (cfg1.win 4).flush t = true ∧ i ∈ ((cfg1.win 4).blk t).view.set := by
  have hi0 : (i 0).val < 100000 := idx2_lt0 i
  have hi1 : (i 1).val < 128 := idx2_lt1 i
  obtain ⟨t, ht⟩ : ∃ t : Fin cfg1.N, t.val = (i 0).val / 10000 :=
    ⟨⟨(i 0).val / 10000, by rw [show cfg1.N = 10 from N_1]; omega⟩, rfl⟩
  obtain ⟨-, -, -, -, -, -, -, -, e0, e1⟩ := blockIdx1 t
  refine ⟨t, flush1_4 t, ?_⟩
  rw [mem_blk1]
  intro a
  match a with
  | ⟨0, _⟩ =>
    show win1_4.index t 0 * 10000 ≤ (i 0).val ∧ (i 0).val < win1_4.index t 0 * 10000 + 10000
    rw [e0, ht]; omega
  | ⟨1, _⟩ =>
    show win1_4.index t 1 * 128 ≤ (i 1).val ∧ (i 1).val < win1_4.index t 1 * 128 + 128
    rw [e1]; omega

/-- The output array after the whole call is the layer. -/
theorem final1 (c : Dev nD) : (dat1 (F := Ideal) V c).arrAt 4 cfg1.N = layer1 V c :=
  (dat1 V c).arrAt_eq_of_cover 4 (layer1 V c) (fun t _ => flushed1_eq V c t) cover1

/-- The output array after the call, at (i, f). -/
theorem arr1_apply (c : Dev nD) (i : Fin 100000) (f : Fin 128) :
    res1 V c (ix2 i f)
      = (∑ k : Fin 128, max (raw1 V c (ix2 i k) * dcol1 V c (ix2 i (0 : Fin 1)) + bias1 V c (ix2 (0 : Fin 1) k)) 0
            * wts1 V c (ix2 k f))
          * dcol1 V c (ix2 i (0 : Fin 1)) := by
  show (dat1 (F := Ideal) V c).arrAt 4 cfg1.N (ix2 i f) = _
  rw [final1]
  rfl

end Cert.KernelIdeal.Fr

end
-- ==== Proof.KI.Val2Pay.lean ====
/-
  The arithmetic of the pooling call's body at the ideal instance, entry by entry, over vectors of the literal
  shapes.  The two accumulators are cleared to zero.  Entry (r, g) of a tile's one-hot matrix is the float of the 0/1
  word of the test "row r's graph-id word equals the word of g"; for g below 64 that test is "the id, read signed, is
  g", and the float of the word is 1 or 0.  The tile's matrix product contracts the tile's 10000 rows of both operands,
  so entry (g, f) of the sums accumulator grows by the sum over the rows r of one-hot (r, g) times the finished layer
  max (raw (r, f) · weight r + bias f, 0); entry g of the counts accumulator grows by the column sum of the one-hot
  matrix.  The block the last point stores is, at (g, j), the sum over the 128 features k of
  (sums (g, k) / max (counts g, 1)) · head weight (k, j), plus the head's bias j.
-/
import proofs.«427760_j11510512353338_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe
open Idealize.ShloMosaic.ValueIdx

variable {α : Type}

/-! ## Layout: a column over the lanes, a vector as a column -/

/-- An `[a, 1]` array broadcast to `[a, b]` reads, at `(p, c)`, the operand's one column at row `p`. -/
theorem column_over_lanes {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`. -/
theorem vector_as_column {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Words and constants -/

/-- The word of the float one denotes the extended real one. -/
theorem f32_one_word : Ideal.ofBits .f32 0x3F800000#32 = 1 := by
  simp [Ideal.ofBits, Ideal.ieee, -EReal.coe_mul]; norm_num

/-- A graph number below 64, as a 32-bit word read signed, is itself. -/
theorem toInt_graph_word (g : Fin 64) : (BitVec.ofNat 32 g.val).toInt = (g.val : ℤ) := by
  have := g.isLt
  rw [BitVec.toInt_eq_toNat_cond]
  simp only [BitVec.toNat_ofNat]
  omega

/-- The float of the 0/1 word of the test "the id word equals graph number g" is one when the id, read signed, is g,
    and zero otherwise. -/
theorem float_of_id_test (w : BitVec 32) (g : Fin 64) :
    FloatOps.sitofp (F := Ideal) .f32 ((IntOp.cmpi .eq w (BitVec.ofNat 32 g.val)).setWidth 32)
      = if w.toInt = (g.val : ℤ) then (1 : EReal) else 0 := by
  have hg := toInt_graph_word g
  by_cases h : w = BitVec.ofNat 32 g.val
  · have e : IntOp.cmpi .eq w (BitVec.ofNat 32 g.val) = 1#1 := by simp [IntOp.cmpi, h]
    rw [e, if_pos (by rw [h]; exact hg)]
    show (((BitVec.setWidth 32 1#1).toInt : ℝ) : EReal) = 1
    have : (BitVec.setWidth 32 1#1).toInt = 1 := by decide
    rw [this]; norm_num
  · have e : IntOp.cmpi .eq w (BitVec.ofNat 32 g.val) = 0#1 := by
      show BitVec.ofBool (w == BitVec.ofNat 32 g.val) = 0#1
      rw [beq_eq_false_iff_ne.mpr h]
      rfl
    rw [e, if_neg (fun hh => h (BitVec.toInt_inj.mp (hh.trans hg.symm)))]
    show (((BitVec.setWidth 32 0#1).toInt : ℝ) : EReal) = 0
    have : (BitVec.setWidth 32 0#1).toInt = 0 := by decide
    rw [this]; norm_num

/-! ## The cleared accumulators -/

theorem sums_cleared (j : S64x128.Idx) : k2_pay2 (F := Ideal) j = 0 := by
  unfold k2_pay2
  rw [shapeCast_self]
  exact Ideal.ofBits_zero_f32

theorem counts_cleared (j : S64x1.Idx) : k2_pay3 (F := Ideal) j = 0 := by
  unfold k2_pay3
  rw [shapeCast_self]
  exact Ideal.ofBits_zero_f32

/-! ## The one-hot tile -/

/-- Entry (r, g) of the tile's one-hot matrix: one when row r's graph id, read signed, is g, else zero. -/
theorem onehot_entry (v15 : Vec Ideal S10000x1 .i32) (r : Fin 10000) (g : Fin 64) :
    k2_pay4 (F := Ideal) v15 (ix2 r g) = if (v15 (ix2 r (0 : Fin 1))).toInt = (g.val : ℤ) then 1 else 0 := by
  unfold k2_pay4
  rw [shapeCast_self]
  show FloatOps.sitofp (F := Ideal) .f32 ((IntOp.cmpi .eq (broadcastTo S10000x64 v15 broadcasts_S10000x1_S10000x64 (ix2 r g))
    (iota .tc S10000x64 32 [1] iota_S10000x64_d1_w32 (ix2 r g))).setWidth 32) = _
  rw [column_over_lanes, iota_single_apply]
  exact float_of_id_test _ g

/-! ## The tile's product: the one-hot matrix, transposed, against the finished layer -/

theorem tile_lhs_0 (i : S64x128.Idx) (q : dot_S10000x64_S10000x128_S64x128_0_0_1_1_n_n.contr.Idx) :
    (dot_S10000x64_S10000x128_S64x128_0_0_1_1_n_n.lhsIdx i q 0).val = (q ⟨0, by decide⟩).val :=
  dot_S10000x64_S10000x128_S64x128_0_0_1_1_n_n.lhsIdx_val_of_single rfl i q
theorem tile_lhs_1 (i : S64x128.Idx) (q : dot_S10000x64_S10000x128_S64x128_0_0_1_1_n_n.contr.Idx) :
    (dot_S10000x64_S10000x128_S64x128_0_0_1_1_n_n.lhsIdx i q 1).val = (i 0).val := by
  unfold DotDims.lhsIdx
  rw [dif_neg (show ¬(1 : Fin S10000x64.rank) ∈ dot_S10000x64_S10000x128_S64x128_0_0_1_1_n_n.lhsBatch by decide), dif_pos (show (1 : Fin S10000x64.rank) ∈ dot_S10000x64_S10000x128_S64x128_0_0_1_1_n_n.lhsNonContracting by decide)]
  rfl
theorem tile_rhs_0 (i : S64x128.Idx) (q : dot_S10000x64_S10000x128_S64x128_0_0_1_1_n_n.contr.Idx) :
    (dot_S10000x64_S10000x128_S64x128_0_0_1_1_n_n.rhsIdx i q 0).val = (q ⟨0, by decide⟩).val :=
  dot_S10000x64_S10000x128_S64x128_0_0_1_1_n_n.rhsIdx_val_of_single rfl i q
theorem tile_rhs_1 (i : S64x128.Idx) (q : dot_S10000x64_S10000x128_S64x128_0_0_1_1_n_n.contr.Idx) :
    (dot_S10000x64_S10000x128_S64x128_0_0_1_1_n_n.rhsIdx i q 1).val = (i 1).val := by
  unfold DotDims.rhsIdx
  rw [dif_neg (show ¬(1 : Fin S10000x128.rank) ∈ dot_S10000x64_S10000x128_S64x128_0_0_1_1_n_n.rhsBatch by decide), dif_pos (show (1 : Fin S10000x128.rank) ∈ dot_S10000x64_S10000x128_S64x128_0_0_1_1_n_n.rhsNonContracting by decide)]
  rfl

/-- The product that contracts the tile's 10000 rows of both operands, into the zero splat: entry (g, f) is the sum over
    the rows r of A (r, g) · B (r, f). -/
theorem tile_product (A : FVec Ideal S10000x64 .f32) (B : FVec Ideal S10000x128 .f32) (g : Fin 64) (f : Fin 128) :
    matmul dot_S10000x64_S10000x128_S64x128_0_0_1_1_n_n none A B (constant (F := Ideal) S64x128 .f32 0x00000000#32) (ix2 g f)
      = ∑ r : Fin 10000, A (ix2 r g) * B (ix2 r f) := by
  refine (Ideal.matmul_constant_zero_apply dot_S10000x64_S10000x128_S64x128_0_0_1_1_n_n none A B (ix2 g f)).trans ?_
  rw [← Equiv.sum_comp (ValueIdx.contrEquiv1 dot_S10000x64_S10000x128_S64x128_0_0_1_1_n_n 10000 rfl rfl).symm]
  refine Finset.sum_congr rfl fun k _ => ?_
  have hk := ValueIdx.contrEquiv1_symm_val dot_S10000x64_S10000x128_S64x128_0_0_1_1_n_n 10000 rfl rfl k
  have el : dot_S10000x64_S10000x128_S64x128_0_0_1_1_n_n.lhsIdx (ix2 g f) ((ValueIdx.contrEquiv1 dot_S10000x64_S10000x128_S64x128_0_0_1_1_n_n 10000 rfl rfl).symm k) = ix2 k g := funext fun a => Fin.ext (by
    match a with
    | ⟨0, _⟩ => exact (tile_lhs_0 _ _).trans hk
    | ⟨1, _⟩ => exact tile_lhs_1 _ _)
  have er : dot_S10000x64_S10000x128_S64x128_0_0_1_1_n_n.rhsIdx (ix2 g f) ((ValueIdx.contrEquiv1 dot_S10000x64_S10000x128_S64x128_0_0_1_1_n_n 10000 rfl rfl).symm k) = ix2 k f := funext fun a => Fin.ext (by
    match a with
    | ⟨0, _⟩ => exact (tile_rhs_0 _ _).trans hk
    | ⟨1, _⟩ => exact tile_rhs_1 _ _)
  rw [el, er]

/-- The finished layer on the tile at (r, f): max (raw · weight of row r + bias f, 0). -/
theorem layer_entry (v3 : FVec Ideal S10000x128 .f32) (v5 : FVec Ideal S10000x1 .f32) (v9 : FVec Ideal S1x128 .f32)
    (h1 : S10000x1.Broadcasts S10000x128) (h2 : S1x128.Broadcasts S10000x128) (r : Fin 10000) (f : Fin 128) :
    maximumf (addf (mulf v3 (broadcastTo S10000x128 v5 h1)) (broadcastTo S10000x128 v9 h2))
        (broadcast S10000x128 (Scalar.ofBits (F := Ideal) .f32 0x00000000#32)) (ix2 r f)
      = max (v3 (ix2 r f) * v5 (ix2 r (0 : Fin 1)) + v9 (ix2 (0 : Fin 1) f)) 0 := by
  show max (v3 (ix2 r f) * broadcastTo S10000x128 v5 h1 (ix2 r f) + broadcastTo S10000x128 v9 h2 (ix2 r f))
    (Ideal.ofBits .f32 0x00000000#32) = _
  rw [column_over_lanes, broadcastTo_1b_ab_apply, Ideal.ofBits_zero_f32]

/-- The sums accumulator after a tile: what it held plus, over the tile's rows, one-hot entry times finished layer. -/
theorem sums_step (v3 : Vec Ideal S10000x128 .f32) (v5 : Vec Ideal S10000x1 .f32) (v9 : Vec Ideal S1x128 .f32)
    (v15 : Vec Ideal S10000x1 .i32) (v22 : Vec Ideal S64x128 .f32) (g : Fin 64) (f : Fin 128) :
    k2_pay5 (F := Ideal) v3 v5 v9 v15 v22 (ix2 g f)
      = v22 (ix2 g f) + ∑ r : Fin 10000, k2_pay4 (F := Ideal) v15 (ix2 r g)
          * max (v3 (ix2 r f) * v5 (ix2 r (0 : Fin 1)) + v9 (ix2 (0 : Fin 1) f)) 0 := by
  unfold k2_pay5
  simp only [shapeCast_self]
  rw [addf_apply, tile_product]
  refine congrArg (v22 (ix2 g f) + ·) (Finset.sum_congr rfl fun r _ => ?_)
  rw [layer_entry]

/-! ## The tile's counts -/

/-- The sum of a [10000, 64] tile over its rows, at column g. -/
theorem tile_column_sum (src : FVec Ideal S10000x64 .f32) (h : S10000x64.Reduces [0] S64) (hφ : FKind.Formats .f32)
    (hacc : (0x00000000#32 : BitVec FTy.f32.bits) = FKind.add.neutral .f32 hφ) (g : Fin 64) :
    multiReduction (F := Ideal) .add [0] S64 src 0x00000000#32 h hφ hacc (ix1 g) = ∑ r : Fin 10000, src (ix2 r g) := by
  refine (Ideal.multiReduction_add_single src 0x00000000#32 h hφ hacc (ix1 g)).trans ?_
  refine Finset.sum_congr rfl fun r _ => congrArg src ?_
  funext a
  apply Fin.ext
  match a with
  | ⟨0, _⟩ => rfl
  | ⟨1, _⟩ => rfl

/-- The counts accumulator after a tile: what it held plus the tile's column sum of the one-hot matrix. -/
theorem counts_step (v15 : Vec Ideal S10000x1 .i32) (v28 : Vec Ideal S64x1 .f32) (g : Fin 64) :
    k2_pay6 (F := Ideal) v15 v28 (ix2 g (0 : Fin 1))
      = v28 (ix2 g (0 : Fin 1)) + ∑ r : Fin 10000, k2_pay4 (F := Ideal) v15 (ix2 r g) := by
  unfold k2_pay6
  rw [shapeCast_self, addf_apply, vector_as_column]
  exact congrArg (v28 (ix2 g (0 : Fin 1)) + ·) (tile_column_sum _ _ _ _ g)

/-! ## The head -/

theorem head_lhs_0 (i : S64x10.Idx) (q : dot_S64x128_S128x10_S64x10_1_0_0_1_n_n.contr.Idx) :
    (dot_S64x128_S128x10_S64x10_1_0_0_1_n_n.lhsIdx i q 0).val = (i 0).val := by
  unfold DotDims.lhsIdx
  rw [dif_neg (show ¬(0 : Fin S64x128.rank) ∈ dot_S64x128_S128x10_S64x10_1_0_0_1_n_n.lhsBatch by decide), dif_pos (show (0 : Fin S64x128.rank) ∈ dot_S64x128_S128x10_S64x10_1_0_0_1_n_n.lhsNonContracting by decide)]
  rfl
theorem head_lhs_1 (i : S64x10.Idx) (q : dot_S64x128_S128x10_S64x10_1_0_0_1_n_n.contr.Idx) :
    (dot_S64x128_S128x10_S64x10_1_0_0_1_n_n.lhsIdx i q 1).val = (q ⟨0, by decide⟩).val :=
  dot_S64x128_S128x10_S64x10_1_0_0_1_n_n.lhsIdx_val_of_single rfl i q
theorem head_rhs_0 (i : S64x10.Idx) (q : dot_S64x128_S128x10_S64x10_1_0_0_1_n_n.contr.Idx) :
    (dot_S64x128_S128x10_S64x10_1_0_0_1_n_n.rhsIdx i q 0).val = (q ⟨0, by decide⟩).val :=
  dot_S64x128_S128x10_S64x10_1_0_0_1_n_n.rhsIdx_val_of_single rfl i q
theorem head_rhs_1 (i : S64x10.Idx) (q : dot_S64x128_S128x10_S64x10_1_0_0_1_n_n.contr.Idx) :
    (dot_S64x128_S128x10_S64x10_1_0_0_1_n_n.rhsIdx i q 1).val = (i 1).val := by
  unfold DotDims.rhsIdx
  rw [dif_neg (show ¬(1 : Fin S128x10.rank) ∈ dot_S64x128_S128x10_S64x10_1_0_0_1_n_n.rhsBatch by decide), dif_pos (show (1 : Fin S128x10.rank) ∈ dot_S64x128_S128x10_S64x10_1_0_0_1_n_n.rhsNonContracting by decide)]
  rfl

/-- The head's product into the zero splat: entry (g, j) is the sum over the 128 features k of A (g, k) · B (k, j). -/
theorem head_product (A : FVec Ideal S64x128 .f32) (B : FVec Ideal S128x10 .f32) (g : Fin 64) (j : Fin 10) :
    matmul dot_S64x128_S128x10_S64x10_1_0_0_1_n_n none A B (constant (F := Ideal) S64x10 .f32 0x00000000#32) (ix2 g j)
      = ∑ k : Fin 128, A (ix2 g k) * B (ix2 k j) := by
  refine (Ideal.matmul_constant_zero_apply dot_S64x128_S128x10_S64x10_1_0_0_1_n_n none A B (ix2 g j)).trans ?_
  rw [← Equiv.sum_comp (ValueIdx.contrEquiv1 dot_S64x128_S128x10_S64x10_1_0_0_1_n_n 128 rfl rfl).symm]
  refine Finset.sum_congr rfl fun k _ => ?_
  have hk := ValueIdx.contrEquiv1_symm_val dot_S64x128_S128x10_S64x10_1_0_0_1_n_n 128 rfl rfl k
  have el : dot_S64x128_S128x10_S64x10_1_0_0_1_n_n.lhsIdx (ix2 g j) ((ValueIdx.contrEquiv1 dot_S64x128_S128x10_S64x10_1_0_0_1_n_n 128 rfl rfl).symm k) = ix2 g k := funext fun a => Fin.ext (by
    match a with
    | ⟨0, _⟩ => exact head_lhs_0 _ _
    | ⟨1, _⟩ => exact (head_lhs_1 _ _).trans hk)
  have er : dot_S64x128_S128x10_S64x10_1_0_0_1_n_n.rhsIdx (ix2 g j) ((ValueIdx.contrEquiv1 dot_S64x128_S128x10_S64x10_1_0_0_1_n_n 128 rfl rfl).symm k) = ix2 k j := funext fun a => Fin.ext (by
    match a with
    | ⟨0, _⟩ => exact (head_rhs_0 _ _).trans hk
    | ⟨1, _⟩ => exact head_rhs_1 _ _)
  rw [el, er]

/-- The pooled mean at (g, k): the sum divided by the count clamped below at one. -/
theorem mean_entry (v38 : FVec Ideal S64x128 .f32) (v39 : FVec Ideal S64x1 .f32) (h : S64x1.Broadcasts S64x128)
    (g : Fin 64) (k : Fin 128) :
    divf v38 (broadcastTo S64x128 (maximumf v39 (broadcast S64x1 (Scalar.ofBits (F := Ideal) .f32 0x3F800000#32))) h) (ix2 g k)
      = Ideal.div (v38 (ix2 g k)) (max (v39 (ix2 g (0 : Fin 1))) 1) := by
  show Ideal.div (v38 (ix2 g k)) (broadcastTo S64x128 (maximumf v39 (broadcast S64x1 (Scalar.ofBits (F := Ideal) .f32 0x3F800000#32))) h (ix2 g k)) = _
  rw [column_over_lanes]
  show Ideal.div (v38 (ix2 g k)) (max (v39 (ix2 g (0 : Fin 1))) (Ideal.ofBits .f32 0x3F800000#32)) = _
  rw [f32_one_word]

/-- The block the last point stores, at (g, j): the pooled means against the head's weights, plus its bias. -/
theorem head_entry (v38 : Vec Ideal S64x128 .f32) (v39 : Vec Ideal S64x1 .f32) (v44 : Vec Ideal S128x10 .f32)
    (v46 : Vec Ideal S1x10 .f32) (g : Fin 64) (j : Fin 10) :
    k2_pay1 (F := Ideal) v38 v39 v44 v46 (ix2 g j)
      = (∑ k : Fin 128, Ideal.div (v38 (ix2 g k)) (max (v39 (ix2 g (0 : Fin 1))) 1) * v44 (ix2 k j))
          + v46 (ix2 (0 : Fin 1) j) := by
  unfold k2_pay1
  rw [shapeCast_self, addf_apply, head_product, broadcastTo_1b_ab_apply]
  refine congrArg (· + v46 (ix2 (0 : Fin 1) j)) (Finset.sum_congr rfl fun k _ => ?_)
  rw [mean_entry]

end Cert.KernelIdeal.Fr

end
-- ==== Proof.Spec.lean ====
/-
  The mathematics of the certificate, over plain finite index types and the extended reals.

  A graph-convolution layer.  Every edge e has a source row s e, a destination word read as an integer d e, and the row
  d' e at which the reference looks up the destination's weight; an edge is sent to node n when d e = n, and then
  d' e = n.  With y = xin · w (a 128-term sum per entry) and c the vector of inverse square-root degrees, the kernel's
  layer is  max ((0 + Σ_{e → n} y (s e) · c (s e)) · c n + b, 0)  and the reference's is
  max ((0 + Σ_{e → n} y (s e) · (c (s e) · c (d' e))) + b, 0).  They agree because c n is a NONNEGATIVE REAL:
  multiplication by such a factor distributes over a sum of extended reals whatever the summands are (no summand need be
  finite), and multiplication of extended reals is associative.

  The pooling.  The kernel adds, tile by tile over ten tiles of 10000 rows, the tile's sum of oh n g · h n f into an
  accumulator that starts at zero, oh n g being 1 when node n belongs to graph g and 0 otherwise; the reference sums h n f
  over the nodes of graph g.  They agree because 0 · x = 0 and 1 · x = x for every extended real x and addition of
  extended reals is commutative and associative; the counts likewise with h = 1.
-/
import Mathlib.Data.EReal.Operations
import Mathlib.Data.EReal.Inv
import Mathlib.Algebra.BigOperators.Fin
import Mathlib.Algebra.BigOperators.Ring.Finset

noncomputable section

namespace Cert.Spec

open Finset

/-! ## A layer -/

section Layer

variable (s : Fin 1700000 → Fin 100000) (d : Fin 1700000 → ℤ) (d' : Fin 1700000 → Fin 100000)
  (c : Fin 100000 → EReal)

/-- The edges sent to node n. -/
def into (n : Fin 100000) : Finset (Fin 1700000) := univ.filter fun e => d e = (n.val : ℤ)

/-- The dense transform: row i of xin times column f of w. -/
def lin (xin : Fin 100000 → Fin 128 → EReal) (w : Fin 128 → Fin 128 → EReal) (i : Fin 100000) (f : Fin 128) : EReal :=
  ∑ k : Fin 128, xin i k * w k f

/-- The kernel's layer: the source's weight folded into the gathered rows, the destination's weight applied to the sum. -/
def layerK (xin : Fin 100000 → Fin 128 → EReal) (w : Fin 128 → Fin 128 → EReal) (b : Fin 128 → EReal)
    (n : Fin 100000) (f : Fin 128) : EReal :=
  max (((0 : EReal) + ∑ e ∈ into d n, lin xin w (s e) f * c (s e)) * c n + b f) 0

/-- The reference's layer: both weights multiplied into each message. -/
def layerR (xin : Fin 100000 → Fin 128 → EReal) (w : Fin 128 → Fin 128 → EReal) (b : Fin 128 → EReal)
    (n : Fin 100000) (f : Fin 128) : EReal :=
  max (((0 : EReal) + ∑ e ∈ into d n, lin xin w (s e) f * (c (s e) * c (d' e))) + b f) 0

/-- A nonnegative real factor distributes over a finite sum of extended reals, whatever the summands are. -/
theorem sum_mul_coe_of_nonneg {ι : Type*} (S : Finset ι) (a : ι → EReal) {r : ℝ} (hr : 0 ≤ r) :
    (∑ e ∈ S, a e) * (r : EReal) = ∑ e ∈ S, a e * (r : EReal) := by
  classical
  induction S using Finset.induction_on with
  | empty => simp only [Finset.sum_empty, zero_mul]
  | insert x S hx ih =>
    rw [Finset.sum_insert hx, Finset.sum_insert hx,
      EReal.right_distrib_of_nonneg_of_ne_top (EReal.coe_nonneg.mpr hr) (EReal.coe_ne_top r), ih]

/-- The two layers agree when the weights are nonnegative reals and the reference looks an edge's destination weight up
    at the node the edge is sent to. -/
theorem layerK_eq_layerR (hc : ∀ n, ∃ r : ℝ, 0 ≤ r ∧ c n = (r : EReal))
    (hd : ∀ e (n : Fin 100000), d e = (n.val : ℤ) → d' e = n)
    (xin : Fin 100000 → Fin 128 → EReal) (w : Fin 128 → Fin 128 → EReal) (b : Fin 128 → EReal) :
    layerK s d c xin w b = layerR s d d' c xin w b := by
  funext n f
  obtain ⟨r, hr, hcn⟩ := hc n
  have key : ((0 : EReal) + ∑ e ∈ into d n, lin xin w (s e) f * c (s e)) * c n
      = (0 : EReal) + ∑ e ∈ into d n, lin xin w (s e) f * (c (s e) * c (d' e)) := by
    rw [zero_add, zero_add, hcn, sum_mul_coe_of_nonneg _ _ hr]
    refine Finset.sum_congr rfl fun e he => ?_
    have hde : d' e = n := hd e n (Finset.mem_filter.mp he).2
    rw [hde, hcn, mul_assoc]
  unfold layerK layerR
  rw [key]

end Layer

/-! ## The pooling -/

section Pool

variable (mem : Fin 100000 → Fin 64 → Prop) [∀ n g, Decidable (mem n g)]

/-- Row r of tile t. -/
def tileRow (t : Fin 10) (r : Fin 10000) : Fin 100000 := ⟨10000 * t.val + r.val, by omega⟩

/-- The one-hot entry. -/
def oh (n : Fin 100000) (g : Fin 64) : EReal := if mem n g then 1 else 0

/-- The kernel's per-graph sums after the tiles 0 … t: the accumulator before, plus the tile's one-hot product. -/
def sumsK (h : Fin 100000 → Fin 128 → EReal) (g : Fin 64) (f : Fin 128) : (t : ℕ) → t < 10 → EReal
  | 0, ht => (0 : EReal) + ∑ r : Fin 10000, oh mem (tileRow ⟨0, ht⟩ r) g * h (tileRow ⟨0, ht⟩ r) f
  | t + 1, ht => sumsK h g f t (Nat.lt_of_succ_lt ht) + ∑ r : Fin 10000, oh mem (tileRow ⟨t + 1, ht⟩ r) g * h (tileRow ⟨t + 1, ht⟩ r) f

/-- The kernel's per-graph counts after the tiles 0 … t. -/
def cntK (g : Fin 64) : (t : ℕ) → t < 10 → EReal
  | 0, ht => (0 : EReal) + ∑ r : Fin 10000, oh mem (tileRow ⟨0, ht⟩ r) g
  | t + 1, ht => cntK g t (Nat.lt_of_succ_lt ht) + ∑ r : Fin 10000, oh mem (tileRow ⟨t + 1, ht⟩ r) g

/-- The reference's per-graph sums and counts. -/
def sumsR (h : Fin 100000 → Fin 128 → EReal) (g : Fin 64) (f : Fin 128) : EReal :=
  (0 : EReal) + ∑ n ∈ univ.filter (fun n => mem n g), h n f
def cntR (g : Fin 64) : EReal := (0 : EReal) + ∑ n ∈ univ.filter (fun n => mem n g), (1 : EReal)

/-- The position of a tile's row among all rows. -/
theorem tileRow_val (t : Fin 10) (r : Fin 10000) : (tileRow t r).val = 10000 * t.val + r.val := rfl

/-- A sum over the rows of one tile is the sum over the rows whose position lies in the tile's range. -/
theorem sum_tile (F : Fin 100000 → EReal) (t : Fin 10) :
    ∑ r : Fin 10000, F (tileRow t r)
      = ∑ n ∈ univ.filter (fun n : Fin 100000 => 10000 * t.val ≤ n.val ∧ n.val < 10000 * (t.val + 1)), F n := by
  refine Finset.sum_nbij' (fun r => tileRow t r)
    (fun n => ⟨(n.val - 10000 * t.val) % 10000, Nat.mod_lt _ (by omega)⟩) ?_ ?_ ?_ ?_ ?_
  · intro r _
    simp only [Finset.mem_filter, Finset.mem_univ, true_and, tileRow_val]
    omega
  · intro n _
    exact Finset.mem_univ _
  · intro r _
    apply Fin.ext
    simp only [tileRow_val]
    omega
  · intro n hn
    simp only [Finset.mem_filter, Finset.mem_univ, true_and] at hn
    apply Fin.ext
    simp only [tileRow_val]
    omega
  · intro r _
    rfl

/-- The rows before the end of tile t + 1 are the rows before the end of tile t together with the rows of tile t + 1. -/
theorem sum_below_succ (F : Fin 100000 → EReal) (t : ℕ) :
    ∑ n ∈ univ.filter (fun n : Fin 100000 => n.val < 10000 * (t + 1 + 1)), F n
      = ∑ n ∈ univ.filter (fun n : Fin 100000 => n.val < 10000 * (t + 1)), F n
        + ∑ n ∈ univ.filter (fun n : Fin 100000 => 10000 * (t + 1) ≤ n.val ∧ n.val < 10000 * (t + 1 + 1)), F n := by
  rw [← Finset.sum_union]
  · refine Finset.sum_congr ?_ fun _ _ => rfl
    ext n
    simp only [Finset.mem_union, Finset.mem_filter, Finset.mem_univ, true_and]
    omega
  · rw [Finset.disjoint_filter]
    intro n _ h1 h2
    omega

/-- An accumulator that starts at zero and receives, tile by tile, the tile's sum of F. -/
def acc (F : Fin 100000 → EReal) : (t : ℕ) → t < 10 → EReal
  | 0, ht => (0 : EReal) + ∑ r : Fin 10000, F (tileRow ⟨0, ht⟩ r)
  | t + 1, ht => acc F t (Nat.lt_of_succ_lt ht) + ∑ r : Fin 10000, F (tileRow ⟨t + 1, ht⟩ r)

/-- After the tiles 0 … t the accumulator holds the sum of F over the rows before the end of tile t. -/
theorem acc_eq (F : Fin 100000 → EReal) : ∀ (t : ℕ) (ht : t < 10),
    acc F t ht = (0 : EReal) + ∑ n ∈ univ.filter (fun n : Fin 100000 => n.val < 10000 * (t + 1)), F n := by
  intro t
  induction t with
  | zero =>
    intro ht
    rw [acc, sum_tile]
    refine congrArg (fun z => (0 : EReal) + z) ?_
    refine Finset.sum_congr ?_ fun _ _ => rfl
    ext n
    simp only [Finset.mem_filter, Finset.mem_univ, true_and]
    omega
  | succ t ih =>
    intro ht
    rw [acc, ih, sum_tile, sum_below_succ, add_assoc]

/-- After the last tile the accumulator holds the sum of F over all rows. -/
theorem acc_last (F : Fin 100000 → EReal) : acc F 9 (by omega) = (0 : EReal) + ∑ n : Fin 100000, F n := by
  rw [acc_eq]
  refine congrArg (fun z => (0 : EReal) + z) ?_
  refine Finset.sum_congr ?_ fun _ _ => rfl
  refine Finset.filter_true_of_mem fun n _ => ?_
  have := n.isLt
  omega

theorem sumsK_eq_acc (h : Fin 100000 → Fin 128 → EReal) (g : Fin 64) (f : Fin 128) : ∀ (t : ℕ) (ht : t < 10),
    sumsK mem h g f t ht = acc (fun n => oh mem n g * h n f) t ht := by
  intro t
  induction t with
  | zero => intro ht; rw [sumsK, acc]
  | succ t ih => intro ht; rw [sumsK, acc, ih]

theorem cntK_eq_acc (g : Fin 64) : ∀ (t : ℕ) (ht : t < 10),
    cntK mem g t ht = acc (fun n => oh mem n g) t ht := by
  intro t
  induction t with
  | zero => intro ht; rw [cntK, acc]
  | succ t ih => intro ht; rw [cntK, acc, ih]

theorem sumsK_last_eq_sumsR (h : Fin 100000 → Fin 128 → EReal) (g : Fin 64) (f : Fin 128) :
    sumsK mem h g f 9 (by omega) = sumsR mem h g f := by
  rw [sumsK_eq_acc, acc_last, sumsR, Finset.sum_filter]
  refine congrArg (fun z => (0 : EReal) + z) ?_
  refine Finset.sum_congr rfl fun n _ => ?_
  unfold oh
  split_ifs
  · rw [one_mul]
  · rw [zero_mul]

theorem cntK_last_eq_cntR (g : Fin 64) : cntK mem g 9 (by omega) = cntR mem g := by
  rw [cntK_eq_acc, acc_last, cntR, Finset.sum_filter]
  rfl

end Pool

end Cert.Spec

end
-- ==== Proof.KI.Val2.lean ====
/-
  What the third pallas_call leaves in its output array, at the ideal instance, entry by entry.  With
  h (n, f) = max (raw (n, f) · dinv n + bias f, 0) the finished second layer and node n in graph g when its graph-id
  word is g, the two accumulators after tile t are the tile-by-tile sums Spec.sumsK / Spec.cntK (a one-hot entry is the
  float of the 0/1 word of the equality test; the tile's matrix product contracts the tile's 10000 rows), and the one
  block written back, at the last point, is the head applied to the accumulators after the last tile.
-/
import proofs.«427760_j11510512353338_2_alg».proof.Proof.Gen.KernelIdeal.Launch
import proofs.«427760_j11510512353338_2_alg».proof.Proof.Gen.KernelIdeal.Skeleton
import proofs.«427760_j11510512353338_2_alg».proof.Proof.Gen.KernelIdeal.Points
import proofs.«427760_j11510512353338_2_alg».proof.Proof.KI.Reg2
import proofs.«427760_j11510512353338_2_alg».proof.Proof.KI.Val2Pay
import proofs.«427760_j11510512353338_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The arrays the call reads and the one it writes, at their literal types. -/
abbrev raw2 (c : Dev nD) : S100000x128.Idx → EReal := V c main_v41
abbrev dcol2 (c : Dev nD) : S100000x1.Idx → EReal := V c main_v15
abbrev bias2 (c : Dev nD) : S1x128.Idx → EReal := V c main_v18
abbrev gid2 (c : Dev nD) : S100000x1.Idx → BitVec 32 := V c main_v16
abbrev hw2 (c : Dev nD) : S128x10.Idx → EReal := V c main_arg7
abbrev hb2 (c : Dev nD) : S1x10.Idx → EReal := V c main_v19
abbrev res2 (c : Dev nD) : S64x10.Idx → EReal := (dat2 (F := Ideal) V c).arrAt 6 cfg2.N

/-- The finished second layer at (n, f), read off the call's entry contents. -/
def hFin (c : Dev nD) (n : Fin 100000) (f : Fin 128) : EReal :=
  max (raw2 V c (ix2 n f) * dcol2 V c (ix2 n (0 : Fin 1)) + bias2 V c (ix2 (0 : Fin 1) f)) 0

/-- Node n is in graph g: its graph-id word, read signed, is g. -/
def inG (c : Dev nD) (n : Fin 100000) (g : Fin 64) : Prop := (gid2 V c (ix2 n (0 : Fin 1))).toInt = (g.val : ℤ)
instance (c : Dev nD) (n : Fin 100000) (g : Fin 64) : Decidable (inG V c n g) := by unfold inG; infer_instance

/-! ## The blocks the body reads -/

/-- The printed index maps over the grid: the three row-tiled inputs sit at block row t and block column 0; the bias
    row, the head's weights and bias and the output at block (0, 0). -/
theorem tileIndex2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Entry (r, k) of the raw-layer tile at point t is entry (10000 t + r, k) of the raw layer. -/
theorem rawTile2_apply (c : Dev nD) (t : Fin cfg2.N) (r : Fin 10000) (k : Fin 128) (n : Fin 100000)
    (hn : n.val = 10000 * t.val + r.val) :
    (iblk2 V c 0 t : Vec Ideal S10000x128 .f32) (ix2 r k) = raw2 V c (ix2 n k) := by
  obtain ⟨e00, e01, -⟩ := tileIndex2 t
  unfold iblk2
  rw [View.read_apply]
  show V c main_v41 _ = V c main_v41 _
  congr 1
  funext a
  apply Fin.ext
  match a with
  | ⟨0, _⟩ => show win2_0.index t (0 : Fin 2) * 10000 + 1 * r.val = n.val; rw [e00, hn]; omega
  | ⟨1, _⟩ => show win2_0.index t (1 : Fin 2) * 128 + 1 * k.val = k.val; rw [e01]; omega

/-- Entry (r, 0) of the degree-weight tile at point t is entry (10000 t + r, 0) of the degree weights. -/
theorem degTile2_apply (c : Dev nD) (t : Fin cfg2.N) (r : Fin 10000) (n : Fin 100000)
    (hn : n.val = 10000 * t.val + r.val) :
    (iblk2 V c 1 t : Vec Ideal S10000x1 .f32) (ix2 r (0 : Fin 1)) = dcol2 V c (ix2 n (0 : Fin 1)) := by
  obtain ⟨-, -, e10, e11, -⟩ := tileIndex2 t
  unfold iblk2
  rw [View.read_apply]
  show V c main_v15 _ = V c main_v15 _
  congr 1
  funext a
  apply Fin.ext
  match a with
  | ⟨0, _⟩ => show win2_1.index t (0 : Fin 2) * 10000 + 1 * r.val = n.val; rw [e10, hn]; omega
  | ⟨1, _⟩ => show win2_1.index t (1 : Fin 2) * 1 + 1 * 0 = 0; rw [e11]

/-- The bias block at every point is the bias row. -/
theorem biasRow2_apply (c : Dev nD) (t : Fin cfg2.N) (f : Fin 128) :
    (iblk2 V c 2 t : Vec Ideal S1x128 .f32) (ix2 (0 : Fin 1) f) = bias2 V c (ix2 (0 : Fin 1) f) := by
  obtain ⟨-, -, -, -, e20, e21, -⟩ := tileIndex2 t
  unfold iblk2
  rw [View.read_apply]
  show V c main_v18 _ = V c main_v18 _
  congr 1
  funext a
  apply Fin.ext
  match a with
  | ⟨0, _⟩ => show win2_2.index t (0 : Fin 2) * 1 + 1 * 0 = 0; rw [e20]
  | ⟨1, _⟩ => show win2_2.index t (1 : Fin 2) * 128 + 1 * f.val = f.val; rw [e21]; omega

/-- Entry (r, 0) of the graph-id tile at point t is entry (10000 t + r, 0) of the graph ids. -/
theorem gidTile2_apply (c : Dev nD) (t : Fin cfg2.N) (r : Fin 10000) (n : Fin 100000)
    (hn : n.val = 10000 * t.val + r.val) :
    (iblk2 V c 3 t : Vec Ideal S10000x1 .i32) (ix2 r (0 : Fin 1)) = gid2 V c (ix2 n (0 : Fin 1)) := by
  obtain ⟨-, -, -, -, -, -, e30, e31, -⟩ := tileIndex2 t
  unfold iblk2
  rw [View.read_apply]
  show V c main_v16 _ = V c main_v16 _
  congr 1
  funext a
  apply Fin.ext
  match a with
  | ⟨0, _⟩ => show win2_3.index t (0 : Fin 2) * 10000 + 1 * r.val = n.val; rw [e30, hn]; omega
  | ⟨1, _⟩ => show win2_3.index t (1 : Fin 2) * 1 + 1 * 0 = 0; rw [e31]

/-- The head's weight block at every point is the weight matrix. -/
theorem headWeights2_apply (c : Dev nD) (t : Fin cfg2.N) (k : Fin 128) (j : Fin 10) :
    (iblk2 V c 4 t : Vec Ideal S128x10 .f32) (ix2 k j) = hw2 V c (ix2 k j) := by
  obtain ⟨-, -, -, -, -, -, -, -, e40, e41, -⟩ := tileIndex2 t
  unfold iblk2
  rw [View.read_apply]
  show V c main_arg7 _ = V c main_arg7 _
  congr 1
  funext a
  apply Fin.ext
  match a with
  | ⟨0, _⟩ => show win2_4.index t (0 : Fin 2) * 128 + 1 * k.val = k.val; rw [e40]; omega
  | ⟨1, _⟩ => show win2_4.index t (1 : Fin 2) * 10 + 1 * j.val = j.val; rw [e41]; omega

/-- The head's bias block at every point is the bias row. -/
theorem headBias2_apply (c : Dev nD) (t : Fin cfg2.N) (j : Fin 10) :
    (iblk2 V c 5 t : Vec Ideal S1x10 .f32) (ix2 (0 : Fin 1) j) = hb2 V c (ix2 (0 : Fin 1) j) := by
  obtain ⟨-, -, -, -, -, -, -, -, -, -, e50, e51, -⟩ := tileIndex2 t
  unfold iblk2
  rw [View.read_apply]
  show V c main_v19 _ = V c main_v19 _
  congr 1
  funext a
  apply Fin.ext
  match a with
  | ⟨0, _⟩ => show win2_5.index t (0 : Fin 2) * 1 + 1 * 0 = 0; rw [e50]
  | ⟨1, _⟩ => show win2_5.index t (1 : Fin 2) * 10 + 1 * j.val = j.val; rw [e51]; omega

/-! ## The accumulators after every tile -/

/-- The one-hot entry of row r of tile t against graph g is the one-hot entry of node 10000 t + r. -/
theorem tileOnehot2 (c : Dev nD) (t : Fin cfg2.N) (r : Fin 10000) (g : Fin 64) (n : Fin 100000)
    (hn : n.val = 10000 * t.val + r.val) :
    k2_pay4 (F := Ideal) (iblk2 V c 3 t) (ix2 r g) = Spec.oh (inG V c) n g := by
  rw [onehot_entry, gidTile2_apply V c t r n hn]
  unfold Spec.oh inG
  exact if_congr Iff.rfl rfl rfl

/-- The sums accumulator after tile n, at (g, f), is the tile-by-tile sum of the specification. -/
theorem sums2_eq (c : Dev nD) (g : Fin 64) (f : Fin 128) : ∀ (n : ℕ) (hn : n < cfg2.N) (hn' : n < 10),
    (scAt2 V c n hn).1 (ix2 g f) = Spec.sumsK (inG V c) (hFin V c) g f n hn' := by
  intro n
  induction n with
  | zero =>
    intro hn hn'
    rw [scAt2, Spec.sumsK]
    dsimp only
    refine (sums_step (iblk2 V c 0 ⟨0, hn⟩) (iblk2 V c 1 ⟨0, hn⟩) (iblk2 V c 2 ⟨0, hn⟩) (iblk2 V c 3 ⟨0, hn⟩) (k2_pay2 (F := Ideal)) g f).trans ?_
    rw [sums_cleared]
    refine congrArg (fun z => (0 : EReal) + z) (Finset.sum_congr rfl fun r _ => ?_)
    rw [tileOnehot2 V c ⟨0, hn⟩ r g (Spec.tileRow ⟨0, hn'⟩ r) rfl, rawTile2_apply V c ⟨0, hn⟩ r f (Spec.tileRow ⟨0, hn'⟩ r) rfl,
      degTile2_apply V c ⟨0, hn⟩ r (Spec.tileRow ⟨0, hn'⟩ r) rfl, biasRow2_apply V c ⟨0, hn⟩ f]
    rfl
  | succ n ih =>
    intro hn hn'
    rw [scAt2, Spec.sumsK]
    dsimp only
    refine (sums_step (iblk2 V c 0 ⟨n + 1, hn⟩) (iblk2 V c 1 ⟨n + 1, hn⟩) (iblk2 V c 2 ⟨n + 1, hn⟩) (iblk2 V c 3 ⟨n + 1, hn⟩) (scAt2 V c n (Nat.lt_of_succ_lt hn)).1 g f).trans ?_
    rw [ih (Nat.lt_of_succ_lt hn) (Nat.lt_of_succ_lt hn')]
    refine congrArg (fun z => Spec.sumsK (inG V c) (hFin V c) g f n (Nat.lt_of_succ_lt hn') + z) (Finset.sum_congr rfl fun r _ => ?_)
    rw [tileOnehot2 V c ⟨n + 1, hn⟩ r g (Spec.tileRow ⟨n + 1, hn'⟩ r) rfl, rawTile2_apply V c ⟨n + 1, hn⟩ r f (Spec.tileRow ⟨n + 1, hn'⟩ r) rfl,
      degTile2_apply V c ⟨n + 1, hn⟩ r (Spec.tileRow ⟨n + 1, hn'⟩ r) rfl, biasRow2_apply V c ⟨n + 1, hn⟩ f]
    rfl

/-- The counts accumulator after tile n, at g, is the tile-by-tile count of the specification. -/
theorem counts2_eq (c : Dev nD) (g : Fin 64) : ∀ (n : ℕ) (hn : n < cfg2.N) (hn' : n < 10),
    (scAt2 V c n hn).2 (ix2 g (0 : Fin 1)) = Spec.cntK (inG V c) g n hn' := by
  intro n
  induction n with
  | zero =>
    intro hn hn'
    rw [scAt2, Spec.cntK]
    dsimp only
    refine (counts_step (iblk2 V c 3 ⟨0, hn⟩) (k2_pay3 (F := Ideal)) g).trans ?_
    rw [counts_cleared]
    refine congrArg (fun z => (0 : EReal) + z) (Finset.sum_congr rfl fun r _ => ?_)
    exact tileOnehot2 V c ⟨0, hn⟩ r g (Spec.tileRow ⟨0, hn'⟩ r) rfl
  | succ n ih =>
    intro hn hn'
    rw [scAt2, Spec.cntK]
    dsimp only
    refine (counts_step (iblk2 V c 3 ⟨n + 1, hn⟩) (scAt2 V c n (Nat.lt_of_succ_lt hn)).2 g).trans ?_
    rw [ih (Nat.lt_of_succ_lt hn) (Nat.lt_of_succ_lt hn')]
    refine congrArg (fun z => Spec.cntK (inG V c) g n (Nat.lt_of_succ_lt hn') + z) (Finset.sum_congr rfl fun r _ => ?_)
    exact tileOnehot2 V c ⟨n + 1, hn⟩ r g (Spec.tileRow ⟨n + 1, hn'⟩ r) rfl

/-! ## From the one block written back to the array -/

/-- The whole output array as one function of the arrays the call reads: at (g, j), the pooled means of graph g against
    column j of the head's weights, plus the head's bias j. -/
def pooledHead2 (c : Dev nD) : S64x10.Idx → EReal := fun i =>
  (∑ k : Fin 128, Ideal.div (Spec.sumsK (inG V c) (hFin V c) (⟨(i 0).val, idx2_lt0 i⟩ : Fin 64) k 9 (by omega))
        (max (Spec.cntK (inG V c) (⟨(i 0).val, idx2_lt0 i⟩ : Fin 64) 9 (by omega)) 1)
      * hw2 V c (ix2 k (⟨(i 1).val, idx2_lt1 i⟩ : Fin 10)))
    + hb2 V c (ix2 (0 : Fin 1) (⟨(i 1).val, idx2_lt1 i⟩ : Fin 10))

theorem pooledHead2_apply (c : Dev nD) (g : Fin 64) (j : Fin 10) :
    pooledHead2 V c (ix2 g j)
      = (∑ k : Fin 128, Ideal.div (Spec.sumsK (inG V c) (hFin V c) g k 9 (by omega)) (max (Spec.cntK (inG V c) g 9 (by omega)) 1)
            * hw2 V c (ix2 k j))
          + hb2 V c (ix2 (0 : Fin 1) j) := rfl

/-- What the last point writes back is the one block of the whole-array function. -/
theorem writtenBack2_eq (c : Dev nD) (t : Fin cfg2.N) (hf : (cfg2.win 6).flush t = true) :
    (dat2 (F := Ideal) V c).flushed 6 t = ((cfg2.win 6).blk t).view.read (Elt Ideal) (pooledHead2 V c) := by
  have hN : cfg2.N = 10 := N_2
  have ht9 : t.val = 9 := by
    have h1 := (flush2_6 t).mp hf
    have h2 : t.val < 10 := hN ▸ t.isLt
    omega
  obtain ⟨tv, htv⟩ := t
  have e9 : tv = 9 := ht9
  subst e9
  obtain ⟨-, -, -, -, -, -, -, -, -, -, -, -, e60, e61⟩ := tileIndex2 ⟨9, htv⟩
  show (cfg2.win 6).cut (grid2.coords ⟨9, htv⟩) ((dat2 (F := Ideal) V c).after 6 ⟨9, htv⟩) = _
  rw [after2_6]
  funext y
  obtain ⟨g, j, rfl⟩ : ∃ (g : Fin 64) (j : Fin 10), y = ix2 g j := ⟨y 0, y 1, eq_ix2 y⟩
  have he : ((cfg2.win 6).blk ⟨9, htv⟩).view.emb (ix2 g j) = ix2 g j := funext fun a => Fin.ext (by
    match a with
    | ⟨0, _⟩ => show win2_6.index ⟨9, htv⟩ (0 : Fin 2) * 64 + 1 * g.val = g.val; rw [e60]; omega
    | ⟨1, _⟩ => show win2_6.index ⟨9, htv⟩ (1 : Fin 2) * 10 + 1 * j.val = j.val; rw [e61]; omega)
  show k2_pay1 (F := Ideal) (scAt2 V c 9 htv).1 (scAt2 V c 9 htv).2 (iblk2 V c 4 ⟨9, htv⟩) (iblk2 V c 5 ⟨9, htv⟩) (ix2 g j)
    = pooledHead2 V c (((cfg2.win 6).blk ⟨9, htv⟩).view.emb (ix2 g j))
  rw [he, pooledHead2_apply, head_entry, headBias2_apply V c ⟨9, htv⟩ j, counts2_eq V c g 9 htv (by omega)]
  refine congrArg (· + hb2 V c (ix2 (0 : Fin 1) j)) (Finset.sum_congr rfl fun k _ => ?_)
  rw [sums2_eq V c g k 9 htv (by omega), headWeights2_apply V c ⟨9, htv⟩ k j]

/-- Every index of the output array is in the block of the last point, the one point that writes back. -/
theorem outBlock2_cover (i : S64x10.Idx) :
    ∃ t : Fin cfg2.N, (cfg2.win 6).flush t = true ∧ i ∈ ((cfg2.win 6).blk t).view.set := by
  have hN : cfg2.N = 10 := N_2
  have hi0 : (i 0).val < 64 := idx2_lt0 i
  have hi1 : (i 1).val < 10 := idx2_lt1 i
  let t : Fin cfg2.N := ⟨9, by rw [hN]; omega⟩
  obtain ⟨-, -, -, -, -, -, -, -, -, -, -, -, e60, e61⟩ := tileIndex2 t
  refine ⟨t, (flush2_6 t).mpr rfl, ?_⟩
  show i ∈ ((View.whole main_v42).slice (win2_6.rect t)).set
  rw [View.set_slice_whole, Rect.mem_set_unit]
  intro a
  match a with
  | ⟨0, _⟩ => show win2_6.index t (0 : Fin 2) * 64 ≤ (i 0).val ∧ (i 0).val < win2_6.index t (0 : Fin 2) * 64 + 64; rw [e60]; omega
  | ⟨1, _⟩ => show win2_6.index t (1 : Fin 2) * 10 ≤ (i 1).val ∧ (i 1).val < win2_6.index t (1 : Fin 2) * 10 + 10; rw [e61]; omega

/-- The output array after the call is the whole-array function. -/
theorem res2_eq (c : Dev nD) : res2 V c = pooledHead2 V c :=
  (dat2 (F := Ideal) V c).arrAt_eq_of_cover 6 (pooledHead2 V c) (fun t hf => writtenBack2_eq V c t hf) outBlock2_cover

/-- The output array after the call, at (g, j): the head over the accumulators after the last tile. -/
theorem arr2_apply (c : Dev nD) (g : Fin 64) (j : Fin 10) :
    res2 V c (ix2 g j)
      = (∑ k : Fin 128, Ideal.div (Spec.sumsK (inG V c) (hFin V c) g k 9 (by omega)) (max (Spec.cntK (inG V c) g 9 (by omega)) 1)
            * hw2 V c (ix2 k j))
          + hb2 V c (ix2 (0 : Fin 1) j) :=
  (congrFun (res2_eq V c) (ix2 g j)).trans (pooledHead2_apply V c g j)

end Cert.KernelIdeal.Fr

end
-- ==== Proof.Bridge.lean ====
/-
  Both programs' results as one function each of the nine argument arrays, index by index, and their equality.

  The edge list gives every edge e < 1600000 a source word and a destination word (rows 0 and 1 of the edge index
  array); the edges 1600000 + i are the self loops i → i.  A gather reads a word signed, adds 100000 to a negative one
  and clamps the row into [0, 99999]; a scatter-add reads the word signed, unclamped, and drops an edge whose word is
  outside [0, 100000).  deg n counts the edges sent to n, dinv n is deg n to the power -1/2 where deg n > 0 and 0
  elsewhere: a nonnegative real.  Two graph-convolution layers (Spec.layerK on the kernel's side, Spec.layerR on the
  reference's), then the per-graph mean (sums over counts clamped below at one) and the linear head.
-/
import proofs.«427760_j11510512353338_2_alg».proof.Proof.Spec
import Idealize.ShloMosaic.PureOps.Ideal
import Idealize.ShloMosaic.Lib.ValueIdx

noncomputable section

namespace Cert.Bridge

open Idealize.ShloMosaic Idealize.ShloMosaic.ValueIdx Finset

variable (x : (⟨2, ![100000, 128]⟩ : Shape).Idx → EReal) (ei : (⟨2, ![2, 1600000]⟩ : Shape).Idx → BitVec 32)
  (bt : (⟨1, ![100000]⟩ : Shape).Idx → BitVec 32)
  (w1 : (⟨2, ![128, 128]⟩ : Shape).Idx → EReal) (b1 : (⟨1, ![128]⟩ : Shape).Idx → EReal)
  (w2 : (⟨2, ![128, 128]⟩ : Shape).Idx → EReal) (b2 : (⟨1, ![128]⟩ : Shape).Idx → EReal)
  (wl : (⟨2, ![128, 10]⟩ : Shape).Idx → EReal) (bl : (⟨1, ![10]⟩ : Shape).Idx → EReal)

/-- Edge e's source word: row 0 of the edge list, then the self loops. -/
def srcW (e : Fin 1700000) : BitVec 32 :=
  if h : e.val < 1600000 then ei (ix2 (0 : Fin 2) (⟨e.val, h⟩ : Fin 1600000)) else BitVec.ofNat 32 (e.val - 1600000)
/-- Edge e's destination word: row 1 of the edge list, then the self loops. -/
def dstW (e : Fin 1700000) : BitVec 32 :=
  if h : e.val < 1600000 then ei (ix2 (1 : Fin 2) (⟨e.val, h⟩ : Fin 1600000)) else BitVec.ofNat 32 (e.val - 1600000)

/-- A gather's index normalisation: a negative word plus the extent. -/
def wrap (v : BitVec 32) : BitVec 32 := if v.slt 0#32 then v + 100000#32 else v
/-- A gather's row: the word read signed, clamped into the table. -/
def row (v : BitVec 32) : Fin 100000 := ⟨min v.toInt.toNat 99999, by omega⟩

/-- The row edge e gathers from, its destination word read signed, and the row at which the reference looks the
    destination's weight up. -/
def sRow (e : Fin 1700000) : Fin 100000 := row (wrap (srcW ei e))
def dInt (e : Fin 1700000) : ℤ := (dstW ei e).toInt
def dRow (e : Fin 1700000) : Fin 100000 := row (wrap (dstW ei e))

/-- The degree: the number of edges sent to n (each contributes one). -/
def deg (n : Fin 100000) : EReal := (0 : EReal) + ∑ _e ∈ Spec.into (dInt ei) n, (1 : EReal)
/-- The inverse square-root degree, zero where the degree is not positive. -/
def dinv (n : Fin 100000) : EReal := if 0 < deg ei n then Ideal.rsqrt (deg ei n) else 0

/-- The arrays as functions of plain indices. -/
def xF (i : Fin 100000) (k : Fin 128) : EReal := x (ix2 i k)
def wF (w : (⟨2, ![128, 128]⟩ : Shape).Idx → EReal) (k f : Fin 128) : EReal := w (ix2 k f)
def bF (b : (⟨1, ![128]⟩ : Shape).Idx → EReal) (f : Fin 128) : EReal := b (ix1 f)

/-- Node n belongs to graph g: its graph-id word read signed is g. -/
def memG (n : Fin 100000) (g : Fin 64) : Prop := (bt (ix1 n)).toInt = (g.val : ℤ)
instance (n : Fin 100000) (g : Fin 64) : Decidable (memG bt n g) := by unfold memG; infer_instance

/-- The head: per-graph mean (sums over counts clamped below at one) times the head's weights plus its bias. -/
def head (sums : Fin 64 → Fin 128 → EReal) (cnt : Fin 64 → EReal) (g : Fin 64) (j : Fin 10) : EReal :=
  (∑ k : Fin 128, Ideal.div (sums g k) (max (cnt g) 1) * wl (ix2 k j)) + bl (ix1 j)

/-- The kernel's two layers and result. -/
def h1K : Fin 100000 → Fin 128 → EReal := Spec.layerK (sRow ei) (dInt ei) (dinv ei) (xF x) (wF w1) (bF b1)
def h2K : Fin 100000 → Fin 128 → EReal := Spec.layerK (sRow ei) (dInt ei) (dinv ei) (h1K x ei w1 b1) (wF w2) (bF b2)
def outK : (⟨2, ![64, 10]⟩ : Shape).Idx → EReal := fun j =>
  head wl bl (fun g f => Spec.sumsK (memG bt) (h2K x ei w1 b1 w2 b2) g f 9 (by omega)) (fun g => Spec.cntK (memG bt) g 9 (by omega))
    (⟨(j 0).val, (j 0).isLt⟩ : Fin 64) (⟨(j 1).val, (j 1).isLt⟩ : Fin 10)

/-- The reference's two layers and result. -/
def h1R : Fin 100000 → Fin 128 → EReal := Spec.layerR (sRow ei) (dInt ei) (dRow ei) (dinv ei) (xF x) (wF w1) (bF b1)
def h2R : Fin 100000 → Fin 128 → EReal := Spec.layerR (sRow ei) (dInt ei) (dRow ei) (dinv ei) (h1R x ei w1 b1) (wF w2) (bF b2)
def outR : (⟨2, ![64, 10]⟩ : Shape).Idx → EReal := fun j =>
  head wl bl (fun g f => Spec.sumsR (memG bt) (h2R x ei w1 b1 w2 b2) g f) (fun g => Spec.cntR (memG bt) g)
    (⟨(j 0).val, (j 0).isLt⟩ : Fin 64) (⟨(j 1).val, (j 1).isLt⟩ : Fin 10)

/-- The degree is the number of edges sent to the node, read as a real. -/
theorem deg_eq_card (n : Fin 100000) :
    deg ei n = (((Spec.into (dInt ei) n).card : ℝ) : EReal) := by
  unfold deg
  rw [zero_add, Finset.sum_const, EReal.nsmul_eq_mul, mul_one]
  rfl

/-- The inverse square-root degree is a nonnegative real: the degree is a count. -/
theorem dinv_nonneg_real (n : Fin 100000) : ∃ r : ℝ, 0 ≤ r ∧ dinv ei n = (r : EReal) := by
  unfold dinv
  rw [deg_eq_card]
  generalize ((Spec.into (dInt ei) n).card : ℝ) = k
  by_cases hpos : (0 : EReal) < (k : EReal)
  · rw [if_pos hpos]
    have hk0 : 0 < k := by exact_mod_cast hpos
    refine ⟨(Real.sqrt k)⁻¹, inv_nonneg.mpr (Real.sqrt_nonneg k), ?_⟩
    rw [Ideal.rsqrt_coe, if_neg (not_lt.mpr hk0.le), if_neg hk0.ne']
  · rw [if_neg hpos]
    exact ⟨0, le_refl 0, rfl⟩

/-- An edge sent to node n has its destination weight looked up at n: a word in [0, 100000) is neither wrapped nor
    clamped. -/
theorem dRow_of_dInt (e : Fin 1700000) (n : Fin 100000) (h : dInt ei e = (n.val : ℤ)) : dRow ei e = n := by
  unfold dInt at h
  unfold dRow
  have hn := n.isLt
  have hslt : (dstW ei e).slt 0#32 = false := by
    have h0 : (0#32 : BitVec 32).toInt = 0 := by decide
    rw [BitVec.slt, h, h0]
    exact decide_eq_false (by omega)
  unfold wrap
  rw [hslt]
  unfold row
  apply Fin.ext
  simp only [Bool.false_eq_true, if_false]
  rw [h]
  omega

/-- THE BRIDGE: the kernel's result and the reference's are one function of the arguments. -/
theorem outK_eq_outR : outK x ei bt w1 b1 w2 b2 wl bl = outR x ei bt w1 b1 w2 b2 wl bl := by
  have h1 : h1K x ei w1 b1 = h1R x ei w1 b1 := by
    unfold h1K h1R
    exact Spec.layerK_eq_layerR _ _ _ _ (dinv_nonneg_real ei) (dRow_of_dInt ei) _ _ _
  have h2 : h2K x ei w1 b1 w2 b2 = h2R x ei w1 b1 w2 b2 := by
    unfold h2K h2R
    rw [h1]
    exact Spec.layerK_eq_layerR _ _ _ _ (dinv_nonneg_real ei) (dRow_of_dInt ei) _ _ _
  unfold outK outR
  funext j
  rw [h2]
  simp only [Spec.sumsK_last_eq_sumsR, Spec.cntK_last_eq_cntR]

end Cert.Bridge

end
-- ==== Proof.LibRowOps.lean ====
/-
  Row gathers and row scatter-adds read at an index.

  `x[idx]` along the leading axis of an [N, C] table, with one start word per result row (start indices [E, 1],
  result [E, C]): result element (e, c) is the table at (the start word of e read signed and clamped into
  [0, N - 1], c).  The accumulating scatter of [E, C] update rows into an [N, C] operand by one destination word
  per update row (indices [E, 1]): operand element (n, c) gains the sum of the updates' column c over the rows
  whose destination word, read signed and NOT clamped, is n; a row whose word is outside [0, N) is dropped.
  The same for a vector operand [N] and scalar updates [E].
-/
import Idealize.ShloMosaic.PureOps.Ideal
import Idealize.ShloMosaic.Lib.ValueIdx

noncomputable section

namespace Idealize.ShloMosaic.RowOps

open Idealize.ShloMosaic Idealize.ShloMosaic.ValueIdx

/-- The dimension numbers of a row gather: operand [N, C], start indices [E, 1], result [E, C]. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, c): the table at the clamped start row of e, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- The dimension numbers of a row scatter: operand [N, C], scatter indices [E, 1], updates [E, C]. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis a row scatter's landing coordinate (start plus window) of update row p is the destination word
    of p read signed: the axis is in the index map and is an inserted axis (window coordinate 0). -/
theorem rowScatter_land0 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 0 + ((rowScatter N E C wf).window (ix2 p q) 0 : ℤ)
      = (idx (ix2 p (0 : Fin 1))).toInt := by
  have hw : (rowScatter N E C wf).window (ix2 p q) 0 = 0 := by
    unfold ScatterDims.window
    rw [dif_neg (show (0 : Fin 2) ∉ Shape.kept (⟨2, ![N, C]⟩ : Shape) ([0] : List (Fin 2)) by simp [Shape.kept])]
  rw [hw]
  unfold ScatterDims.start
  rw [dif_pos (show (0 : Fin 2) ∈ ([0] : List (Fin 2)) from List.mem_singleton.mpr rfl)]
  have hsi : (rowScatter N E C wf).siIdx (ix2 p q) ⟨List.idxOf (0 : Fin 2) (rowScatter N E C wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- On the column axis a row scatter's landing coordinate of update element (p, q) is q: the axis is not in the index
    map (start 0) and is the one window axis. -/
theorem rowScatter_land1 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 1 + ((rowScatter N E C wf).window (ix2 p q) 1 : ℤ) = (q.val : ℤ) := by
  have hs : (rowScatter N E C wf).start (ix2 p q) idx 1 = 0 := by
    unfold ScatterDims.start
    rw [dif_neg (show (1 : Fin 2) ∉ ([0] : List (Fin 2)) by decide)]
  have hw : (rowScatter N E C wf).window (ix2 p q) 1 = q.val := by
    unfold ScatterDims.window
    rw [dif_pos (show (1 : Fin 2) ∈ Shape.kept (⟨2, ![N, C]⟩ : Shape) ([0] : List (Fin 2)) by simp [Shape.kept, List.mem_finRange])]
    rfl
  rw [hs, hw, Int.zero_add]

/-- Where an update element of a row scatter lands: element (p, q) lands on operand element (n, c) exactly when q = c
    and the destination word of row p, read signed, is n. -/
theorem rowScatter_resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) (n : Fin N) (c : Fin C) :
    (rowScatter N E C wf).resultIdx? (ix2 p q) idx = some (ix2 n c)
      ↔ (q = c ∧ (idx (ix2 p (0 : Fin 1))).toInt = (n.val : ℤ)) := by
  have h0 := rowScatter_land0 wf idx p q
  have h1 := rowScatter_land1 wf idx p q
  unfold ScatterDims.resultIdx?
  split
  · rename_i h
    rw [Option.some.injEq]
    constructor
    · intro hf
      have e0 : ((rowScatter N E C wf).start (ix2 p q) idx 0 + ((rowScatter N E C wf).window (ix2 p q) 0 : ℤ)).toNat = n.val :=
        congrArg Fin.val (congrFun hf 0)
      have e1 : ((rowScatter N E C wf).start (ix2 p q) idx 1 + ((rowScatter N E C wf).window (ix2 p q) 1 : ℤ)).toNat = c.val :=
        congrArg Fin.val (congrFun hf 1)
      have p0 := (h 0).1
      rw [h0] at e0 p0
      rw [h1] at e1
      refine ⟨Fin.ext (by omega), by omega⟩
    · rintro ⟨hq, hn⟩
      funext a
      refine Fin.ext ?_
      match a with
      | ⟨0, _⟩ =>
        show ((rowScatter N E C wf).start (ix2 p q) idx 0 + ((rowScatter N E C wf).window (ix2 p q) 0 : ℤ)).toNat = n.val
        rw [h0, hn]; simp
      | ⟨1, _⟩ =>
        show ((rowScatter N E C wf).start (ix2 p q) idx 1 + ((rowScatter N E C wf).window (ix2 p q) 1 : ℤ)).toNat = c.val
        rw [h1, hq]; simp
  · rename_i h
    constructor
    · intro hf; exact absurd hf (by simp)
    · rintro ⟨hq, hn⟩
      exfalso
      apply h
      intro a
      match a with
      | ⟨0, _⟩ =>
        show 0 ≤ (rowScatter N E C wf).start (ix2 p q) idx 0 + ((rowScatter N E C wf).window (ix2 p q) 0 : ℤ)
          ∧ (rowScatter N E C wf).start (ix2 p q) idx 0 + ((rowScatter N E C wf).window (ix2 p q) 0 : ℤ) < (N : ℤ)
        rw [h0, hn]
        have := n.isLt
        omega
      | ⟨1, _⟩ =>
        show 0 ≤ (rowScatter N E C wf).start (ix2 p q) idx 1 + ((rowScatter N E C wf).window (ix2 p q) 1 : ℤ)
          ∧ (rowScatter N E C wf).start (ix2 p q) idx 1 + ((rowScatter N E C wf).window (ix2 p q) 1 : ℤ) < (C : ℤ)
        rw [h1]
        have := q.isLt
        omega

/-- THE ROW SCATTER-ADD READ AT (n, c): the operand's element plus the updates' column c summed over the rows sent to n. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ e ∈ Finset.univ.filter (fun e : Fin E => (idx (ix2 e (0 : Fin 1))).toInt = (n.val : ℤ)),
          upd (ix2 e c) := by
  unfold Ideal.hostScatterAdd
  congr 1
  refine Finset.sum_nbij' (fun j => (j 0 : Fin E)) (fun e => ix2 e c) ?_ ?_ ?_ ?_ ?_
  · intro j hj
    obtain ⟨p, q, rfl⟩ : ∃ (p : Fin E) (q : Fin C), j = ix2 p q := ⟨j 0, j 1, eq_ix2 j⟩
    rw [Finset.mem_filter] at hj
    exact Finset.mem_filter.mpr ⟨Finset.mem_univ _, ((rowScatter_resultIdx?_eq_some_iff wf idx p q n c).mp hj.2).2⟩
  · intro e he
    rw [Finset.mem_filter] at he ⊢
    exact ⟨Finset.mem_univ _, (rowScatter_resultIdx?_eq_some_iff wf idx e c n c).mpr ⟨rfl, he.2⟩⟩
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl
  · intro e _
    rfl
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl

/-- The dimension numbers of a scatter into a vector: operand [N], scatter indices [E, 1], updates [E]. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A vector scatter's landing coordinate (start plus window) of update position p is the destination word of p read
    signed: the one operand axis is in the index map and is an inserted axis (window coordinate 0). -/
theorem vecScatter_land {N E w : Nat}
    (wf : ScatterDims.WF ⟨1, ![N]⟩ ⟨2, ![E, 1]⟩ ⟨1, ![E]⟩ [] [0] [0] 1)
    (idx : IVec ⟨2, ![E, 1]⟩ w) (p : Fin E) :
    (vecScatter N E wf).start (ix1 p) idx 0 + ((vecScatter N E wf).window (ix1 p) 0 : ℤ)
      = (idx (ix2 p (0 : Fin 1))).toInt := by
  have hw : (vecScatter N E wf).window (ix1 p) 0 = 0 := by
    unfold ScatterDims.window
    rw [dif_neg (show (0 : Fin 1) ∉ Shape.kept (⟨1, ![N]⟩ : Shape) ([0] : List (Fin 1)) by simp [Shape.kept])]
  rw [hw]
  unfold ScatterDims.start
  rw [dif_pos (show (0 : Fin 1) ∈ ([0] : List (Fin 1)) from List.mem_singleton.mpr rfl)]
  have hsi : (vecScatter N E wf).siIdx (ix1 p) ⟨List.idxOf (0 : Fin 1) (vecScatter N E wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- Where an update of a vector scatter lands: position p lands on operand element n exactly when the destination
    word of p, read signed, is n. -/
theorem vecScatter_resultIdx?_eq_some_iff {N E w : Nat}
    (wf : ScatterDims.WF ⟨1, ![N]⟩ ⟨2, ![E, 1]⟩ ⟨1, ![E]⟩ [] [0] [0] 1)
    (idx : IVec ⟨2, ![E, 1]⟩ w) (p : Fin E) (n : Fin N) :
    (vecScatter N E wf).resultIdx? (ix1 p) idx = some (ix1 n)
      ↔ (idx (ix2 p (0 : Fin 1))).toInt = (n.val : ℤ) := by
  have h0 := vecScatter_land wf idx p
  unfold ScatterDims.resultIdx?
  split
  · rename_i h
    rw [Option.some.injEq]
    constructor
    · intro hf
      have e0 : ((vecScatter N E wf).start (ix1 p) idx 0 + ((vecScatter N E wf).window (ix1 p) 0 : ℤ)).toNat = n.val :=
        congrArg Fin.val (congrFun hf 0)
      have p0 := (h 0).1
      rw [h0] at e0 p0
      omega
    · intro hn
      funext a
      refine Fin.ext ?_
      match a with
      | ⟨0, _⟩ =>
        show ((vecScatter N E wf).start (ix1 p) idx 0 + ((vecScatter N E wf).window (ix1 p) 0 : ℤ)).toNat = n.val
        rw [h0, hn]; simp
  · rename_i h
    constructor
    · intro hf; exact absurd hf (by simp)
    · intro hn
      exfalso
      apply h
      intro a
      match a with
      | ⟨0, _⟩ =>
        show 0 ≤ (vecScatter N E wf).start (ix1 p) idx 0 + ((vecScatter N E wf).window (ix1 p) 0 : ℤ)
          ∧ (vecScatter N E wf).start (ix1 p) idx 0 + ((vecScatter N E wf).window (ix1 p) 0 : ℤ) < (N : ℤ)
        rw [h0, hn]
        have := n.isLt
        omega

/-- THE VECTOR SCATTER-ADD READ AT n: the operand's element plus the updates summed over the positions sent to n. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e (0 : Fin 1))).toInt = (n.val : ℤ)),
          upd (ix1 e) := by
  unfold Ideal.hostScatterAdd
  congr 1
  refine Finset.sum_nbij' (fun j => (j 0 : Fin E)) (fun e => ix1 e) ?_ ?_ ?_ ?_ ?_
  · intro j hj
    obtain ⟨p, rfl⟩ : ∃ (p : Fin E), j = ix1 p := ⟨j 0, eq_ix1 j⟩
    rw [Finset.mem_filter] at hj
    exact Finset.mem_filter.mpr ⟨Finset.mem_univ _, (vecScatter_resultIdx?_eq_some_iff wf idx p n).mp hj.2⟩
  · intro e he
    rw [Finset.mem_filter] at he ⊢
    exact ⟨Finset.mem_univ _, (vecScatter_resultIdx?_eq_some_iff wf idx e n).mpr he.2⟩
  · intro j _
    exact (eq_ix1 j).symm
  · intro e _
    rfl
  · intro j _
    exact congrArg upd (eq_ix1 j)

end Idealize.ShloMosaic.RowOps

end
-- ==== Proof.LibHostRead.lean ====
/-
  Host operations read at an index, for index vectors and per-node weights.

  A vector gather `x[idx]` of an [N] table with one start word per result element (start indices [E, 1], result [E]):
  element e is the table at the start word of e read signed and clamped into [0, N - 1].  The concatenation of an [A]
  vector and a [B] vector into a [T] vector, T = A + B: position e reads the first piece below A and the second piece,
  A less, from A on.  The index normalisation a gather's start words go through (a word that is negative read signed
  has the extent added, any other word is left), and the selection on a strict float comparison, read word by word.
-/
import Idealize.ShloMosaic.PureOps.Ideal
import Idealize.ShloMosaic.Lib.ValueIdx
import Idealize.ShloMosaic.Lib.Pipeline.Value
import proofs.«427760_j11510512353338_2_alg».proof.Proof.LibRowOps

noncomputable section

namespace Idealize.ShloMosaic.HostRead

open Idealize.ShloMosaic Idealize.ShloMosaic.ValueIdx

/-! ## A vector gather -/

/-- The dimension numbers of a vector gather: operand [N], start indices [E, 1], result [E]; the one operand axis is
    collapsed and named by the start index map, and there is no offset axis. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT e: the table at the start word of e, read signed and clamped into [0, N - 1]. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A two-piece concatenation of vectors -/

/-- THE CONCATENATION OF TWO VECTORS READ AT e: the first piece at e below its extent A, the second piece at e - A from
    A on (T = A + B is the joined extent). -/
theorem concat2_apply {α : Type} {A B T : Nat} (hT : T = A + B)
    (x₁ : (⟨1, ![A]⟩ : Shape).Idx → α) (x₂ : (⟨1, ![B]⟩ : Shape).Idx → α)
    (h : Shape.Concatenates [(⟨1, ![A]⟩ : Shape), (⟨1, ![B]⟩ : Shape)] (⟨1, ![T]⟩ : Shape) 0) (e : Fin T) :
    concatenate (⟨1, ![T]⟩ : Shape) 0 [⟨(⟨1, ![A]⟩ : Shape), x₁⟩, ⟨(⟨1, ![B]⟩ : Shape), x₂⟩] h (ix1 e)
      = if hlt : e.val < A then x₁ (ix1 (⟨e.val, hlt⟩ : Fin A))
        else x₂ (ix1 (⟨e.val - A, by have := e.isLt; omega⟩ : Fin B)) := by
  by_cases hlt : e.val < A
  · rw [dif_pos hlt]
    exact concatenate_pair_apply_left 0 x₁ x₂ h (ix1 e) rfl (ix1 (⟨e.val, hlt⟩ : Fin A)) (fun b => by
      match b with
      | ⟨0, _⟩ => rfl)
  · rw [dif_neg hlt]
    exact concatenate_pair_apply_right 0 x₁ x₂ h (ix1 e) rfl rfl
      (ix1 (⟨e.val - A, by have := e.isLt; omega⟩ : Fin B))
      (fun b hb => by
        match b with
        | ⟨0, _⟩ => exact absurd rfl hb)
      (by show e.val - A + A = e.val; omega)

/-! ## Words -/

/-- A gather's index normalisation on one word: the select on "negative read signed" between the word plus k and the
    word is the word plus k when the word is negative and the word otherwise. -/
theorem select_slt_zero_add (v k : BitVec 32) :
    Scalar.select (IntOp.cmpi .slt v 0#32) (IntOp.addi v k) v = if v.slt 0#32 then v + k else v := by
  unfold Scalar.select IntOp.cmpi IntOp.addi
  cases hs : v.slt 0#32
  · simp
  · simp

/-- A select on the strict comparison "a is greater than b" of two extended reals is the `if` on b < a. -/
theorem select_ogt {α : Type} (a b : EReal) (p q : α) :
    Scalar.select (Ideal.cmp .ogt a b) p q = if b < a then p else q := by
  unfold Scalar.select Ideal.cmp
  by_cases hlt : b < a
  · simp [hlt]
  · simp [hlt]

/-! ## The host's gathers and scatter-adds, for any dimension record that is one of these

A program names its dimension numbers by a record of its own; each lemma below takes that record `d` with the equation
`hd : d = …` (closed by `rfl` on a program's literal record) and is stated over symbolic extents, so that passing from the
host operation to its reading unfolds nothing at a program's sizes. -/

/-- THE HOST'S VECTOR SCATTER-ADD, AT THE IDEAL INSTANCE, READ AT n, for any dimension record d that is the vector
    scatter's: the operand's element plus the updates summed over the positions whose destination word, read signed,
    is n.  (Stated over symbolic extents, so that passing from the host operation to the exact sum unfolds nothing at a
    program's sizes.) -/
theorem hostVecScatterAdd_apply {N E w : Nat}
    (wf : ScatterDims.WF ⟨1, ![N]⟩ ⟨2, ![E, 1]⟩ ⟨1, ![E]⟩ [] [0] [0] 1)
    (d : ScatterDims ⟨1, ![N]⟩ ⟨2, ![E, 1]⟩ ⟨1, ![E]⟩) (hd : d = RowOps.vecScatter N E wf)
    (x : (⟨1, ![N]⟩ : Shape).Idx → EReal) (idx : IVec ⟨2, ![E, 1]⟩ w)
    (upd : (⟨1, ![E]⟩ : Shape).Idx → EReal) (n : Fin N) :
    Host.scatterAdd (F := Ideal) (φ := .f32) d x idx upd (ix1 n)
      = x (ix1 n) + ∑ e ∈ Finset.univ.filter (fun e : Fin E => (idx (ix2 e (0 : Fin 1))).toInt = (n.val : ℤ)),
          upd (ix1 e) := by
  subst hd
  exact RowOps.vecScatterAdd_apply wf x idx upd n

/-- THE HOST'S ROW SCATTER-ADD, AT THE IDEAL INSTANCE, READ AT (n, c), for any dimension record d that is the row
    scatter's: the operand's element plus the updates' column c summed over the rows whose destination word, read
    signed, is n. -/
theorem hostRowScatterAdd_apply {N E C w : Nat}
    (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = RowOps.rowScatter N E C wf)
    (x : (⟨2, ![N, C]⟩ : Shape).Idx → EReal) (idx : IVec ⟨2, ![E, 1]⟩ w)
    (upd : (⟨2, ![E, C]⟩ : Shape).Idx → EReal) (n : Fin N) (c : Fin C) :
    Host.scatterAdd (F := Ideal) (φ := .f32) d x idx upd (ix2 n c)
      = x (ix2 n c) + ∑ e ∈ Finset.univ.filter (fun e : Fin E => (idx (ix2 e (0 : Fin 1))).toInt = (n.val : ℤ)),
          upd (ix2 e c) := by
  subst hd
  exact RowOps.rowScatterAdd_apply wf x idx upd n c

/-- The vector gather read at e for any dimension record d that is the vector gather's. -/
theorem hostVecGather_apply {α : Type} {N E w : Nat} (hN : 0 < N)
    (wf : GatherDims.WF ⟨1, ![N]⟩ ⟨2, ![E, 1]⟩ ⟨1, ![E]⟩ [] [0] [] [0] [] 1 ![1])
    (d : GatherDims ⟨1, ![N]⟩ ⟨2, ![E, 1]⟩ ⟨1, ![E]⟩) (hd : d = vecGather N E wf)
    (x : (⟨1, ![N]⟩ : Shape).Idx → α) (idx : IVec ⟨2, ![E, 1]⟩ w) (e : Fin E) :
    Host.gather d x idx (ix1 e)
      = x (ix1 (⟨min (idx (ix2 e (0 : Fin 1))).toInt.toNat (N - 1), by omega⟩ : Fin N)) := by
  subst hd
  exact vecGather_apply hN wf x idx e

/-- The row gather read at (e, c) for any dimension record d that is the row gather's. -/
theorem hostRowGather_apply {α : Type} {N E C w : Nat} (hN : 0 < N)
    (wf : GatherDims.WF ⟨2, ![N, C]⟩ ⟨2, ![E, 1]⟩ ⟨2, ![E, C]⟩ [1] [0] [] [0] [] 1 ![1, C])
    (d : GatherDims ⟨2, ![N, C]⟩ ⟨2, ![E, 1]⟩ ⟨2, ![E, C]⟩) (hd : d = RowOps.rowGather N E C wf)
    (x : (⟨2, ![N, C]⟩ : Shape).Idx → α) (idx : IVec ⟨2, ![E, 1]⟩ w) (e : Fin E) (c : Fin C) :
    Host.gather d x idx (ix2 e c)
      = x (ix2 (⟨min (idx (ix2 e (0 : Fin 1))).toInt.toNat (N - 1), by omega⟩ : Fin N) c) := by
  subst hd
  exact RowOps.rowGather_apply hN wf x idx e c

end Idealize.ShloMosaic.HostRead

end
-- ==== Proof.KI.Host.lean ====
/-
  What the first call is entered from, at the ideal instance, as functions of the argument arrays: the node
  features and the first weights are the arguments themselves (no host operation writes them), and the column of degree
  weights is, row by row, the inverse square root of the count of the edges sent to the node where that count is
  positive, and zero elsewhere.  The count: the destination words are the second row of the edge list followed by the
  self loops' words 0, 1, …; a one is added at each edge's destination word, from zeros.
-/
import proofs.«427760_j11510512353338_2_alg».proof.Proof.Gen.KernelIdeal.Launch
import proofs.«427760_j11510512353338_2_alg».proof.Proof.Gen.KernelIdeal.Skeleton
import proofs.«427760_j11510512353338_2_alg».proof.Proof.Gen.KernelIdeal.Points
import proofs.«427760_j11510512353338_2_alg».proof.Proof.Gen.KernelIdeal.Regions
import proofs.«427760_j11510512353338_2_alg».proof.Proof.KI.Fold
import proofs.«427760_j11510512353338_2_alg».proof.Proof.KI.Whole
import proofs.«427760_j11510512353338_2_alg».proof.Proof.KI.Val0
import proofs.«427760_j11510512353338_2_alg».proof.Proof.KI.Val1
import proofs.«427760_j11510512353338_2_alg».proof.Proof.KI.Val2
import proofs.«427760_j11510512353338_2_alg».proof.Proof.Bridge
import proofs.«427760_j11510512353338_2_alg».proof.Proof.LibRowOps
import proofs.«427760_j11510512353338_2_alg».proof.Proof.LibHostRead
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The nine argument arrays at launch, at their literal types. -/
abbrev aX (c : Dev nD) : S100000x128.Idx → EReal := m ((c : Thread nD τ).loc main_arg0)
abbrev aEI (c : Dev nD) : S2x1600000.Idx → BitVec 32 := m ((c : Thread nD τ).loc main_arg1)
abbrev aBT (c : Dev nD) : S100000.Idx → BitVec 32 := m ((c : Thread nD τ).loc main_arg2)
abbrev aW1 (c : Dev nD) : S128x128.Idx → EReal := m ((c : Thread nD τ).loc main_arg3)
abbrev aB1 (c : Dev nD) : S128.Idx → EReal := m ((c : Thread nD τ).loc main_arg4)
abbrev aW2 (c : Dev nD) : S128x128.Idx → EReal := m ((c : Thread nD τ).loc main_arg5)
abbrev aB2 (c : Dev nD) : S128.Idx → EReal := m ((c : Thread nD τ).loc main_arg6)
abbrev aWL (c : Dev nD) : S128x10.Idx → EReal := m ((c : Thread nD τ).loc main_arg7)
abbrev aBL (c : Dev nD) : S10.Idx → EReal := m ((c : Thread nD τ).loc main_arg8)

namespace HostRd

/-- An edge-list row laid flat, then the self loops' words 0, 1, …: the edges' words in order. -/
abbrev wordsOf (k : Nat) (hs : S2x1600000.Slices ![k, 0] S1x1600000) (ei : S2x1600000.Idx → BitVec 32) : S1700000.Idx → BitVec 32 :=
  concatenate S1700000 0 [⟨S1600000, shapeCast S1600000 (extractStridedSlice S1x1600000 ![k, 0] ei hs) shapeCasts_S1x1600000_S1600000⟩,
    ⟨S100000, iotaInDim S100000 32 0⟩] concatenates_S1600000_S100000_S1700000_d0

/-- A word vector as a one-column index array. -/
abbrev asCol (v : S1700000.Idx → BitVec 32) : S1700000x1.Idx → BitVec 32 :=
  broadcastInDim S1700000x1 ![0] bcast_S1700000_S1700000x1_0 v

/-- The zero scalar spread over the nodes, the one scalar spread over the edges. -/
abbrev zeroVec : FVec Ideal S100000 .f32 :=
  broadcastInDim S100000 ![] bcast_S_S100000 (constant (F := Ideal) S_ .f32 0x00000000#32)
abbrev onesVec : FVec Ideal S1700000 .f32 :=
  broadcastInDim S1700000 ![] bcast_S_S1700000 (constant (F := Ideal) S_ .f32 0x3F800000#32)

/-- The degree vector: ones added up by destination word, from zeros. -/
abbrev degOf (ei : S2x1600000.Idx → BitVec 32) : FVec Ideal S100000 .f32 :=
  Host.scatterAdd scatter_S100000_S1700000x1_S1700000_n_0_0_1 zeroVec
    (asCol (wordsOf 1 slices_S2x1600000_S1x1600000_1_0 ei)) onesVec

/-- The weight vector: the inverse square root of the degree where the degree is positive, zero elsewhere. -/
abbrev dinvOf (ei : S2x1600000.Idx → BitVec 32) : FVec Ideal S100000 .f32 :=
  select (cmpf .ogt (degOf ei) zeroVec) (Host.rsqrt (degOf ei) : FVec Ideal S100000 .f32) zeroVec

end HostRd

/-! ## The buffers the stretches before the first call write, as terms of what each stretch finds -/

namespace HostRd

variable (V : Valuation τ sig (Elt Ideal))

theorem degPos_term :
    (StableHlo.after hostOps0 V (Proc.devRef .tc main_v12) : S100000.Idx → BitVec 1)
      = cmpf .ogt (degOf (V (Proc.devRef .tc main_arg1))) zeroVec := by
  dsimp only [hostOps0]; after_results; rfl

theorem degRsqrt_term :
    (StableHlo.after hostOps0 V (Proc.devRef .tc main_v13) : S100000.Idx → EReal)
      = (Host.rsqrt (degOf (V (Proc.devRef .tc main_arg1))) : FVec Ideal S100000 .f32) := by
  dsimp only [hostOps0]; after_results; rfl

theorem zeroScalar_term :
    (StableHlo.after hostOps0 V (Proc.devRef .tc main_cst_2) : S_.Idx → EReal) = constant (F := Ideal) S_ .f32 0x00000000#32 := by
  dsimp only [hostOps0]; after_results

/-- The select of the where. -/
theorem dinvVec_term :
    (StableHlo.after hostOps0_1 V (Proc.devRef .tc main_v14) : S100000.Idx → EReal)
      = select (V (Proc.devRef .tc main_v12) : S100000.Idx → BitVec 1) (V (Proc.devRef .tc main_v13) : S100000.Idx → EReal)
          (broadcastInDim S100000 ![] bcast_S_S100000 (V (Proc.devRef .tc main_cst_2) : S_.Idx → EReal)) := by
  dsimp only [hostOps0_1]; after_results; rfl

/-- The reshape of the weights into a column. -/
theorem dinvCol_term :
    (StableHlo.after hostOps0_2 V (Proc.devRef .tc main_v15) : S100000x1.Idx → EReal)
      = shapeCast S100000x1 (V (Proc.devRef .tc main_v14) : S100000.Idx → EReal) shapeCasts_S100000_S100000x1 := by
  dsimp only [hostOps0_2]; after_results; rfl

/-- A select between a vector and a spread scalar moves along equal operands. -/
theorem select_spread_congr {c c' : IVec S100000 1} {a a' : FVec Ideal S100000 .f32} {z z' : FVec Ideal S_ .f32}
    (hc : c = c') (ha : a = a') (hz : z = z') :
    select c a (broadcastInDim S100000 ![] bcast_S_S100000 z) = select c' a' (broadcastInDim S100000 ![] bcast_S_S100000 z') := by
  subst hc ha hz; rfl

/-- The weight column before the first call, as one term of the edge list the stretches find. -/
theorem dinvCol_whole :
    (StableHlo.after hostOps0_2 (StableHlo.after hostOps0_1 (StableHlo.after hostOps0 V)) (Proc.devRef .tc main_v15)
        : S100000x1.Idx → EReal)
      = shapeCast S100000x1 (dinvOf (V (Proc.devRef .tc main_arg1))) shapeCasts_S100000_S100000x1 :=
  (dinvCol_term _).trans <| congrArg (fun x => shapeCast S100000x1 x shapeCasts_S100000_S100000x1) <|
    (dinvVec_term _).trans <| select_spread_congr (degPos_term V) (degRsqrt_term V) (zeroScalar_term V)

end HostRd

/-! ## The terms read at an index -/

namespace HostRd

/-- A vector reshaped into a column, read at row i. -/
theorem col_apply {α : Type} (x : S100000.Idx → α) (i : Fin 100000) :
    shapeCast S100000x1 x shapeCasts_S100000_S100000x1 (ix2 i (0 : Fin 1)) = x (ix1 i) :=
  shapeCast_apply x _ _ _ (by
    rw [Shape.rowMajor_val_two, Shape.rowMajor_val_one]
    show i.val = i.val * 1 + 0
    omega)

/-- A word vector as a column, read at row e. -/
theorem asCol_apply (v : S1700000.Idx → BitVec 32) (e : Fin 1700000) : asCol v (ix2 e (0 : Fin 1)) = v (ix1 e) :=
  broadcastInDim_apply _ _ v _ (ix1 e) (fun a => by
    match a with
    | ⟨0, _⟩ => rfl)

/-- Row k of the edge list laid flat and followed by the self loops, read at edge e. -/
theorem wordsOf_apply (k : Fin 2) (hs : S2x1600000.Slices ![k.val, 0] S1x1600000) (ei : S2x1600000.Idx → BitVec 32) (e : Fin 1700000) :
    wordsOf k.val hs ei (ix1 e)
      = if h : e.val < 1600000 then ei (ix2 k (⟨e.val, h⟩ : Fin 1600000)) else BitVec.ofNat 32 (e.val - 1600000) := by
  refine (HostRead.concat2_apply (A := 1600000) (B := 100000) (T := 1700000) rfl _ _ _ e).trans ?_
  by_cases h : e.val < 1600000
  · rw [dif_pos h, dif_pos h]
    refine (shapeCast_apply _ _ _ (ix2 (0 : Fin 1) (⟨e.val, h⟩ : Fin 1600000)) (by
      rw [Shape.rowMajor_val_two, Shape.rowMajor_val_one]
      show 0 * 1600000 + e.val = e.val
      omega)).trans ?_
    exact extractStridedSlice_apply _ ei hs _ (ix2 k (⟨e.val, h⟩ : Fin 1600000)) (fun a => by
      match a with
      | ⟨0, _⟩ => rfl
      | ⟨1, _⟩ => exact (Nat.zero_add _).symm)
  · rw [dif_neg h, dif_neg h]
    rfl

/-- The destination words are the edge list's second row, then the self loops. -/
theorem dstWords_apply (ei : S2x1600000.Idx → BitVec 32) (e : Fin 1700000) :
    wordsOf 1 slices_S2x1600000_S1x1600000_1_0 ei (ix1 e) = Cert.Bridge.dstW ei e :=
  wordsOf_apply (1 : Fin 2) slices_S2x1600000_S1x1600000_1_0 ei e

/-- The program's record for the degree's scatter is the vector scatter's. -/
theorem degRecord : scatter_S100000_S1700000x1_S1700000_n_0_0_1
    = RowOps.vecScatter 100000 1700000 scatter_S100000_S1700000x1_S1700000_n_0_0_1_wf := rfl

/-- The degree vector at node n is the count of the edges sent to n. -/
theorem degOf_apply (ei : S2x1600000.Idx → BitVec 32) (n : Fin 100000) : degOf ei (ix1 n) = Cert.Bridge.deg ei n := by
  refine (HostRead.hostVecScatterAdd_apply _ _ degRecord zeroVec
    (asCol (wordsOf 1 slices_S2x1600000_S1x1600000_1_0 ei)) onesVec n).trans ?_
  have h0 : zeroVec (ix1 n) = 0 := Ideal.ofBits_zero_f32
  rw [h0]
  unfold Cert.Bridge.deg Cert.Spec.into Cert.Bridge.dInt
  refine congrArg (fun z => (0 : EReal) + z) ?_
  refine Finset.sum_congr (Finset.filter_congr fun e _ => ?_) (fun e _ => Ideal.ofBits_one_f32)
  rw [asCol_apply, dstWords_apply]

/-- The select of the where read at an index, over any vectors: the inverse square root of d where z < d, z elsewhere. -/
theorem where_pos_rsqrt_apply {s : Shape} (d z : FVec Ideal s .f32) (j : s.Idx) :
    select (cmpf .ogt d z) (Host.rsqrt d : FVec Ideal s .f32) z j = if z j < d j then Ideal.rsqrt (d j) else z j := by
  show Scalar.select (Ideal.cmp .ogt (d j) (z j)) (Ideal.rsqrt (d j)) (z j) = _
  exact HostRead.select_ogt _ _ _ _

/-- The weight column at node i: the inverse square root of the degree where the degree is positive, zero elsewhere. -/
theorem dinvCol_apply (ei : S2x1600000.Idx → BitVec 32) (i : Fin 100000) :
    shapeCast S100000x1 (dinvOf ei) shapeCasts_S100000_S100000x1 (ix2 i (0 : Fin 1)) = Cert.Bridge.dinv ei i := by
  rw [col_apply]
  refine (where_pos_rsqrt_apply (degOf ei) zeroVec (ix1 i)).trans ?_
  have hz : zeroVec (ix1 i) = 0 := Ideal.ofBits_zero_f32
  rw [hz, degOf_apply]
  unfold Cert.Bridge.dinv
  rfl

end HostRd

/-! ## What the first call is entered from -/

theorem E0_feat (c : Dev nD) : feat0 (E0 m) c = aX m c :=
  Run.W3_of m c main_arg0 (by decide) (by decide) (by decide)
theorem E0_wts (c : Dev nD) : wts0 (E0 m) c = aW1 m c :=
  Run.W3_of m c main_arg3 (by decide) (by decide) (by decide)
theorem E0_dcol (c : Dev nD) (i : Fin 100000) : dcol0 (E0 m) c (ix2 i (0 : Fin 1)) = Cert.Bridge.dinv (aEI m c) i :=
  (congrFun (HostRd.dinvCol_whole (W0 m c)) (ix2 i (0 : Fin 1))).trans (HostRd.dinvCol_apply (aEI m c) i)

end Cert.KernelIdeal.Fr

end
-- ==== Proof.KI.Host1.lean ====
/-
  What the second pallas_call is entered from, at the ideal instance, entry by entry: the raw neighbour sums of the first
  call's output (gathered by the edges' source rows, added up by their destination words), the degree weights (written
  once, before the first call), the reshaped first bias row, the second weights.
-/
import proofs.«427760_j11510512353338_2_alg».proof.Proof.Gen.KernelIdeal.Launch
import proofs.«427760_j11510512353338_2_alg».proof.Proof.Gen.KernelIdeal.Skeleton
import proofs.«427760_j11510512353338_2_alg».proof.Proof.Gen.KernelIdeal.Points
import proofs.«427760_j11510512353338_2_alg».proof.Proof.KI.Fold
import proofs.«427760_j11510512353338_2_alg».proof.Proof.KI.Val0
import proofs.«427760_j11510512353338_2_alg».proof.Proof.KI.Val1
import proofs.«427760_j11510512353338_2_alg».proof.Proof.KI.Val2
import proofs.«427760_j11510512353338_2_alg».proof.Proof.Bridge
import proofs.«427760_j11510512353338_2_alg».proof.Proof.LibRowOps
import proofs.«427760_j11510512353338_2_alg».proof.Proof.LibHostRead
import proofs.«427760_j11510512353338_2_alg».proof.Proof.KI.Whole
import proofs.«427760_j11510512353338_2_alg».proof.Proof.KI.Host
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-! ## The edge words as the second call finds them -/

/-- The source words the second call's stretch reads: row 0 of the edge list followed by the node numbers, as the first
    stretch wrote them; the first call and the stretches after the first leave them as they were. -/
theorem srcWords1 (c : Dev nD) :
    (W4 m c main_v3 : S1700000.Idx → BitVec 32)
      = concatenate S1700000 0
          [⟨S1600000, shapeCast S1600000 (extractStridedSlice S1x1600000 ![0, 0] (aEI m c) slices_S2x1600000_S1x1600000_0_0) shapeCasts_S1x1600000_S1600000⟩,
           ⟨S100000, iotaInDim S100000 32 0⟩] concatenates_S1600000_S100000_S1700000_d0 := by
  refine (Run.W4_of_ne m c main_v3 (by decide)).trans ?_
  show StableHlo.after hostOps0_2 (StableHlo.after hostOps0_1 (StableHlo.after hostOps0 (W0 m c))) (Proc.devRef .tc main_v3) = _
  rw [StableHlo.after_of_writes_sub hostOps0_2 _ hostOps0_2_writes (by decide),
    StableHlo.after_of_writes_sub hostOps0_1 _ hostOps0_1_writes (by decide)]
  after_results
  rfl

/-- Row r of the edge list, flattened, read at position j. -/
theorem edgeRow1 (ei : S2x1600000.Idx → BitVec 32) (r : Fin 2) (off : Fin 2 → Nat) (hoff : off = ![r.val, 0])
    (hs : S2x1600000.Slices off S1x1600000) (j : Fin 1600000) :
    shapeCast S1600000 (extractStridedSlice S1x1600000 off ei hs) shapeCasts_S1x1600000_S1600000 (ix1 j) = ei (ix2 r j) := by
  subst hoff
  rw [shapeCast_apply _ shapeCasts_S1x1600000_S1600000 (ix1 j) (ix2 (0 : Fin 1) j)
    (by rewrite [Shape.rowMajor_val_two, Shape.rowMajor_val_one]; show 0 * 1600000 + j.val = j.val; omega)]
  exact extractStridedSlice_apply _ ei hs (ix2 (0 : Fin 1) j) (ix2 r j) fun a => by
    match a with
    | ⟨0, _⟩ => show r.val = r.val + 0; omega
    | ⟨1, _⟩ => show j.val = 0 + j.val; omega

/-- Edge e's source word. -/
theorem srcWord1 (c : Dev nD) (e : Fin 1700000) :
    (W4 m c main_v3 : S1700000.Idx → BitVec 32) (ix1 e) = Cert.Bridge.srcW (aEI m c) e := by
  rw [srcWords1]
  refine (HostRead.concat2_apply (A := 1600000) (B := 100000) (T := 1700000) rfl _ _ concatenates_S1600000_S100000_S1700000_d0 e).trans ?_
  unfold Cert.Bridge.srcW
  by_cases h : e.val < 1600000
  · rw [dif_pos h, dif_pos h]
    exact edgeRow1 (aEI m c) 0 _ rfl _ _
  · rw [dif_neg h, dif_neg h]
    rfl

/-- The destination words likewise: row 1 of the edge list followed by the node numbers. -/
theorem dstWords1 (c : Dev nD) :
    (W4 m c main_v6 : S1700000.Idx → BitVec 32)
      = concatenate S1700000 0
          [⟨S1600000, shapeCast S1600000 (extractStridedSlice S1x1600000 ![1, 0] (aEI m c) slices_S2x1600000_S1x1600000_1_0) shapeCasts_S1x1600000_S1600000⟩,
           ⟨S100000, iotaInDim S100000 32 0⟩] concatenates_S1600000_S100000_S1700000_d0 := by
  refine (Run.W4_of_ne m c main_v6 (by decide)).trans ?_
  show StableHlo.after hostOps0_2 (StableHlo.after hostOps0_1 (StableHlo.after hostOps0 (W0 m c))) (Proc.devRef .tc main_v6) = _
  rw [StableHlo.after_of_writes_sub hostOps0_2 _ hostOps0_2_writes (by decide),
    StableHlo.after_of_writes_sub hostOps0_1 _ hostOps0_1_writes (by decide)]
  after_results
  rfl

/-- Edge e's destination word. -/
theorem dstWord1 (c : Dev nD) (e : Fin 1700000) :
    (W4 m c main_v6 : S1700000.Idx → BitVec 32) (ix1 e) = Cert.Bridge.dstW (aEI m c) e := by
  rw [dstWords1]
  refine (HostRead.concat2_apply (A := 1600000) (B := 100000) (T := 1700000) rfl _ _ concatenates_S1600000_S100000_S1700000_d0 e).trans ?_
  unfold Cert.Bridge.dstW
  by_cases h : e.val < 1600000
  · rw [dif_pos h, dif_pos h]
    exact edgeRow1 (aEI m c) 1 _ rfl _ _
  · rw [dif_neg h, dif_neg h]
    rfl

/-! ## The stretch's operations at an index -/

/-- A word vector stood up as a one-column matrix reads, at (e, 0), its word e. -/
theorem edgeCol1 (y : S1700000.Idx → BitVec 32) (e : Fin 1700000) :
    broadcastInDim S1700000x1 ![0] bcast_S1700000_S1700000x1_0 y (ix2 e (0 : Fin 1)) = y (ix1 e) :=
  broadcastInDim_apply _ bcast_S1700000_S1700000x1_0 y (ix2 e (0 : Fin 1)) (ix1 e) fun a => by
    match a with
    | ⟨0, _⟩ => show e.val = if (1700000 : Nat) = 1 then 0 else e.val; rw [if_neg (by decide)]

/-- One word spread over the edges reads that word at every edge. -/
theorem splat1 (x : S_.Idx → BitVec 32) (j : S1700000.Idx) :
    broadcastInDim S1700000 ![] bcast_S_S1700000 x j = x (fun a => a.elim0) :=
  broadcastInDim_apply _ bcast_S_S1700000 x j (fun a => a.elim0) (fun a => a.elim0)

/-- The gather's index normalisation, edge by edge: a word negative read signed gains 100000, any other is left. -/
theorem wrapWord1 (v : S1700000.Idx → BitVec 32) (e : Fin 1700000) :
    select (cmpi .slt v (broadcastInDim S1700000 ![] bcast_S_S1700000 (constantI S_ 32 0#32)))
        (addi v (broadcastInDim S1700000 ![] bcast_S_S1700000 (constantI S_ 32 100000#32))) v (ix1 e)
      = Cert.Bridge.wrap (v (ix1 e)) := by
  show Scalar.select (IntOp.cmpi .slt (v (ix1 e)) (broadcastInDim S1700000 ![] bcast_S_S1700000 (constantI S_ 32 0#32) (ix1 e)))
      (IntOp.addi (v (ix1 e)) (broadcastInDim S1700000 ![] bcast_S_S1700000 (constantI S_ 32 100000#32) (ix1 e))) (v (ix1 e)) = _
  rw [splat1, splat1]
  exact HostRead.select_slt_zero_add _ _

/-- The raw sums' array as the stretch computes it from what the first call left. -/
theorem rawTerm1 (c : Dev nD) :
    raw1 (E1 m) c = Host.scatterAdd scatter_S100000x128_S1700000x1_S1700000x128_1_0_0_1
      (broadcastInDim S100000x128 ![] bcast_S_S100000x128 (constant (F := Ideal) S_ .f32 0x00000000#32))
      (broadcastInDim S1700000x1 ![0] bcast_S1700000_S1700000x1_0 (W4 m c main_v6 : S1700000.Idx → BitVec 32))
      (Host.gather gather_S100000x128_S1700000x1_S1700000x128_1_0_n_n_0_1_1128 (W4 m c main_v20 : S100000x128.Idx → EReal)
        (broadcastInDim S1700000x1 ![0] bcast_S1700000_S1700000x1_0
          (select (cmpi .slt (W4 m c main_v3 : S1700000.Idx → BitVec 32) (broadcastInDim S1700000 ![] bcast_S_S1700000 (constantI S_ 32 0#32)))
            (addi (W4 m c main_v3 : S1700000.Idx → BitVec 32) (broadcastInDim S1700000 ![] bcast_S_S1700000 (constantI S_ 32 100000#32)))
            (W4 m c main_v3 : S1700000.Idx → BitVec 32)))) := by
  dsimp only [raw1, E1, W5]
  after_results

/-- The program's dimension records are the row scatter's and the row gather's. -/
theorem scatterRec1 : scatter_S100000x128_S1700000x1_S1700000x128_1_0_0_1
    = RowOps.rowScatter 100000 1700000 128 scatter_S100000x128_S1700000x1_S1700000x128_1_0_0_1.wf := rfl
theorem gatherRec1 : gather_S100000x128_S1700000x1_S1700000x128_1_0_n_n_0_1_1128
    = RowOps.rowGather 100000 1700000 128 gather_S100000x128_S1700000x1_S1700000x128_1_0_n_n_0_1_1128.wf := rfl

theorem E1_raw (c : Dev nD) (n : Fin 100000) (f : Fin 128) :
    raw1 (E1 m) c (ix2 n f)
      = (0 : EReal) + ∑ e ∈ Cert.Spec.into (Cert.Bridge.dInt (aEI m c)) n, res0 (E0 m) c (ix2 (Cert.Bridge.sRow (aEI m c) e) f) := by
  rw [rawTerm1]
  refine (HostRead.hostRowScatterAdd_apply _ _ scatterRec1 _ _ _ n f).trans ?_
  refine congrArg₂ (fun a b : EReal => a + b) ?_ ?_
  · rw [broadcastInDim_apply _ bcast_S_S100000x128 _ (ix2 n f) (fun a => a.elim0) (fun a => a.elim0)]
    exact Ideal.ofBits_zero_f32
  · have hx : (W4 m c main_v20 : S100000x128.Idx → EReal) = res0 (E0 m) c := Run.W4_arr m c 3
    refine Finset.sum_congr ?_ fun e _ => ?_
    · unfold Cert.Spec.into
      refine Finset.filter_congr fun e _ => ?_
      rw [edgeCol1, dstWord1]
      exact Iff.rfl
    · refine (HostRead.hostRowGather_apply (by decide) _ _ gatherRec1 _ _ e f).trans ?_
      rw [hx]
      refine congrArg (fun r : Fin 100000 => res0 (E0 m) c (ix2 r f)) (Fin.ext ?_)
      show min (_ : BitVec 32).toInt.toNat (100000 - 1) = (Cert.Bridge.sRow (aEI m c) e).val
      rw [edgeCol1, wrapWord1, srcWord1]
      rfl

theorem E1_dcol (c : Dev nD) (i : Fin 100000) : dcol1 (E1 m) c (ix2 i (0 : Fin 1)) = Cert.Bridge.dinv (aEI m c) i := by
  have h : dcol1 (E1 m) c = dcol0 (E0 m) c :=
    (Run.W5_of m c main_v15 (by decide)).trans
      ((Run.W4_arr m c 1).trans (((dat0 (E0 m) c).arrAt_in 1 rfl _).trans (A_eq0 (E0 m) c 1)))
  rw [h]
  exact E0_dcol m c i

/-- The bias row as the second call finds it: the first bias vector laid out as one row, written before the first
    call and left by everything after. -/
theorem biasTerm1 (c : Dev nD) :
    bias1 (E1 m) c = shapeCast S1x128 (aB1 m c) shapeCasts_S128_S1x128 := by
  refine (Run.W5_of m c main_v17 (by decide)).trans ((Run.W4_of_ne m c main_v17 (by decide)).trans ?_)
  show StableHlo.after hostOps0_2 (StableHlo.after hostOps0_1 (StableHlo.after hostOps0 (W0 m c))) (Proc.devRef .tc main_v17) = _
  after_results
  rfl

theorem E1_bias (c : Dev nD) (k : Fin 128) : bias1 (E1 m) c (ix2 (0 : Fin 1) k) = aB1 m c (ix1 k) := by
  rw [biasTerm1]
  exact shapeCast_apply _ shapeCasts_S128_S1x128 (ix2 (0 : Fin 1) k) (ix1 k)
    (by rewrite [Shape.rowMajor_val_two, Shape.rowMajor_val_one]; show k.val = 0 * 128 + k.val; omega)

theorem E1_wts (c : Dev nD) : wts1 (E1 m) c = aW2 m c :=
  (Run.W5_of m c main_arg5 (by decide)).trans
    ((Run.W4_of_ne m c main_arg5 (by decide)).trans (Run.W3_of m c main_arg5 (by decide) (by decide) (by decide)))

end Cert.KernelIdeal.Fr

end
-- ==== Proof.KI.Host2.lean ====
/-
  What the third pallas_call is entered from, at the ideal instance, entry by entry: the raw neighbour sums of the second
  call's output (gathered by the edges' source rows, added up by their destination words), the degree weights (written
  once, before the first call), the reshaped second bias row, graph ids and head bias, the head's weights.
-/
import proofs.«427760_j11510512353338_2_alg».proof.Proof.Gen.KernelIdeal.Launch
import proofs.«427760_j11510512353338_2_alg».proof.Proof.Gen.KernelIdeal.Skeleton
import proofs.«427760_j11510512353338_2_alg».proof.Proof.Gen.KernelIdeal.Points
import proofs.«427760_j11510512353338_2_alg».proof.Proof.KI.Fold
import proofs.«427760_j11510512353338_2_alg».proof.Proof.KI.Val0
import proofs.«427760_j11510512353338_2_alg».proof.Proof.KI.Val1
import proofs.«427760_j11510512353338_2_alg».proof.Proof.KI.Val2
import proofs.«427760_j11510512353338_2_alg».proof.Proof.Bridge
import proofs.«427760_j11510512353338_2_alg».proof.Proof.LibRowOps
import proofs.«427760_j11510512353338_2_alg».proof.Proof.LibHostRead
import proofs.«427760_j11510512353338_2_alg».proof.Proof.KI.Whole
import proofs.«427760_j11510512353338_2_alg».proof.Proof.KI.Host
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-! ## Index words and rows, read at an index -/

/-- Row r of the edge list flattened, then the node numbers: position e reads the edge list at (r, e) below 1600000
    and the number e - 1600000 from there on. -/
theorem edgeWords2_apply (ei : (⟨S2x1600000, .i32⟩ : BufTy).Contents (Elt Ideal)) (off : Fin 2 → Nat) (r : Fin 2)
    (h0 : off 0 = r.val) (h1 : off 1 = 0) (hs : S2x1600000.Slices off S1x1600000) (e : Fin 1700000) :
    concatenate S1700000 0 [⟨S1600000, shapeCast S1600000 (extractStridedSlice S1x1600000 off ei hs) shapeCasts_S1x1600000_S1600000⟩,
        ⟨S100000, iotaInDim S100000 32 0⟩] concatenates_S1600000_S100000_S1700000_d0 (ix1 e)
      = if h : e.val < 1600000 then ei (ix2 r (⟨e.val, h⟩ : Fin 1600000)) else BitVec.ofNat 32 (e.val - 1600000) := by
  refine (HostRead.concat2_apply (A := 1600000) (B := 100000) (T := 1700000) rfl _ _ concatenates_S1600000_S100000_S1700000_d0 e).trans ?_
  by_cases hlt : e.val < 1600000
  · rw [dif_pos hlt, dif_pos hlt]
    refine (shapeCast_apply _ shapeCasts_S1x1600000_S1600000 (ix1 (⟨e.val, hlt⟩ : Fin 1600000))
      (ix2 (0 : Fin 1) (⟨e.val, hlt⟩ : Fin 1600000)) ?_).trans ?_
    · rewrite [Shape.rowMajor_val_two, Shape.rowMajor_val_one]; show 0 * 1600000 + e.val = e.val; omega
    · exact extractStridedSlice_apply off ei hs _ (ix2 r (⟨e.val, hlt⟩ : Fin 1600000)) (fun a => match a with
        | ⟨0, _⟩ => by show r.val = off 0 + 0; omega
        | ⟨1, _⟩ => by show e.val = off 1 + e.val; omega)
  · rw [dif_neg hlt, dif_neg hlt]
    rfl

/-- A word vector laid out as a column reads, at (e, 0), the vector at e. -/
theorem wordColumn2_apply (v : (⟨S1700000, .i32⟩ : BufTy).Contents (Elt Ideal)) (e : Fin 1700000) :
    broadcastInDim S1700000x1 ![0] bcast_S1700000_S1700000x1_0 v (ix2 e (0 : Fin 1)) = v (ix1 e) :=
  broadcastInDim_apply _ bcast_S1700000_S1700000x1_0 v (ix2 e (0 : Fin 1)) (ix1 e) (fun a => match a with
    | ⟨0, _⟩ => by show e.val = if (1700000 : Nat) = 1 then 0 else e.val; rw [if_neg (by decide)])

/-- The index normalisation a gather's start words go through, at e: a word negative read signed has 100000 added. -/
theorem wrappedWord2_apply (src : (⟨S1700000, .i32⟩ : BufTy).Contents (Elt Ideal)) (e : Fin 1700000) :
    select (cmpi .slt src (broadcastInDim S1700000 ![] bcast_S_S1700000 (constantI S_ 32 0#32)))
        (addi src (broadcastInDim S1700000 ![] bcast_S_S1700000 (constantI S_ 32 100000#32))) src (ix1 e)
      = Cert.Bridge.wrap (src (ix1 e)) := by
  show Scalar.select (IntOp.cmpi .slt (src (ix1 e)) 0#32) (IntOp.addi (src (ix1 e)) 100000#32) (src (ix1 e)) = _
  exact HostRead.select_slt_zero_add _ _

/-- A gather's row of a word is the word read signed and clamped into the table, whichever way the word is spelt. -/
theorem clampedRow2_eq (v w : BitVec 32) (h : v = w) (hlt : min v.toInt.toNat (100000 - 1) < 100000) :
    (⟨min v.toInt.toNat (100000 - 1), hlt⟩ : Fin 100000) = Cert.Bridge.row w := by
  subst h
  exact Fin.ext rfl

/-- The program's scatter and gather records are the row scatter's and the row gather's. -/
theorem rowScatterRecord2 : scatter_S100000x128_S1700000x1_S1700000x128_1_0_0_1 = RowOps.rowScatter 100000 1700000 128 scatter_S100000x128_S1700000x1_S1700000x128_1_0_0_1.wf := rfl
theorem rowGatherRecord2 : gather_S100000x128_S1700000x1_S1700000x128_1_0_n_n_0_1_1128 = RowOps.rowGather 100000 1700000 128 gather_S100000x128_S1700000x1_S1700000x128_1_0_n_n_0_1_1128.wf := rfl

/-- Gather the table's rows by the wrapped source words, add them up by the destination words, onto zeros: at (n, f),
    the sum over the edges sent to n of the table at the edge's source row, column f. -/
theorem neighbourSum2_apply (tbl : (⟨S100000x128, .f32⟩ : BufTy).Contents (Elt Ideal))
    (src dst : (⟨S1700000, .i32⟩ : BufTy).Contents (Elt Ideal)) (n : Fin 100000) (f : Fin 128) :
    Host.scatterAdd scatter_S100000x128_S1700000x1_S1700000x128_1_0_0_1
        (broadcastInDim S100000x128 ![] bcast_S_S100000x128 (constant (F := Ideal) S_ .f32 0x00000000#32))
        (broadcastInDim S1700000x1 ![0] bcast_S1700000_S1700000x1_0 dst)
        (Host.gather gather_S100000x128_S1700000x1_S1700000x128_1_0_n_n_0_1_1128 tbl
          (broadcastInDim S1700000x1 ![0] bcast_S1700000_S1700000x1_0
            (select (cmpi .slt src (broadcastInDim S1700000 ![] bcast_S_S1700000 (constantI S_ 32 0#32)))
              (addi src (broadcastInDim S1700000 ![] bcast_S_S1700000 (constantI S_ 32 100000#32))) src))) (ix2 n f)
      = (0 : EReal) + ∑ e ∈ Finset.univ.filter (fun e : Fin 1700000 => (dst (ix1 e)).toInt = (n.val : ℤ)),
          tbl (ix2 (Cert.Bridge.row (Cert.Bridge.wrap (src (ix1 e)))) f) := by
  refine (HostRead.hostRowScatterAdd_apply (N := 100000) (E := 1700000) (C := 128) _ _ rowScatterRecord2 _ _ _ n f).trans ?_
  refine congrArg₂ (· + ·) ?_ ?_
  · show Ideal.ofBits .f32 0x00000000#32 = 0
    exact Ideal.ofBits_zero_f32
  · refine Finset.sum_congr (Finset.filter_congr fun e _ => by rw [wordColumn2_apply]) fun e _ => ?_
    refine (HostRead.hostRowGather_apply (N := 100000) (E := 1700000) (C := 128) (by decide) _ _ rowGatherRecord2 tbl _ e f).trans ?_
    refine congrArg (fun r : Fin 100000 => tbl (ix2 r f)) (clampedRow2_eq _ _ ?_ _)
    rw [wordColumn2_apply, wrappedWord2_apply]

/-! ## The buffers the third stretch reads, carried from where they were written -/

/-- The raw-sum buffer after the third stretch, as the stretch's operations of what it finds. -/
theorem rawTerm2 (c : Dev nD) :
    raw2 (E2 m) c = Host.scatterAdd scatter_S100000x128_S1700000x1_S1700000x128_1_0_0_1
        (broadcastInDim S100000x128 ![] bcast_S_S100000x128 (constant (F := Ideal) S_ .f32 0x00000000#32))
        (broadcastInDim S1700000x1 ![0] bcast_S1700000_S1700000x1_0 (W6 m c (Proc.devRef .tc main_v6)))
        (Host.gather gather_S100000x128_S1700000x1_S1700000x128_1_0_n_n_0_1_1128 (W6 m c (Proc.devRef .tc main_v31))
          (broadcastInDim S1700000x1 ![0] bcast_S1700000_S1700000x1_0
            (select (cmpi .slt (W6 m c (Proc.devRef .tc main_v3)) (broadcastInDim S1700000 ![] bcast_S_S1700000 (constantI S_ 32 0#32)))
              (addi (W6 m c (Proc.devRef .tc main_v3)) (broadcastInDim S1700000 ![] bcast_S_S1700000 (constantI S_ 32 100000#32)))
              (W6 m c (Proc.devRef .tc main_v3))))) := by
  dsimp only [raw2, E2, W7]
  show StableHlo.after hostOps2 _ (Proc.devRef .tc main_v41) = _
  after_results

/-- The source words, written by the first stretch, are still there after the second call. -/
theorem srcWords2_carried (c : Dev nD) :
    W6 m c (Proc.devRef .tc main_v3) = StableHlo.after (hostOps0 (F := Ideal)) (W0 m c) (Proc.devRef .tc main_v3) :=
  calc W6 m c (Proc.devRef .tc main_v3)
    _ = W5 m c (Proc.devRef .tc main_v3) := Run.W6_of_ne m c main_v3 (by decide)
    _ = W4 m c (Proc.devRef .tc main_v3) := Run.W5_of m c main_v3 (by decide)
    _ = W3 m c (Proc.devRef .tc main_v3) := Run.W4_of_ne m c main_v3 (by decide)
    _ = StableHlo.after hostOps0_1 (StableHlo.after hostOps0 (W0 m c)) (Proc.devRef .tc main_v3) :=
        StableHlo.after_of_writes_sub hostOps0_2 _ hostOps0_2_writes (by decide)
    _ = StableHlo.after hostOps0 (W0 m c) (Proc.devRef .tc main_v3) :=
        StableHlo.after_of_writes_sub hostOps0_1 _ hostOps0_1_writes (by decide)

/-- The destination words likewise. -/
theorem dstWords2_carried (c : Dev nD) :
    W6 m c (Proc.devRef .tc main_v6) = StableHlo.after (hostOps0 (F := Ideal)) (W0 m c) (Proc.devRef .tc main_v6) :=
  calc W6 m c (Proc.devRef .tc main_v6)
    _ = W5 m c (Proc.devRef .tc main_v6) := Run.W6_of_ne m c main_v6 (by decide)
    _ = W4 m c (Proc.devRef .tc main_v6) := Run.W5_of m c main_v6 (by decide)
    _ = W3 m c (Proc.devRef .tc main_v6) := Run.W4_of_ne m c main_v6 (by decide)
    _ = StableHlo.after hostOps0_1 (StableHlo.after hostOps0 (W0 m c)) (Proc.devRef .tc main_v6) :=
        StableHlo.after_of_writes_sub hostOps0_2 _ hostOps0_2_writes (by decide)
    _ = StableHlo.after hostOps0 (W0 m c) (Proc.devRef .tc main_v6) :=
        StableHlo.after_of_writes_sub hostOps0_1 _ hostOps0_1_writes (by decide)

/-- The source word of edge e after the second call is the edge list's, or the self loop's. -/
theorem srcWords2_apply (c : Dev nD) (e : Fin 1700000) :
    (W6 m c (Proc.devRef .tc main_v3) : S1700000.Idx → BitVec 32) (ix1 e) = Cert.Bridge.srcW (aEI m c) e := by
  have t : (StableHlo.after (hostOps0 (F := Ideal)) (W0 m c) (Proc.devRef .tc main_v3) : S1700000.Idx → BitVec 32)
      = concatenate S1700000 0 [⟨S1600000, shapeCast S1600000 (extractStridedSlice S1x1600000 ![0, 0] (aEI m c) slices_S2x1600000_S1x1600000_0_0) shapeCasts_S1x1600000_S1600000⟩,
          ⟨S100000, iotaInDim S100000 32 0⟩] concatenates_S1600000_S100000_S1700000_d0 := by
    after_results
    rfl
  rw [srcWords2_carried, t]
  exact edgeWords2_apply (aEI m c) ![0, 0] (0 : Fin 2) rfl rfl slices_S2x1600000_S1x1600000_0_0 e

/-- The destination word of edge e likewise. -/
theorem dstWords2_apply (c : Dev nD) (e : Fin 1700000) :
    (W6 m c (Proc.devRef .tc main_v6) : S1700000.Idx → BitVec 32) (ix1 e) = Cert.Bridge.dstW (aEI m c) e := by
  have t : (StableHlo.after (hostOps0 (F := Ideal)) (W0 m c) (Proc.devRef .tc main_v6) : S1700000.Idx → BitVec 32)
      = concatenate S1700000 0 [⟨S1600000, shapeCast S1600000 (extractStridedSlice S1x1600000 ![1, 0] (aEI m c) slices_S2x1600000_S1x1600000_1_0) shapeCasts_S1x1600000_S1600000⟩,
          ⟨S100000, iotaInDim S100000 32 0⟩] concatenates_S1600000_S100000_S1700000_d0 := by
    after_results
    rfl
  rw [dstWords2_carried, t]
  exact edgeWords2_apply (aEI m c) ![1, 0] (1 : Fin 2) rfl rfl slices_S2x1600000_S1x1600000_1_0 e

/-- The table the third stretch gathers from is the second call's output array. -/
theorem secondOutput2 (c : Dev nD) : (W6 m c (Proc.devRef .tc main_v31) : S100000x128.Idx → EReal) = res1 (E1 m) c :=
  Run.W6_arr m c 4

/-! ## The other arrays the third call reads -/

/-- The degree weights, written once before the first call: the first and the second call only stage them, no later
    stretch writes them. -/
theorem degCol2_carried (c : Dev nD) : dcol2 (E2 m) c = dcol0 (E0 m) c :=
  calc W7 m c (Proc.devRef .tc main_v15)
    _ = W6 m c (Proc.devRef .tc main_v15) := Run.W7_of m c main_v15 (by decide)
    _ = W5 m c (Proc.devRef .tc main_v15) := (Run.W6_arr m c 1).trans (((dat1 (E1 m) c).arrAt_in 1 rfl _).trans (A_eq1 (E1 m) c 1))
    _ = W4 m c (Proc.devRef .tc main_v15) := Run.W5_of m c main_v15 (by decide)
    _ = W3 m c (Proc.devRef .tc main_v15) := (Run.W4_arr m c 1).trans (((dat0 (E0 m) c).arrAt_in 1 rfl _).trans (A_eq0 (E0 m) c 1))

/-- The second bias laid out as a row, as the third call finds it. -/
theorem biasRow2_term (c : Dev nD) : bias2 (E2 m) c = shapeCast S1x128 (aB2 m c) shapeCasts_S128_S1x128 := by
  have hc : W7 m c (Proc.devRef .tc main_v18) = W3 m c (Proc.devRef .tc main_v18) :=
    calc W7 m c (Proc.devRef .tc main_v18)
    _ = W6 m c (Proc.devRef .tc main_v18) := Run.W7_of m c main_v18 (by decide)
    _ = W5 m c (Proc.devRef .tc main_v18) := Run.W6_of_ne m c main_v18 (by decide)
    _ = W4 m c (Proc.devRef .tc main_v18) := Run.W5_of m c main_v18 (by decide)
    _ = W3 m c (Proc.devRef .tc main_v18) := Run.W4_of_ne m c main_v18 (by decide)
  have ht : (W3 m c (Proc.devRef .tc main_v18) : S1x128.Idx → EReal)
      = shapeCast S1x128 (StableHlo.after hostOps0_1 (StableHlo.after hostOps0 (W0 m c)) (Proc.devRef .tc main_arg6)) shapeCasts_S128_S1x128 := by
    show StableHlo.after hostOps0_2 _ (Proc.devRef .tc main_v18) = _
    after_results
    rfl
  have ha : StableHlo.after hostOps0_1 (StableHlo.after hostOps0 (W0 m c)) (Proc.devRef .tc main_arg6) = aB2 m c :=
    (StableHlo.after_of_writes_sub hostOps0_1 _ hostOps0_1_writes (by decide)).trans
      ((StableHlo.after_of_writes_sub hostOps0 _ hostOps0_writes (by decide)).trans rfl)
  show W7 m c (Proc.devRef .tc main_v18) = _
  rw [hc, ht, ha]

/-- The graph ids laid out as a column. -/
theorem gidCol2_term (c : Dev nD) : gid2 (E2 m) c = shapeCast S100000x1 (aBT m c) shapeCasts_S100000_S100000x1 := by
  have hc : W7 m c (Proc.devRef .tc main_v16) = W3 m c (Proc.devRef .tc main_v16) :=
    calc W7 m c (Proc.devRef .tc main_v16)
    _ = W6 m c (Proc.devRef .tc main_v16) := Run.W7_of m c main_v16 (by decide)
    _ = W5 m c (Proc.devRef .tc main_v16) := Run.W6_of_ne m c main_v16 (by decide)
    _ = W4 m c (Proc.devRef .tc main_v16) := Run.W5_of m c main_v16 (by decide)
    _ = W3 m c (Proc.devRef .tc main_v16) := Run.W4_of_ne m c main_v16 (by decide)
  have ht : (W3 m c (Proc.devRef .tc main_v16) : S100000x1.Idx → BitVec 32)
      = shapeCast S100000x1 (StableHlo.after hostOps0_1 (StableHlo.after hostOps0 (W0 m c)) (Proc.devRef .tc main_arg2)) shapeCasts_S100000_S100000x1 := by
    show StableHlo.after hostOps0_2 _ (Proc.devRef .tc main_v16) = _
    after_results
    rfl
  have ha : StableHlo.after hostOps0_1 (StableHlo.after hostOps0 (W0 m c)) (Proc.devRef .tc main_arg2) = aBT m c :=
    (StableHlo.after_of_writes_sub hostOps0_1 _ hostOps0_1_writes (by decide)).trans
      ((StableHlo.after_of_writes_sub hostOps0 _ hostOps0_writes (by decide)).trans rfl)
  show W7 m c (Proc.devRef .tc main_v16) = _
  rw [hc, ht, ha]

/-- The head's bias laid out as a row. -/
theorem headBiasRow2_term (c : Dev nD) : hb2 (E2 m) c = shapeCast S1x10 (aBL m c) shapeCasts_S10_S1x10 := by
  have hc : W7 m c (Proc.devRef .tc main_v19) = W3 m c (Proc.devRef .tc main_v19) :=
    calc W7 m c (Proc.devRef .tc main_v19)
    _ = W6 m c (Proc.devRef .tc main_v19) := Run.W7_of m c main_v19 (by decide)
    _ = W5 m c (Proc.devRef .tc main_v19) := Run.W6_of_ne m c main_v19 (by decide)
    _ = W4 m c (Proc.devRef .tc main_v19) := Run.W5_of m c main_v19 (by decide)
    _ = W3 m c (Proc.devRef .tc main_v19) := Run.W4_of_ne m c main_v19 (by decide)
  have ht : (W3 m c (Proc.devRef .tc main_v19) : S1x10.Idx → EReal)
      = shapeCast S1x10 (StableHlo.after hostOps0_1 (StableHlo.after hostOps0 (W0 m c)) (Proc.devRef .tc main_arg8)) shapeCasts_S10_S1x10 := by
    show StableHlo.after hostOps0_2 _ (Proc.devRef .tc main_v19) = _
    after_results
    rfl
  have ha : StableHlo.after hostOps0_1 (StableHlo.after hostOps0 (W0 m c)) (Proc.devRef .tc main_arg8) = aBL m c :=
    (StableHlo.after_of_writes_sub hostOps0_1 _ hostOps0_1_writes (by decide)).trans
      ((StableHlo.after_of_writes_sub hostOps0 _ hostOps0_writes (by decide)).trans rfl)
  show W7 m c (Proc.devRef .tc main_v19) = _
  rw [hc, ht, ha]

theorem E2_raw (c : Dev nD) (n : Fin 100000) (f : Fin 128) :
    raw2 (E2 m) c (ix2 n f)
      = (0 : EReal) + ∑ e ∈ Cert.Spec.into (Cert.Bridge.dInt (aEI m c)) n, res1 (E1 m) c (ix2 (Cert.Bridge.sRow (aEI m c) e) f) := by
  rw [rawTerm2, neighbourSum2_apply, secondOutput2]
  refine congrArg₂ (· + ·) rfl ?_
  unfold Cert.Spec.into
  refine Finset.sum_congr (Finset.filter_congr fun e _ => by rw [dstWords2_apply]; rfl) fun e _ => ?_
  rw [srcWords2_apply]
  rfl
theorem E2_dcol (c : Dev nD) (i : Fin 100000) : dcol2 (E2 m) c (ix2 i (0 : Fin 1)) = Cert.Bridge.dinv (aEI m c) i := by
  rw [degCol2_carried]
  exact E0_dcol m c i
theorem E2_bias (c : Dev nD) (k : Fin 128) : bias2 (E2 m) c (ix2 (0 : Fin 1) k) = aB2 m c (ix1 k) := by
  rw [biasRow2_term]
  exact shapeCast_apply _ shapeCasts_S128_S1x128 (ix2 (0 : Fin 1) k) (ix1 k)
    (by rewrite [Shape.rowMajor_val_one, Shape.rowMajor_val_two]; show k.val = 0 * 128 + k.val; omega)
theorem E2_gid (c : Dev nD) (n : Fin 100000) : gid2 (E2 m) c (ix2 n (0 : Fin 1)) = aBT m c (ix1 n) := by
  rw [gidCol2_term]
  exact shapeCast_apply _ shapeCasts_S100000_S100000x1 (ix2 n (0 : Fin 1)) (ix1 n)
    (by rewrite [Shape.rowMajor_val_one, Shape.rowMajor_val_two]; show n.val = n.val * 1 + 0; omega)
theorem E2_hw (c : Dev nD) : hw2 (E2 m) c = aWL m c := by
  show W7 m c (Proc.devRef .tc main_arg7) = _
  exact calc W7 m c (Proc.devRef .tc main_arg7)
    _ = W6 m c (Proc.devRef .tc main_arg7) := Run.W7_of m c main_arg7 (by decide)
    _ = W5 m c (Proc.devRef .tc main_arg7) := Run.W6_of_ne m c main_arg7 (by decide)
    _ = W4 m c (Proc.devRef .tc main_arg7) := Run.W5_of m c main_arg7 (by decide)
    _ = W3 m c (Proc.devRef .tc main_arg7) := Run.W4_of_ne m c main_arg7 (by decide)
    _ = m ((c : Thread nD τ).loc main_arg7) := Run.W3_of m c main_arg7 (by decide) (by decide) (by decide)
theorem E2_hb (c : Dev nD) (j : Fin 10) : hb2 (E2 m) c (ix2 (0 : Fin 1) j) = aBL m c (ix1 j) := by
  rw [headBiasRow2_term]
  exact shapeCast_apply _ shapeCasts_S10_S1x10 (ix2 (0 : Fin 1) j) (ix1 j)
    (by rewrite [Shape.rowMajor_val_one, Shape.rowMajor_val_two]; show j.val = 0 * 10 + j.val; omega)

end Cert.KernelIdeal.Fr

end
-- ==== Proof.KI.Kval.lean ====
/-
  The kernel's result array as the function Bridge.outK of the nine argument arrays: the third call's output is the head
  over the tile-by-tile sums of the finished second layer; the second layer is Spec.layerK of the first, whose raw sums
  gather the second call's output (a dense product of the first layer scaled by the degree weights); the first layer
  is Spec.layerK of the features, whose raw sums gather the first call's output.
-/
import proofs.«427760_j11510512353338_2_alg».proof.Proof.Gen.KernelIdeal.Launch
import proofs.«427760_j11510512353338_2_alg».proof.Proof.Gen.KernelIdeal.Skeleton
import proofs.«427760_j11510512353338_2_alg».proof.Proof.Gen.KernelIdeal.Points
import proofs.«427760_j11510512353338_2_alg».proof.Proof.KI.Fold
import proofs.«427760_j11510512353338_2_alg».proof.Proof.KI.Val0
import proofs.«427760_j11510512353338_2_alg».proof.Proof.KI.Val1
import proofs.«427760_j11510512353338_2_alg».proof.Proof.KI.Val2
import proofs.«427760_j11510512353338_2_alg».proof.Proof.Bridge
import proofs.«427760_j11510512353338_2_alg».proof.Proof.KI.Host
import proofs.«427760_j11510512353338_2_alg».proof.Proof.KI.Host1
import proofs.«427760_j11510512353338_2_alg».proof.Proof.KI.Host2
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The tile-by-tile sums do not depend on how membership is decided, and respect equal membership and equal layers. -/
theorem Kval.sumsK_congr {mem mem' : Fin 100000 → Fin 64 → Prop} [i1 : ∀ n g, Decidable (mem n g)] [i2 : ∀ n g, Decidable (mem' n g)]
    (hm : mem = mem') {h h' : Fin 100000 → Fin 128 → EReal} (hh : h = h') (g : Fin 64) (f : Fin 128) (t : ℕ) (ht : t < 10) :
    @Cert.Spec.sumsK mem i1 h g f t ht = @Cert.Spec.sumsK mem' i2 h' g f t ht := by
  subst hm; subst hh
  have : i1 = i2 := Subsingleton.elim _ _
  subst this; rfl

/-- The tile-by-tile counts do not depend on how membership is decided, and respect equal membership. -/
theorem Kval.cntK_congr {mem mem' : Fin 100000 → Fin 64 → Prop} [i1 : ∀ n g, Decidable (mem n g)] [i2 : ∀ n g, Decidable (mem' n g)]
    (hm : mem = mem') (g : Fin 64) (t : ℕ) (ht : t < 10) :
    @Cert.Spec.cntK mem i1 g t ht = @Cert.Spec.cntK mem' i2 g t ht := by
  subst hm
  have : i1 = i2 := Subsingleton.elim _ _
  subst this; rfl

/-- The result array at the end of the kernel program is Bridge.outK of the arguments. -/
theorem kernel_value (c : Dev nD) :
    res2 (E2 m) c = Cert.Bridge.outK (aX m c) (aEI m c) (aBT m c) (aW1 m c) (aB1 m c) (aW2 m c) (aB2 m c) (aWL m c) (aBL m c) := by
  -- the finished first layer, as the second call reads it off its entry contents
  have h1 : ∀ (i : Fin 100000) (k : Fin 128),
      max (raw1 (E1 m) c (ix2 i k) * dcol1 (E1 m) c (ix2 i (0 : Fin 1)) + bias1 (E1 m) c (ix2 (0 : Fin 1) k)) 0
        = Cert.Bridge.h1K (aX m c) (aEI m c) (aW1 m c) (aB1 m c) i k := by
    intro i k
    rw [E1_raw, E1_dcol, E1_bias]
    unfold Cert.Bridge.h1K Cert.Spec.layerK Cert.Spec.lin Cert.Bridge.xF Cert.Bridge.wF Cert.Bridge.bF
    have hs : ∀ e : Fin 1700000, res0 (E0 m) c (ix2 (Cert.Bridge.sRow (aEI m c) e) k)
        = (∑ k' : Fin 128, aX m c (ix2 (Cert.Bridge.sRow (aEI m c) e) k') * aW1 m c (ix2 k' k))
            * Cert.Bridge.dinv (aEI m c) (Cert.Bridge.sRow (aEI m c) e) := fun e => by
      rw [arr0_apply, E0_feat, E0_wts, E0_dcol]
    rw [Finset.sum_congr rfl fun e _ => hs e]
  -- the finished second layer, as the third call reads it off its entry contents
  have h2 : hFin (E2 m) c = Cert.Bridge.h2K (aX m c) (aEI m c) (aW1 m c) (aB1 m c) (aW2 m c) (aB2 m c) := by
    funext n f
    unfold hFin
    rw [E2_raw, E2_dcol, E2_bias]
    unfold Cert.Bridge.h2K Cert.Spec.layerK Cert.Spec.lin Cert.Bridge.wF Cert.Bridge.bF
    have hs : ∀ e : Fin 1700000, res1 (E1 m) c (ix2 (Cert.Bridge.sRow (aEI m c) e) f)
        = (∑ k : Fin 128, Cert.Bridge.h1K (aX m c) (aEI m c) (aW1 m c) (aB1 m c) (Cert.Bridge.sRow (aEI m c) e) k * aW2 m c (ix2 k f))
            * Cert.Bridge.dinv (aEI m c) (Cert.Bridge.sRow (aEI m c) e) := fun e => by
      rw [arr1_apply]
      simp only [h1]
      rw [E1_dcol, E1_wts]
    rw [Finset.sum_congr rfl fun e _ => hs e]
  -- membership in a graph
  have hG : inG (E2 m) c = Cert.Bridge.memG (aBT m c) := by
    funext n g
    unfold inG Cert.Bridge.memG
    rw [E2_gid]
  funext j
  obtain ⟨g, jj, rfl⟩ : ∃ (g : Fin 64) (jj : Fin 10), j = ix2 g jj := ⟨j 0, j 1, eq_ix2 j⟩
  rw [arr2_apply]
  unfold Cert.Bridge.outK Cert.Bridge.head
  show (∑ k : Fin 128, Ideal.div (Cert.Spec.sumsK (inG (E2 m) c) (hFin (E2 m) c) g k 9 (by omega))
            (max (Cert.Spec.cntK (inG (E2 m) c) g 9 (by omega)) 1) * hw2 (E2 m) c (ix2 k jj))
        + hb2 (E2 m) c (ix2 (0 : Fin 1) jj)
      = (∑ k : Fin 128, Ideal.div (Cert.Spec.sumsK (Cert.Bridge.memG (aBT m c))
              (Cert.Bridge.h2K (aX m c) (aEI m c) (aW1 m c) (aB1 m c) (aW2 m c) (aB2 m c)) g k 9 (by omega))
            (max (Cert.Spec.cntK (Cert.Bridge.memG (aBT m c)) g 9 (by omega)) 1) * aWL m c (ix2 k jj))
        + aBL m c (ix1 jj)
  rw [E2_hw, E2_hb]
  refine congrArg (fun z => z + aBL m c (ix1 jj)) ?_
  refine Finset.sum_congr rfl fun k _ => ?_
  rw [Kval.sumsK_congr hG h2 g k 9 (by omega), Kval.cntK_congr hG g 9 (by omega)]

end Cert.KernelIdeal.Fr

end
-- ==== Proof.RefWords.lean ====
/-
  The reference's index vectors, at the ideal instance, entry by entry: the source words and the destination words of
  the 1700000 edges — the edge list's first and second row, then the self loops.
-/
import proofs.«427760_j11510512353338_2_alg».proof.Proof.RefRead
import proofs.«427760_j11510512353338_2_alg».proof.Proof.Bridge
import proofs.«427760_j11510512353338_2_alg».proof.Proof.LibRowOps
import proofs.«427760_j11510512353338_2_alg».proof.Proof.LibHostRead
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefVal

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-- Edge e's source word. -/
theorem ref_src (x1 : S2x1600000.Idx → BitVec 32) (e : Fin 1700000) :
    val_main_v3 (F := Ideal) x1 (ix1 e) = Cert.Bridge.srcW x1 e := by
  unfold val_main_v3 Cert.Bridge.srcW
  refine (HostRead.concat2_apply (A := 1600000) (B := 100000) (T := 1700000) rfl _ _ _ e).trans ?_
  by_cases hlt : e.val < 1600000
  · rw [dif_pos hlt, dif_pos hlt, val_main_v2_apply, val_main_v1_apply]
    refine congrArg x1 (funext fun a => Fin.ext ?_)
    match a with
    | ⟨0, _⟩ => rfl
    | ⟨1, _⟩ => exact Nat.mod_eq_of_lt hlt
  · rw [dif_neg hlt, dif_neg hlt, val_main_v0_apply]

/-- Edge e's destination word. -/
theorem ref_dst (x1 : S2x1600000.Idx → BitVec 32) (e : Fin 1700000) :
    val_main_v6 (F := Ideal) x1 (ix1 e) = Cert.Bridge.dstW x1 e := by
  unfold val_main_v6 Cert.Bridge.dstW
  refine (HostRead.concat2_apply (A := 1600000) (B := 100000) (T := 1700000) rfl _ _ _ e).trans ?_
  by_cases hlt : e.val < 1600000
  · rw [dif_pos hlt, dif_pos hlt, val_main_v5_apply, val_main_v4_apply]
    refine congrArg x1 (funext fun a => Fin.ext ?_)
    match a with
    | ⟨0, _⟩ => rfl
    | ⟨1, _⟩ => exact Nat.mod_eq_of_lt hlt
  · rw [dif_neg hlt, dif_neg hlt, val_main_v0_apply]

/-! ## The wrapped words: a negative word plus the extent, every other word left

The program normalises the source words four times (%20, %35, %53, %68) and the destination words twice (%27, %60),
each time by the same three operations, and turns each result into a column of start words. -/

/-- The wrapped source words at %20. -/
theorem wrap_v20 (x1 : S2x1600000.Idx → BitVec 32) (e : Fin 1700000) :
    val_main_v20 (F := Ideal) x1 (ix1 e) = Cert.Bridge.wrap (Cert.Bridge.srcW x1 e) := by
  rw [val_main_v20_apply, val_main_v17_apply, val_main_v19_apply, val_main_v16_apply, val_main_v18_apply,
    val_main_c_apply, val_main_c_3_apply, ref_src]
  exact HostRead.select_slt_zero_add _ _

/-- The same as a column of start words (%21). -/
theorem wrapCol_v21 (x1 : S2x1600000.Idx → BitVec 32) (e : Fin 1700000) :
    val_main_v21 (F := Ideal) x1 (ix2 e (0 : Fin 1)) = Cert.Bridge.wrap (Cert.Bridge.srcW x1 e) := by
  rw [val_main_v21_apply, show idx_main_v21 (ix2 e (0 : Fin 1)) = ix1 e from
    funext fun a => by match a with | ⟨0, _⟩ => rfl]
  exact wrap_v20 x1 e

/-- The wrapped destination words at %27. -/
theorem wrap_v27 (x1 : S2x1600000.Idx → BitVec 32) (e : Fin 1700000) :
    val_main_v27 (F := Ideal) x1 (ix1 e) = Cert.Bridge.wrap (Cert.Bridge.dstW x1 e) := by
  rw [val_main_v27_apply, val_main_v24_apply, val_main_v26_apply, val_main_v23_apply, val_main_v25_apply,
    val_main_c_4_apply, val_main_c_5_apply, ref_dst]
  exact HostRead.select_slt_zero_add _ _

/-- The same as a column of start words (%28). -/
theorem wrapCol_v28 (x1 : S2x1600000.Idx → BitVec 32) (e : Fin 1700000) :
    val_main_v28 (F := Ideal) x1 (ix2 e (0 : Fin 1)) = Cert.Bridge.wrap (Cert.Bridge.dstW x1 e) := by
  rw [val_main_v28_apply, show idx_main_v28 (ix2 e (0 : Fin 1)) = ix1 e from
    funext fun a => by match a with | ⟨0, _⟩ => rfl]
  exact wrap_v27 x1 e

/-- The wrapped source words at %35. -/
theorem wrap_v35 (x1 : S2x1600000.Idx → BitVec 32) (e : Fin 1700000) :
    val_main_v35 (F := Ideal) x1 (ix1 e) = Cert.Bridge.wrap (Cert.Bridge.srcW x1 e) := by
  rw [val_main_v35_apply, val_main_v32_apply, val_main_v34_apply, val_main_v31_apply, val_main_v33_apply,
    val_main_c_6_apply, val_main_c_7_apply, ref_src]
  exact HostRead.select_slt_zero_add _ _

/-- The same as a column of start words (%36). -/
theorem wrapCol_v36 (x1 : S2x1600000.Idx → BitVec 32) (e : Fin 1700000) :
    val_main_v36 (F := Ideal) x1 (ix2 e (0 : Fin 1)) = Cert.Bridge.wrap (Cert.Bridge.srcW x1 e) := by
  rw [val_main_v36_apply, show idx_main_v36 (ix2 e (0 : Fin 1)) = ix1 e from
    funext fun a => by match a with | ⟨0, _⟩ => rfl]
  exact wrap_v35 x1 e

/-- The wrapped source words at %53. -/
theorem wrap_v53 (x1 : S2x1600000.Idx → BitVec 32) (e : Fin 1700000) :
    val_main_v53 (F := Ideal) x1 (ix1 e) = Cert.Bridge.wrap (Cert.Bridge.srcW x1 e) := by
  rw [val_main_v53_apply, val_main_v50_apply, val_main_v52_apply, val_main_v49_apply, val_main_v51_apply,
    val_main_c_9_apply, val_main_c_10_apply, ref_src]
  exact HostRead.select_slt_zero_add _ _

/-- The same as a column of start words (%54). -/
theorem wrapCol_v54 (x1 : S2x1600000.Idx → BitVec 32) (e : Fin 1700000) :
    val_main_v54 (F := Ideal) x1 (ix2 e (0 : Fin 1)) = Cert.Bridge.wrap (Cert.Bridge.srcW x1 e) := by
  rw [val_main_v54_apply, show idx_main_v54 (ix2 e (0 : Fin 1)) = ix1 e from
    funext fun a => by match a with | ⟨0, _⟩ => rfl]
  exact wrap_v53 x1 e

/-- The wrapped destination words at %60. -/
theorem wrap_v60 (x1 : S2x1600000.Idx → BitVec 32) (e : Fin 1700000) :
    val_main_v60 (F := Ideal) x1 (ix1 e) = Cert.Bridge.wrap (Cert.Bridge.dstW x1 e) := by
  rw [val_main_v60_apply, val_main_v57_apply, val_main_v59_apply, val_main_v56_apply, val_main_v58_apply,
    val_main_c_11_apply, val_main_c_12_apply, ref_dst]
  exact HostRead.select_slt_zero_add _ _

/-- The same as a column of start words (%61). -/
theorem wrapCol_v61 (x1 : S2x1600000.Idx → BitVec 32) (e : Fin 1700000) :
    val_main_v61 (F := Ideal) x1 (ix2 e (0 : Fin 1)) = Cert.Bridge.wrap (Cert.Bridge.dstW x1 e) := by
  rw [val_main_v61_apply, show idx_main_v61 (ix2 e (0 : Fin 1)) = ix1 e from
    funext fun a => by match a with | ⟨0, _⟩ => rfl]
  exact wrap_v60 x1 e

/-- The wrapped source words at %68. -/
theorem wrap_v68 (x1 : S2x1600000.Idx → BitVec 32) (e : Fin 1700000) :
    val_main_v68 (F := Ideal) x1 (ix1 e) = Cert.Bridge.wrap (Cert.Bridge.srcW x1 e) := by
  rw [val_main_v68_apply, val_main_v65_apply, val_main_v67_apply, val_main_v64_apply, val_main_v66_apply,
    val_main_c_13_apply, val_main_c_14_apply, ref_src]
  exact HostRead.select_slt_zero_add _ _

/-- The same as a column of start words (%69). -/
theorem wrapCol_v69 (x1 : S2x1600000.Idx → BitVec 32) (e : Fin 1700000) :
    val_main_v69 (F := Ideal) x1 (ix2 e (0 : Fin 1)) = Cert.Bridge.wrap (Cert.Bridge.srcW x1 e) := by
  rw [val_main_v69_apply, show idx_main_v69 (ix2 e (0 : Fin 1)) = ix1 e from
    funext fun a => by match a with | ⟨0, _⟩ => rfl]
  exact wrap_v68 x1 e

/-! ## The destination words as columns of scatter indices (read signed, not wrapped, not clamped) -/

/-- The destination words as the degree scatter's index column (%9). -/
theorem dstCol_v9 (x1 : S2x1600000.Idx → BitVec 32) (e : Fin 1700000) :
    val_main_v9 (F := Ideal) x1 (ix2 e (0 : Fin 1)) = Cert.Bridge.dstW x1 e := by
  rw [val_main_v9_apply, show idx_main_v9 (ix2 e (0 : Fin 1)) = ix1 e from
    funext fun a => by match a with | ⟨0, _⟩ => rfl]
  exact ref_dst x1 e

/-- The destination words as the first layer's scatter index column (%42). -/
theorem dstCol_v42 (x1 : S2x1600000.Idx → BitVec 32) (e : Fin 1700000) :
    val_main_v42 (F := Ideal) x1 (ix2 e (0 : Fin 1)) = Cert.Bridge.dstW x1 e := by
  rw [val_main_v42_apply, show idx_main_v42 (ix2 e (0 : Fin 1)) = ix1 e from
    funext fun a => by match a with | ⟨0, _⟩ => rfl]
  exact ref_dst x1 e

/-- The destination words as the second layer's scatter index column (%75). -/
theorem dstCol_v75 (x1 : S2x1600000.Idx → BitVec 32) (e : Fin 1700000) :
    val_main_v75 (F := Ideal) x1 (ix2 e (0 : Fin 1)) = Cert.Bridge.dstW x1 e := by
  rw [val_main_v75_apply, show idx_main_v75 (ix2 e (0 : Fin 1)) = ix1 e from
    funext fun a => by match a with | ⟨0, _⟩ => rfl]
  exact ref_dst x1 e

/-! ## The program's dimension records are the vector / row gather's and scatter's -/

/-- The degree scatter's record (ones into [100000] by a [1700000, 1] column). -/
theorem rec_vecScatter : scatter_S100000_S1700000x1_S1700000_n_0_0_1
    = RowOps.vecScatter 100000 1700000 scatter_S100000_S1700000x1_S1700000_n_0_0_1.wf := rfl

/-- The weight gathers' record ([100000] by a [1700000, 1] column). -/
theorem rec_vecGather : gather_S100000_S1700000x1_S1700000_n_0_n_n_0_1_1
    = HostRead.vecGather 100000 1700000 gather_S100000_S1700000x1_S1700000_n_0_n_n_0_1_1.wf := rfl

/-- The row gathers' record ([100000, 128] by a [1700000, 1] column). -/
theorem rec_rowGather : gather_S100000x128_S1700000x1_S1700000x128_1_0_n_n_0_1_1128
    = RowOps.rowGather 100000 1700000 128 gather_S100000x128_S1700000x1_S1700000x128_1_0_n_n_0_1_1128.wf := rfl

/-- The message scatters' record ([1700000, 128] rows into [100000, 128] by a [1700000, 1] column). -/
theorem rec_rowScatter : scatter_S100000x128_S1700000x1_S1700000x128_1_0_0_1
    = RowOps.rowScatter 100000 1700000 128 scatter_S100000x128_S1700000x1_S1700000x128_1_0_0_1.wf := rfl

/-! ## The clamped rows -/

/-- The row a gather reads for edge e's wrapped source word is the edge's source row. -/
theorem clamp_src (x1 : S2x1600000.Idx → BitVec 32) (e : Fin 1700000)
    (h : min (Cert.Bridge.wrap (Cert.Bridge.srcW x1 e)).toInt.toNat (100000 - 1) < 100000) :
    (⟨min (Cert.Bridge.wrap (Cert.Bridge.srcW x1 e)).toInt.toNat (100000 - 1), h⟩ : Fin 100000) = Cert.Bridge.sRow x1 e := rfl

/-- The row a gather reads for edge e's wrapped destination word is the row at which the destination's weight is looked up. -/
theorem clamp_dst (x1 : S2x1600000.Idx → BitVec 32) (e : Fin 1700000)
    (h : min (Cert.Bridge.wrap (Cert.Bridge.dstW x1 e)).toInt.toNat (100000 - 1) < 100000) :
    (⟨min (Cert.Bridge.wrap (Cert.Bridge.dstW x1 e)).toInt.toNat (100000 - 1), h⟩ : Fin 100000) = Cert.Bridge.dRow x1 e := rfl

end Cert.ReferenceIdeal.RefVal

end
-- ==== Proof.RefDinv.lean ====
/-
  The reference's inverse square-root degrees, at the ideal instance, entry by entry: the destination words (the edge
  list's second row, then the self loops), the count of the edges sent to a node (a scatter-add of ones), and the
  select of its inverse square root where the count is positive, zero elsewhere.
-/
import proofs.«427760_j11510512353338_2_alg».proof.Proof.RefRead
import proofs.«427760_j11510512353338_2_alg».proof.Proof.Bridge
import proofs.«427760_j11510512353338_2_alg».proof.Proof.LibRowOps
import proofs.«427760_j11510512353338_2_alg».proof.Proof.LibHostRead
import proofs.«427760_j11510512353338_2_alg».proof.Proof.RefWords
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefVal

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-! ## Constants, the record of the degree scatter, the destination words as a column -/

/-- The word of the float one denotes the extended real one. -/
theorem one_word_deg : Ideal.ofBits .f32 0x3F800000#32 = 1 := by
  simp [Ideal.ofBits, Ideal.ieee, -EReal.coe_mul]; norm_num

/-- The degree count is a scatter-add into a vector, by one destination word per edge. -/
theorem deg_record : scatter_S100000_S1700000x1_S1700000_n_0_0_1
    = RowOps.vecScatter 100000 1700000 scatter_S100000_S1700000x1_S1700000_n_0_0_1_wf := rfl

/-- The column of destination words at (e, 0) is edge e's destination word. -/
theorem dst_column (x1 : S2x1600000.Idx → BitVec 32) (e : Fin 1700000) :
    val_main_v9 (F := Ideal) x1 (ix2 e (0 : Fin 1)) = Cert.Bridge.dstW x1 e := by
  rw [val_main_v9_apply]
  have h : idx_main_v9 (ix2 e (0 : Fin 1)) = ix1 e := funext fun a => match a with | ⟨0, _⟩ => rfl
  rw [h, ref_dst]

/-! ## The degree -/

/-- The scatter-added count at node i: the number of edges sent to i. -/
theorem deg_read (x1 : S2x1600000.Idx → BitVec 32) (i : Fin 100000) :
    val_main_v10 (F := Ideal) x1 (ix1 i) = Cert.Bridge.deg x1 i := by
  unfold val_main_v10
  refine (HostRead.hostVecScatterAdd_apply _ _ deg_record _ _ _ i).trans ?_
  unfold Cert.Bridge.deg Cert.Spec.into Cert.Bridge.dInt
  rw [val_main_v8_apply, val_main_cst_0_apply, Ideal.ofBits_def, Ideal.ofBits_zero_f32]
  refine congrArg (fun z => (0 : EReal) + z) ?_
  refine Finset.sum_congr ?_ (fun e _ => ?_)
  · ext e
    simp only [Finset.mem_filter, Finset.mem_univ, true_and]
    rw [dst_column]
  · rw [val_main_v7_apply, val_main_cst_apply, Ideal.ofBits_def, one_word_deg]

/-- The degree weight of node i. -/
theorem ref_dinv (x1 : S2x1600000.Idx → BitVec 32) (i : Fin 100000) :
    val_main_v14 (F := Ideal) x1 (ix1 i) = Cert.Bridge.dinv x1 i := by
  rw [val_main_v14_apply, val_main_v12_apply]
  refine (HostRead.select_ogt _ _ _ _).trans ?_
  unfold Cert.Bridge.dinv
  rw [deg_read, val_main_v11_apply, val_main_cst_1_apply, Ideal.ofBits_def, Ideal.ofBits_zero_f32,
    val_main_v13_apply, Ideal.hostUnary_rsqrt_def, deg_read,
    val_main_call0_v1_apply, val_main_call0_v0_apply, val_main_cst_2_apply, Ideal.ofBits_def, Ideal.ofBits_zero_f32]

end Cert.ReferenceIdeal.RefVal

end
-- ==== Proof.RefLayer1.lean ====
/-
  The reference's first graph-convolution layer, at the ideal instance, entry by entry: the dense product of the
  features with the first weights, gathered by the edges' source rows, each message weighted by the source's and the
  destination's degree weight, added up by the destination words, plus the bias row, clamped at zero — Spec.layerR of
  the features.
-/
import proofs.«427760_j11510512353338_2_alg».proof.Proof.RefRead
import proofs.«427760_j11510512353338_2_alg».proof.Proof.Bridge
import proofs.«427760_j11510512353338_2_alg».proof.Proof.LibRowOps
import proofs.«427760_j11510512353338_2_alg».proof.Proof.LibHostRead
import proofs.«427760_j11510512353338_2_alg».proof.Proof.RefWords
import proofs.«427760_j11510512353338_2_alg».proof.Proof.RefDinv
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefVal

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-- The source's degree weight, gathered per edge (%22). -/
theorem srcWeight_v22 (x1 : S2x1600000.Idx → BitVec 32) (e : Fin 1700000) :
    val_main_v22 (F := Ideal) x1 (ix1 e) = Cert.Bridge.dinv x1 (Cert.Bridge.sRow x1 e) := by
  unfold val_main_v22
  refine (HostRead.hostVecGather_apply (by decide) _ _ rec_vecGather _ _ e).trans ?_
  refine (ref_dinv x1 _).trans ?_
  refine congrArg (Cert.Bridge.dinv x1) (Fin.ext ?_)
  show min (val_main_v21 (F := Ideal) x1 (ix2 e (0 : Fin 1))).toInt.toNat (100000 - 1) = _
  rw [wrapCol_v21]
  rfl

/-- The destination's degree weight, gathered per edge (%29). -/
theorem dstWeight_v29 (x1 : S2x1600000.Idx → BitVec 32) (e : Fin 1700000) :
    val_main_v29 (F := Ideal) x1 (ix1 e) = Cert.Bridge.dinv x1 (Cert.Bridge.dRow x1 e) := by
  unfold val_main_v29
  refine (HostRead.hostVecGather_apply (by decide) _ _ rec_vecGather _ _ e).trans ?_
  refine (ref_dinv x1 _).trans ?_
  refine congrArg (Cert.Bridge.dinv x1) (Fin.ext ?_)
  show min (val_main_v28 (F := Ideal) x1 (ix2 e (0 : Fin 1))).toInt.toNat (100000 - 1) = _
  rw [wrapCol_v28]
  rfl

/-- The message weight (%30): the source's weight times the destination's. -/
theorem msgWeight_v30 (x1 : S2x1600000.Idx → BitVec 32) (e : Fin 1700000) :
    val_main_v30 (F := Ideal) x1 (ix1 e)
      = Cert.Bridge.dinv x1 (Cert.Bridge.sRow x1 e) * Cert.Bridge.dinv x1 (Cert.Bridge.dRow x1 e) := by
  rw [val_main_v30_apply, Ideal.mulf_def, srcWeight_v22, dstWeight_v29]

/-- The message weight spread over the 128 columns (%38, %39). -/
theorem msgWeightRow_v39 (x1 : S2x1600000.Idx → BitVec 32) (e : Fin 1700000) (f : Fin 128) :
    val_main_v39 (F := Ideal) x1 (ix2 e f)
      = Cert.Bridge.dinv x1 (Cert.Bridge.sRow x1 e) * Cert.Bridge.dinv x1 (Cert.Bridge.dRow x1 e) := by
  rw [val_main_v39_apply, val_main_v38_apply,
    show idx_main_v38 (idx_main_v39 (ix2 e f)) = ix1 e from funext fun a => by match a with | ⟨0, _⟩ => rfl]
  exact msgWeight_v30 x1 e

/-- The dense product (%15): row i of the features times column f of the first weights. -/
theorem dense_v15 (x0 : S100000x128.Idx → EReal) (x3 : S128x128.Idx → EReal) (i : Fin 100000) (f : Fin 128) :
    val_main_v15 (F := Ideal) x0 x3 (ix2 i f) = Cert.Spec.lin (Cert.Bridge.xF x0) (Cert.Bridge.wF x3) i f := by
  rw [val_main_v15_apply]
  unfold Cert.Spec.lin Cert.Bridge.xF Cert.Bridge.wF
  refine Finset.sum_congr rfl fun k _ => ?_
  rw [show lidx_main_v15 (ix2 i f) k = ix2 i k from
      funext fun a => by match a with | ⟨0, _⟩ => rfl | ⟨1, _⟩ => rfl,
    show ridx_main_v15 (ix2 i f) k = ix2 k f from
      funext fun a => by match a with | ⟨0, _⟩ => rfl | ⟨1, _⟩ => rfl]

/-- The gathered product rows (%37): edge e's row is its source row's. -/
theorem gathered_v37 (x0 : S100000x128.Idx → EReal) (x1 : S2x1600000.Idx → BitVec 32) (x3 : S128x128.Idx → EReal)
    (e : Fin 1700000) (f : Fin 128) :
    val_main_v37 (F := Ideal) x0 x1 x3 (ix2 e f)
      = Cert.Spec.lin (Cert.Bridge.xF x0) (Cert.Bridge.wF x3) (Cert.Bridge.sRow x1 e) f := by
  unfold val_main_v37
  refine (HostRead.hostRowGather_apply (by decide) _ _ rec_rowGather _ _ e f).trans ?_
  refine (dense_v15 x0 x3 _ f).trans ?_
  refine congrArg (fun r => Cert.Spec.lin (Cert.Bridge.xF x0) (Cert.Bridge.wF x3) r f) (Fin.ext ?_)
  show min (val_main_v36 (F := Ideal) x1 (ix2 e (0 : Fin 1))).toInt.toNat (100000 - 1) = _
  rw [wrapCol_v36]
  rfl

/-- The weighted messages (%40): the source row's product entry times the two degree weights. -/
theorem message_v40 (x0 : S100000x128.Idx → EReal) (x1 : S2x1600000.Idx → BitVec 32) (x3 : S128x128.Idx → EReal)
    (e : Fin 1700000) (f : Fin 128) :
    val_main_v40 (F := Ideal) x0 x1 x3 (ix2 e f)
      = Cert.Spec.lin (Cert.Bridge.xF x0) (Cert.Bridge.wF x3) (Cert.Bridge.sRow x1 e) f
          * (Cert.Bridge.dinv x1 (Cert.Bridge.sRow x1 e) * Cert.Bridge.dinv x1 (Cert.Bridge.dRow x1 e)) := by
  rw [val_main_v40_apply, Ideal.mulf_def, gathered_v37, msgWeightRow_v39]

/-- The bias row spread over the nodes (%44, %45). -/
theorem bias_v45 (x4 : S128.Idx → EReal) (n : Fin 100000) (f : Fin 128) :
    val_main_v45 (F := Ideal) x4 (ix2 n f) = Cert.Bridge.bF x4 f := by
  rw [val_main_v45_apply, val_main_v44_apply]
  unfold Cert.Bridge.bF
  exact congrArg x4 (funext fun a => by match a with | ⟨0, _⟩ => rfl)

/-- The aggregated messages (%43): zero plus the sum of the messages of the edges sent to n. -/
theorem agg_v43 (x0 : S100000x128.Idx → EReal) (x1 : S2x1600000.Idx → BitVec 32) (x3 : S128x128.Idx → EReal)
    (n : Fin 100000) (f : Fin 128) :
    val_main_v43 (F := Ideal) x0 x1 x3 (ix2 n f)
      = (0 : EReal) + ∑ e ∈ Cert.Spec.into (Cert.Bridge.dInt x1) n,
          Cert.Spec.lin (Cert.Bridge.xF x0) (Cert.Bridge.wF x3) (Cert.Bridge.sRow x1 e) f
            * (Cert.Bridge.dinv x1 (Cert.Bridge.sRow x1 e) * Cert.Bridge.dinv x1 (Cert.Bridge.dRow x1 e)) := by
  unfold val_main_v43
  refine (HostRead.hostRowScatterAdd_apply _ _ rec_rowScatter _ _ _ n f).trans ?_
  rw [val_main_v41_apply, val_main_cst_8_apply, Ideal.ofBits_def, Ideal.ofBits_zero_f32]
  refine congrArg (fun z => (0 : EReal) + z) ?_
  refine Finset.sum_congr (Finset.filter_congr fun e _ => ?_) (fun e _ => message_v40 x0 x1 x3 e f)
  rw [dstCol_v42]; rfl

/-- The finished first layer at (n, f). -/
theorem ref_h1 (x0 : S100000x128.Idx → EReal) (x1 : S2x1600000.Idx → BitVec 32) (x3 : S128x128.Idx → EReal) (x4 : S128.Idx → EReal)
    (n : Fin 100000) (f : Fin 128) :
    val_main_v47 (F := Ideal) x0 x1 x3 x4 (ix2 n f) = Cert.Bridge.h1R x0 x1 x3 x4 n f := by
  unfold Cert.Bridge.h1R Cert.Spec.layerR
  rw [val_main_v47_apply, val_main_v46_apply, val_main_call1_v0_apply, val_main_call1_cst_apply,
    Ideal.maximumf_def, Ideal.addf_def, Ideal.ofBits_def, Ideal.ofBits_zero_f32, agg_v43, bias_v45]

end Cert.ReferenceIdeal.RefVal

end
-- ==== Proof.RefLayer2.lean ====
/-
  The reference's second graph-convolution layer over ANY finished first layer H, at the ideal instance, entry by
  entry: the dense product of H with the second weights, gathered by the edges' source rows, each message weighted by
  the source's and the destination's degree weight, added up by the destination words, plus the bias row, clamped at
  zero — Spec.layerR.
-/
import proofs.«427760_j11510512353338_2_alg».proof.Proof.RefRead
import proofs.«427760_j11510512353338_2_alg».proof.Proof.Bridge
import proofs.«427760_j11510512353338_2_alg».proof.Proof.LibRowOps
import proofs.«427760_j11510512353338_2_alg».proof.Proof.LibHostRead
import proofs.«427760_j11510512353338_2_alg».proof.Proof.RefWords
import proofs.«427760_j11510512353338_2_alg».proof.Proof.RefDinv
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefVal

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

namespace L2

/-! ## The two gathers read through their start words -/

/-- The degree weights gathered by a column of start words: at edge e whose start word is v, the weight of the row
    v is clamped to. -/
theorem gather_weight (x1 : S2x1600000.Idx → BitVec 32) (col : S1700000x1.Idx → BitVec 32) (e : Fin 1700000)
    (v : BitVec 32) (hcol : col (ix2 e (0 : Fin 1)) = v) :
    Host.gather gather_S100000_S1700000x1_S1700000_n_0_n_n_0_1_1 (val_main_v14 (F := Ideal) x1) col (ix1 e)
      = Cert.Bridge.dinv x1 (Cert.Bridge.row v) := by
  refine (HostRead.hostVecGather_apply (by decide) _ _ rec_vecGather _ _ e).trans ?_
  refine (congrArg (val_main_v14 (F := Ideal) x1) (congrArg ix1 (Fin.ext ?_))).trans (ref_dinv x1 (Cert.Bridge.row v))
  show min (BitVec.toInt (col (ix2 e (0 : Fin 1)))).toNat (100000 - 1) = _
  rw [hcol]
  rfl

/-- The rows of a table gathered by a column of start words: at edge e whose start word is v, column f, the table at
    the row v is clamped to. -/
theorem gather_rows (tbl : S100000x128.Idx → EReal) (col : S1700000x1.Idx → BitVec 32) (e : Fin 1700000) (f : Fin 128)
    (v : BitVec 32) (hcol : col (ix2 e (0 : Fin 1)) = v) :
    Host.gather gather_S100000x128_S1700000x1_S1700000x128_1_0_n_n_0_1_1128 tbl col (ix2 e f)
      = tbl (ix2 (Cert.Bridge.row v) f) := by
  refine (HostRead.hostRowGather_apply (by decide) _ _ rec_rowGather _ _ e f).trans ?_
  refine congrArg tbl (congrArg (fun r : Fin 100000 => ix2 r f) (Fin.ext ?_))
  show min (BitVec.toInt (col (ix2 e (0 : Fin 1)))).toNat (100000 - 1) = _
  rw [hcol]
  rfl

/-! ## The edge weights -/

/-- The source's degree weight of edge e. -/
theorem weight_src (x1 : S2x1600000.Idx → BitVec 32) (e : Fin 1700000) :
    val_main_v55 (F := Ideal) x1 (ix1 e) = Cert.Bridge.dinv x1 (Cert.Bridge.sRow x1 e) := by
  unfold val_main_v55
  exact gather_weight x1 _ e _ (wrapCol_v54 x1 e)

/-- The destination's degree weight of edge e. -/
theorem weight_dst (x1 : S2x1600000.Idx → BitVec 32) (e : Fin 1700000) :
    val_main_v62 (F := Ideal) x1 (ix1 e) = Cert.Bridge.dinv x1 (Cert.Bridge.dRow x1 e) := by
  unfold val_main_v62
  exact gather_weight x1 _ e _ (wrapCol_v61 x1 e)

/-- The weight of edge e's message: the product of the two. -/
theorem weight_edge (x1 : S2x1600000.Idx → BitVec 32) (e : Fin 1700000) :
    val_main_v63 (F := Ideal) x1 (ix1 e)
      = Cert.Bridge.dinv x1 (Cert.Bridge.sRow x1 e) * Cert.Bridge.dinv x1 (Cert.Bridge.dRow x1 e) := by
  rw [val_main_v63_apply, Ideal.mulf_def, weight_src, weight_dst]

/-- The weight broadcast along the message's 128 columns. -/
theorem weight_bcast (x1 : S2x1600000.Idx → BitVec 32) (e : Fin 1700000) (f : Fin 128) :
    val_main_v72 (F := Ideal) x1 (ix2 e f)
      = Cert.Bridge.dinv x1 (Cert.Bridge.sRow x1 e) * Cert.Bridge.dinv x1 (Cert.Bridge.dRow x1 e) := by
  rw [val_main_v72_apply, val_main_v71_apply]
  have e1 : idx_main_v71 (idx_main_v72 (ix2 e f)) = ix1 e := funext fun a => match a with | ⟨0, _⟩ => rfl
  rw [e1, weight_edge]

/-! ## The messages -/

/-- The dense product at (i, f), over a first layer known entry by entry: row i of the first layer times column f of
    the second weights. -/
theorem dense (x0 : S100000x128.Idx → EReal) (x1 : S2x1600000.Idx → BitVec 32) (x3 : S128x128.Idx → EReal) (x4 : S128.Idx → EReal)
    (x5 : S128x128.Idx → EReal) (H : Fin 100000 → Fin 128 → EReal)
    (hH : ∀ (i : Fin 100000) (k : Fin 128), val_main_v47 (F := Ideal) x0 x1 x3 x4 (ix2 i k) = H i k)
    (i : Fin 100000) (f : Fin 128) :
    val_main_v48 (F := Ideal) x0 x1 x3 x4 x5 (ix2 i f) = ∑ k : Fin 128, H i k * x5 (ix2 k f) := by
  rw [val_main_v48_apply]
  refine Finset.sum_congr rfl fun k _ => ?_
  have el : lidx_main_v48 (ix2 i f) k = ix2 i k := funext fun a => match a with | ⟨0, _⟩ => rfl | ⟨1, _⟩ => rfl
  have er : ridx_main_v48 (ix2 i f) k = ix2 k f := funext fun a => match a with | ⟨0, _⟩ => rfl | ⟨1, _⟩ => rfl
  rw [el, er, hH]

/-- The gathered row of edge e at column f: the dense product at the edge's source row. -/
theorem gathered (x0 : S100000x128.Idx → EReal) (x1 : S2x1600000.Idx → BitVec 32) (x3 : S128x128.Idx → EReal) (x4 : S128.Idx → EReal)
    (x5 : S128x128.Idx → EReal) (e : Fin 1700000) (f : Fin 128) :
    val_main_v70 (F := Ideal) x0 x1 x3 x4 x5 (ix2 e f)
      = val_main_v48 (F := Ideal) x0 x1 x3 x4 x5 (ix2 (Cert.Bridge.sRow x1 e) f) := by
  unfold val_main_v70
  exact gather_rows _ _ e f _ (wrapCol_v69 x1 e)

/-- Edge e's message at column f: the gathered row's entry times the edge's weight. -/
theorem message (x0 : S100000x128.Idx → EReal) (x1 : S2x1600000.Idx → BitVec 32) (x3 : S128x128.Idx → EReal) (x4 : S128.Idx → EReal)
    (x5 : S128x128.Idx → EReal) (H : Fin 100000 → Fin 128 → EReal)
    (hH : ∀ (i : Fin 100000) (k : Fin 128), val_main_v47 (F := Ideal) x0 x1 x3 x4 (ix2 i k) = H i k)
    (e : Fin 1700000) (f : Fin 128) :
    val_main_v73 (F := Ideal) x0 x1 x3 x4 x5 (ix2 e f)
      = (∑ k : Fin 128, H (Cert.Bridge.sRow x1 e) k * x5 (ix2 k f))
          * (Cert.Bridge.dinv x1 (Cert.Bridge.sRow x1 e) * Cert.Bridge.dinv x1 (Cert.Bridge.dRow x1 e)) := by
  rw [val_main_v73_apply, Ideal.mulf_def, gathered, dense x0 x1 x3 x4 x5 H hH, weight_bcast]

/-! ## The sum of the messages sent to a node, the bias, the clamp -/

/-- The scatter-added messages at (n, f): zero plus the sum, over the edges sent to n, of their messages at column f. -/
theorem summed (x0 : S100000x128.Idx → EReal) (x1 : S2x1600000.Idx → BitVec 32) (x3 : S128x128.Idx → EReal) (x4 : S128.Idx → EReal)
    (x5 : S128x128.Idx → EReal) (n : Fin 100000) (f : Fin 128) :
    val_main_v76 (F := Ideal) x0 x1 x3 x4 x5 (ix2 n f)
      = (0 : EReal) + ∑ e ∈ Cert.Spec.into (Cert.Bridge.dInt x1) n, val_main_v73 (F := Ideal) x0 x1 x3 x4 x5 (ix2 e f) := by
  unfold val_main_v76
  refine (HostRead.hostRowScatterAdd_apply _ _ rec_rowScatter _ _ _ n f).trans ?_
  rw [val_main_v74_apply, val_main_cst_15_apply, Ideal.ofBits_def, Ideal.ofBits_zero_f32]
  refine congrArg (fun z => (0 : EReal) + z) ?_
  refine Finset.sum_congr ?_ (fun _ _ => rfl)
  ext e
  unfold Cert.Spec.into Cert.Bridge.dInt
  simp only [Finset.mem_filter, Finset.mem_univ, true_and]
  rw [dstCol_v75]

/-- The bias row broadcast over the nodes. -/
theorem bias_bcast (x6 : S128.Idx → EReal) (n : Fin 100000) (f : Fin 128) :
    val_main_v78 (F := Ideal) x6 (ix2 n f) = x6 (ix1 f) := by
  rw [val_main_v78_apply, val_main_v77_apply]
  exact congrArg x6 (funext fun a => match a with | ⟨0, _⟩ => rfl)

/-- The clamp's zero. -/
theorem relu_zero (n : Fin 100000) (f : Fin 128) : val_main_call2_v0 (F := Ideal) (ix2 n f) = 0 := by
  rw [val_main_call2_v0_apply, val_main_call2_cst_apply, Ideal.ofBits_def, Ideal.ofBits_zero_f32]

end L2

open L2

/-- The source's degree weight, gathered per edge for the second layer (%55). -/
theorem srcWeight_v55 (x1 : S2x1600000.Idx → BitVec 32) (e : Fin 1700000) :
    val_main_v55 (F := Ideal) x1 (ix1 e) = Cert.Bridge.dinv x1 (Cert.Bridge.sRow x1 e) := by
  unfold val_main_v55
  refine (HostRead.hostVecGather_apply (by decide) _ _ rec_vecGather _ _ e).trans ?_
  refine (ref_dinv x1 _).trans ?_
  refine congrArg (Cert.Bridge.dinv x1) (Fin.ext ?_)
  show min (val_main_v54 (F := Ideal) x1 (ix2 e (0 : Fin 1))).toInt.toNat (100000 - 1) = _
  rw [wrapCol_v54]
  rfl

/-- The destination's degree weight, gathered per edge for the second layer (%62). -/
theorem dstWeight_v62 (x1 : S2x1600000.Idx → BitVec 32) (e : Fin 1700000) :
    val_main_v62 (F := Ideal) x1 (ix1 e) = Cert.Bridge.dinv x1 (Cert.Bridge.dRow x1 e) := by
  unfold val_main_v62
  refine (HostRead.hostVecGather_apply (by decide) _ _ rec_vecGather _ _ e).trans ?_
  refine (ref_dinv x1 _).trans ?_
  refine congrArg (Cert.Bridge.dinv x1) (Fin.ext ?_)
  show min (val_main_v61 (F := Ideal) x1 (ix2 e (0 : Fin 1))).toInt.toNat (100000 - 1) = _
  rw [wrapCol_v61]
  rfl

/-- The second layer's message weight (%63). -/
theorem msgWeight_v63 (x1 : S2x1600000.Idx → BitVec 32) (e : Fin 1700000) :
    val_main_v63 (F := Ideal) x1 (ix1 e)
      = Cert.Bridge.dinv x1 (Cert.Bridge.sRow x1 e) * Cert.Bridge.dinv x1 (Cert.Bridge.dRow x1 e) := by
  rw [val_main_v63_apply, Ideal.mulf_def, srcWeight_v55, dstWeight_v62]

/-- The second layer's message weight spread over the 128 columns (%71, %72). -/
theorem msgWeightRow_v72 (x1 : S2x1600000.Idx → BitVec 32) (e : Fin 1700000) (f : Fin 128) :
    val_main_v72 (F := Ideal) x1 (ix2 e f)
      = Cert.Bridge.dinv x1 (Cert.Bridge.sRow x1 e) * Cert.Bridge.dinv x1 (Cert.Bridge.dRow x1 e) := by
  rw [val_main_v72_apply, val_main_v71_apply,
    show idx_main_v71 (idx_main_v72 (ix2 e f)) = ix1 e from funext fun a => by match a with | ⟨0, _⟩ => rfl]
  exact msgWeight_v63 x1 e

/-- The second bias row spread over the nodes (%77, %78). -/
theorem bias_v78 (x6 : S128.Idx → EReal) (n : Fin 100000) (f : Fin 128) :
    val_main_v78 (F := Ideal) x6 (ix2 n f) = Cert.Bridge.bF x6 f := by
  rw [val_main_v78_apply, val_main_v77_apply]
  unfold Cert.Bridge.bF
  exact congrArg x6 (funext fun a => by match a with | ⟨0, _⟩ => rfl)

section OverFirstLayer

variable (x0 : S100000x128.Idx → EReal) (x1 : S2x1600000.Idx → BitVec 32) (x3 : S128x128.Idx → EReal) (x4 : S128.Idx → EReal)
  (x5 : S128x128.Idx → EReal) (H : Fin 100000 → Fin 128 → EReal)
  (hH : ∀ (i : Fin 100000) (k : Fin 128), val_main_v47 (F := Ideal) x0 x1 x3 x4 (ix2 i k) = H i k)
include hH

/-- The second dense product (%48): row i of the first layer times column f of the second weights. -/
theorem dense_v48 (i : Fin 100000) (f : Fin 128) :
    val_main_v48 (F := Ideal) x0 x1 x3 x4 x5 (ix2 i f) = Cert.Spec.lin H (Cert.Bridge.wF x5) i f := by
  rw [val_main_v48_apply]
  unfold Cert.Spec.lin Cert.Bridge.wF
  refine Finset.sum_congr rfl fun k _ => ?_
  rw [show lidx_main_v48 (ix2 i f) k = ix2 i k from
      funext fun a => by match a with | ⟨0, _⟩ => rfl | ⟨1, _⟩ => rfl,
    show ridx_main_v48 (ix2 i f) k = ix2 k f from
      funext fun a => by match a with | ⟨0, _⟩ => rfl | ⟨1, _⟩ => rfl, hH]

/-- The gathered second product rows (%70): edge e's row is its source row's. -/
theorem gathered_v70 (e : Fin 1700000) (f : Fin 128) :
    val_main_v70 (F := Ideal) x0 x1 x3 x4 x5 (ix2 e f) = Cert.Spec.lin H (Cert.Bridge.wF x5) (Cert.Bridge.sRow x1 e) f := by
  unfold val_main_v70
  refine (HostRead.hostRowGather_apply (by decide) _ _ rec_rowGather _ _ e f).trans ?_
  refine (dense_v48 x0 x1 x3 x4 x5 H hH _ f).trans ?_
  refine congrArg (fun r => Cert.Spec.lin H (Cert.Bridge.wF x5) r f) (Fin.ext ?_)
  show min (val_main_v69 (F := Ideal) x1 (ix2 e (0 : Fin 1))).toInt.toNat (100000 - 1) = _
  rw [wrapCol_v69]
  rfl

/-- The second layer's weighted messages (%73). -/
theorem message_v73 (e : Fin 1700000) (f : Fin 128) :
    val_main_v73 (F := Ideal) x0 x1 x3 x4 x5 (ix2 e f)
      = Cert.Spec.lin H (Cert.Bridge.wF x5) (Cert.Bridge.sRow x1 e) f
          * (Cert.Bridge.dinv x1 (Cert.Bridge.sRow x1 e) * Cert.Bridge.dinv x1 (Cert.Bridge.dRow x1 e)) := by
  rw [val_main_v73_apply, Ideal.mulf_def, gathered_v70 x0 x1 x3 x4 x5 H hH, msgWeightRow_v72]

/-- The second layer's aggregated messages (%76): zero plus the sum of the messages of the edges sent to n. -/
theorem agg_v76 (n : Fin 100000) (f : Fin 128) :
    val_main_v76 (F := Ideal) x0 x1 x3 x4 x5 (ix2 n f)
      = (0 : EReal) + ∑ e ∈ Cert.Spec.into (Cert.Bridge.dInt x1) n,
          Cert.Spec.lin H (Cert.Bridge.wF x5) (Cert.Bridge.sRow x1 e) f
            * (Cert.Bridge.dinv x1 (Cert.Bridge.sRow x1 e) * Cert.Bridge.dinv x1 (Cert.Bridge.dRow x1 e)) := by
  unfold val_main_v76
  refine (HostRead.hostRowScatterAdd_apply _ _ rec_rowScatter _ _ _ n f).trans ?_
  rw [val_main_v74_apply, val_main_cst_15_apply, Ideal.ofBits_def, Ideal.ofBits_zero_f32]
  refine congrArg (fun z => (0 : EReal) + z) ?_
  refine Finset.sum_congr (Finset.filter_congr fun e _ => ?_) (fun e _ => message_v73 x0 x1 x3 x4 x5 H hH e f)
  rw [dstCol_v75]; rfl

end OverFirstLayer

/-- The second layer at (n, f) over a first layer known entry by entry. -/
theorem ref_layer2 (x0 : S100000x128.Idx → EReal) (x1 : S2x1600000.Idx → BitVec 32) (x3 : S128x128.Idx → EReal) (x4 : S128.Idx → EReal)
    (x5 : S128x128.Idx → EReal) (x6 : S128.Idx → EReal) (H : Fin 100000 → Fin 128 → EReal)
    (hH : ∀ (i : Fin 100000) (k : Fin 128), val_main_v47 (F := Ideal) x0 x1 x3 x4 (ix2 i k) = H i k)
    (n : Fin 100000) (f : Fin 128) :
    val_main_v80 (F := Ideal) x0 x1 x3 x4 x5 x6 (ix2 n f)
      = Cert.Spec.layerR (Cert.Bridge.sRow x1) (Cert.Bridge.dInt x1) (Cert.Bridge.dRow x1) (Cert.Bridge.dinv x1) H
          (Cert.Bridge.wF x5) (Cert.Bridge.bF x6) n f := by
  unfold Cert.Spec.layerR
  rw [val_main_v80_apply, val_main_v79_apply, val_main_call2_v0_apply, val_main_call2_cst_apply,
    Ideal.maximumf_def, Ideal.addf_def, Ideal.ofBits_def, Ideal.ofBits_zero_f32,
    agg_v76 x0 x1 x3 x4 x5 H hH, bias_v78]

end Cert.ReferenceIdeal.RefVal

end
-- ==== Proof.RefH2.lean ====
/-
  The reference's finished second layer is Bridge.h2R of the arguments: its second layer over its first.
-/
import proofs.«427760_j11510512353338_2_alg».proof.Proof.RefRead
import proofs.«427760_j11510512353338_2_alg».proof.Proof.Bridge
import proofs.«427760_j11510512353338_2_alg».proof.Proof.LibRowOps
import proofs.«427760_j11510512353338_2_alg».proof.Proof.RefLayer1
import proofs.«427760_j11510512353338_2_alg».proof.Proof.RefLayer2
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefVal

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-- The finished second layer of the reference at (n, f). -/
theorem ref_h2 (x0 : S100000x128.Idx → EReal) (x1 : S2x1600000.Idx → BitVec 32) (x3 : S128x128.Idx → EReal) (x4 : S128.Idx → EReal)
    (x5 : S128x128.Idx → EReal) (x6 : S128.Idx → EReal) (n : Fin 100000) (f : Fin 128) :
    val_main_v80 (F := Ideal) x0 x1 x3 x4 x5 x6 (ix2 n f) = Cert.Bridge.h2R x0 x1 x3 x4 x5 x6 n f :=
  ref_layer2 x0 x1 x3 x4 x5 x6 (Cert.Bridge.h1R x0 x1 x3 x4) (ref_h1 x0 x1 x3 x4) n f

end Cert.ReferenceIdeal.RefVal

end
-- ==== Proof.RefPool.lean ====
/-
  The reference's pooling and head, at the ideal instance: the per-graph sums of the finished second layer (a
  scatter-add of its rows by the graph ids: a sum over the nodes whose id word is g), the per-graph counts (a
  scatter-add of ones), the quotient by the counts clamped below at one, the head's dense product and bias.
-/
import proofs.«427760_j11510512353338_2_alg».proof.Proof.RefRead
import proofs.«427760_j11510512353338_2_alg».proof.Proof.Bridge
import proofs.«427760_j11510512353338_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefVal

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-! ## Constants and the two scatters' records -/

/-- The word of the float one denotes the extended real one. -/
theorem one_word : Ideal.ofBits .f32 0x3F800000#32 = 1 := by
  simp [Ideal.ofBits, Ideal.ieee, -EReal.coe_mul]; norm_num

/-- The per-graph sums are a row scatter-add of the second layer's rows into a 64 x 128 array of zeros, by the
    column of graph ids. -/
theorem sums_as_row_scatter (x0 : S100000x128.Idx → EReal) (x1 : S2x1600000.Idx → BitVec 32) (x2 : S100000.Idx → BitVec 32)
    (x3 : S128x128.Idx → EReal) (x4 : S128.Idx → EReal) (x5 : S128x128.Idx → EReal) (x6 : S128.Idx → EReal) :
    val_main_v83 (F := Ideal) x0 x1 x2 x3 x4 x5 x6
      = Ideal.hostScatterAdd (RowOps.rowScatter 64 100000 128 scatter_S64x128_S100000x1_S100000x128_1_0_0_1_wf)
          (val_main_v81 (F := Ideal)) (val_main_v82 (F := Ideal) x2) (val_main_v80 (F := Ideal) x0 x1 x3 x4 x5 x6) := rfl

/-- The per-graph counts are a scatter-add of ones into a vector of 64 zeros, by the column of graph ids. -/
theorem cnt_as_vec_scatter (x2 : S100000.Idx → BitVec 32) :
    val_main_v87 (F := Ideal) x2
      = Ideal.hostScatterAdd (RowOps.vecScatter 64 100000 scatter_S64_S100000x1_S100000_n_0_0_1_wf)
          (val_main_v85 (F := Ideal)) (val_main_v86 (F := Ideal) x2) (val_main_v84 (F := Ideal)) := rfl

/-! ## The graph ids as a column -/

theorem ids_column_sums (x2 : S100000.Idx → BitVec 32) (e : Fin 100000) :
    val_main_v82 (F := Ideal) x2 (ix2 e (0 : Fin 1)) = x2 (ix1 e) := by
  rw [val_main_v82_apply]
  exact congrArg x2 (funext fun a => match a with | ⟨0, _⟩ => rfl)

theorem ids_column_cnt (x2 : S100000.Idx → BitVec 32) (e : Fin 100000) :
    val_main_v86 (F := Ideal) x2 (ix2 e (0 : Fin 1)) = x2 (ix1 e) := by
  rw [val_main_v86_apply]
  exact congrArg x2 (funext fun a => match a with | ⟨0, _⟩ => rfl)

/-! ## Sums, counts, mean -/

/-- The scatter-added sums at (g, k): the sum of the second layer's column k over the nodes of graph g. -/
theorem sums_read (x0 : S100000x128.Idx → EReal) (x1 : S2x1600000.Idx → BitVec 32) (x2 : S100000.Idx → BitVec 32)
    (x3 : S128x128.Idx → EReal) (x4 : S128.Idx → EReal) (x5 : S128x128.Idx → EReal) (x6 : S128.Idx → EReal) (g : Fin 64) (k : Fin 128) :
    val_main_v83 (F := Ideal) x0 x1 x2 x3 x4 x5 x6 (ix2 g k)
      = Cert.Spec.sumsR (Cert.Bridge.memG x2) (fun n f => val_main_v80 (F := Ideal) x0 x1 x3 x4 x5 x6 (ix2 n f)) g k := by
  refine (congrFun (sums_as_row_scatter x0 x1 x2 x3 x4 x5 x6) (ix2 g k)).trans ?_
  refine (RowOps.rowScatterAdd_apply _ _ _ _ g k).trans ?_
  unfold Cert.Spec.sumsR
  rw [val_main_v81_apply, val_main_cst_16_apply, Ideal.ofBits_def, Ideal.ofBits_zero_f32]
  refine congrArg (fun z => (0 : EReal) + z) ?_
  refine Finset.sum_congr ?_ (fun _ _ => rfl)
  ext e
  simp only [Finset.mem_filter, Finset.mem_univ, true_and]
  rw [ids_column_sums]
  exact Iff.rfl

/-- The scatter-added counts at g: the number of nodes of graph g. -/
theorem cnt_read (x2 : S100000.Idx → BitVec 32) (g : Fin 64) :
    val_main_v87 (F := Ideal) x2 (ix1 g) = Cert.Spec.cntR (Cert.Bridge.memG x2) g := by
  refine (congrFun (cnt_as_vec_scatter x2) (ix1 g)).trans ?_
  refine (RowOps.vecScatterAdd_apply _ _ _ _ g).trans ?_
  unfold Cert.Spec.cntR
  rw [val_main_v85_apply, val_main_cst_18_apply, Ideal.ofBits_def, Ideal.ofBits_zero_f32]
  refine congrArg (fun z => (0 : EReal) + z) ?_
  refine Finset.sum_congr ?_ (fun e _ => ?_)
  · ext e
    simp only [Finset.mem_filter, Finset.mem_univ, true_and]
    rw [ids_column_cnt]
    exact Iff.rfl
  · rw [val_main_v84_apply, val_main_cst_17_apply, Ideal.ofBits_def, one_word]

/-- The divisor at (g, k): the count of graph g clamped below at one. -/
theorem clamped_cnt_read (x2 : S100000.Idx → BitVec 32) (g : Fin 64) (k : Fin 128) :
    val_main_v91 (F := Ideal) x2 (ix2 g k) = max (Cert.Spec.cntR (Cert.Bridge.memG x2) g) 1 := by
  rw [val_main_v91_apply, val_main_v90_apply]
  have e : idx_main_v90 (idx_main_v91 (ix2 g k)) = ix1 g := funext fun a => match a with | ⟨0, _⟩ => rfl
  rw [e, val_main_v89_apply, Ideal.maximumf_def, cnt_read, val_main_v88_apply, val_main_cst_19_apply, Ideal.ofBits_def, one_word]

/-- The mean at (g, k). -/
theorem mean_read (x0 : S100000x128.Idx → EReal) (x1 : S2x1600000.Idx → BitVec 32) (x2 : S100000.Idx → BitVec 32)
    (x3 : S128x128.Idx → EReal) (x4 : S128.Idx → EReal) (x5 : S128x128.Idx → EReal) (x6 : S128.Idx → EReal) (g : Fin 64) (k : Fin 128) :
    val_main_v92 (F := Ideal) x0 x1 x2 x3 x4 x5 x6 (ix2 g k)
      = Ideal.div (Cert.Spec.sumsR (Cert.Bridge.memG x2) (fun n f => val_main_v80 (F := Ideal) x0 x1 x3 x4 x5 x6 (ix2 n f)) g k)
          (max (Cert.Spec.cntR (Cert.Bridge.memG x2) g) 1) := by
  rw [val_main_v92_apply, Ideal.hostDivf_def, sums_read, clamped_cnt_read]

/-- The reference's result at (g, j): the head over the per-graph sums and counts of its finished second layer. -/
theorem ref_pool (x0 : S100000x128.Idx → EReal) (x1 : S2x1600000.Idx → BitVec 32) (x2 : S100000.Idx → BitVec 32)
    (x3 : S128x128.Idx → EReal) (x4 : S128.Idx → EReal) (x5 : S128x128.Idx → EReal) (x6 : S128.Idx → EReal)
    (x7 : S128x10.Idx → EReal) (x8 : S10.Idx → EReal) (g : Fin 64) (j : Fin 10) :
    val_main_v96 (F := Ideal) x0 x1 x2 x3 x4 x5 x6 x7 x8 (ix2 g j)
      = Cert.Bridge.head x7 x8
          (fun g f => Cert.Spec.sumsR (Cert.Bridge.memG x2) (fun n f => val_main_v80 (F := Ideal) x0 x1 x3 x4 x5 x6 (ix2 n f)) g f)
          (fun g => Cert.Spec.cntR (Cert.Bridge.memG x2) g) g j := by
  rw [val_main_v96_apply, Ideal.addf_def, val_main_v93_apply, val_main_v95_apply, val_main_v94_apply]
  unfold Cert.Bridge.head
  have eb : idx_main_v94 (idx_main_v95 (ix2 g j)) = ix1 j := funext fun a => match a with | ⟨0, _⟩ => rfl
  rw [eb]
  refine congrArg (fun z => z + x8 (ix1 j)) ?_
  refine Finset.sum_congr rfl fun k _ => ?_
  have el : lidx_main_v93 (ix2 g j) k = ix2 g k := funext fun a => match a with | ⟨0, _⟩ => rfl | ⟨1, _⟩ => rfl
  have er : ridx_main_v93 (ix2 g j) k = ix2 k j := funext fun a => match a with | ⟨0, _⟩ => rfl | ⟨1, _⟩ => rfl
  rw [el, er, mean_read]

end Cert.ReferenceIdeal.RefVal

end
-- ==== Proof.RefVal.lean ====
/-
  The reference's result, at the ideal instance, is Bridge.outR of the nine argument arrays: the head over the per-graph
  sums and counts of its finished second layer (RefPool), that layer being Bridge.h2R (RefLayers).
-/
import proofs.«427760_j11510512353338_2_alg».proof.Proof.RefRead
import proofs.«427760_j11510512353338_2_alg».proof.Proof.Bridge
import proofs.«427760_j11510512353338_2_alg».proof.Proof.LibRowOps
import proofs.«427760_j11510512353338_2_alg».proof.Proof.RefH2
import proofs.«427760_j11510512353338_2_alg».proof.Proof.RefPool
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefVal

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-- The reference's result stage is Bridge.outR of the arguments. -/
theorem ref_value (x0 : S100000x128.Idx → EReal) (x1 : S2x1600000.Idx → BitVec 32) (x2 : S100000.Idx → BitVec 32)
    (x3 : S128x128.Idx → EReal) (x4 : S128.Idx → EReal) (x5 : S128x128.Idx → EReal) (x6 : S128.Idx → EReal)
    (x7 : S128x10.Idx → EReal) (x8 : S10.Idx → EReal) :
    val_main_v96 (F := Ideal) x0 x1 x2 x3 x4 x5 x6 x7 x8 = Cert.Bridge.outR x0 x1 x2 x3 x4 x5 x6 x7 x8 := by
  funext j
  obtain ⟨g, jj, rfl⟩ : ∃ (g : Fin 64) (jj : Fin 10), j = ix2 g jj := ⟨j 0, j 1, eq_ix2 j⟩
  rw [ref_pool]
  have hlay : (fun (n : Fin 100000) (f : Fin 128) => val_main_v80 (F := Ideal) x0 x1 x3 x4 x5 x6 (ix2 n f))
      = Cert.Bridge.h2R x0 x1 x3 x4 x5 x6 := by
    funext n f
    exact ref_h2 x0 x1 x3 x4 x5 x6 n f
  rw [hlay]
  rfl

end Cert.ReferenceIdeal.RefVal

end
-- ==== Proof.lean ====
/-
  The certificate of the 2-layer graph-convolution kernel against its reference.

  Frames: the kernel program is eight items — host operations, three pallas_calls and the host operations between them —
  run from the launch memory through the contents between the items; every call's body is run at every grid point, the
  third call keeping its two accumulators between points.  The reference is host operations only.
  Values: at the ideal instance the kernel's result is Bridge.outK of the nine arguments and the reference's is
  Bridge.outR; they are one function because the degree weight of a node is a nonnegative real, by which multiplication
  distributes over a sum of extended reals, and because a tile-by-tile sum of one-hot products is the sum over the nodes
  of each graph.  The ideal pass rewrote nothing, so the kernel's idealization is its own text.
-/
import proofs.«427760_j11510512353338_2_alg».proof.Defs
import proofs.«427760_j11510512353338_2_alg».proof.Proof.Gen.Kernel
import proofs.«427760_j11510512353338_2_alg».proof.Proof.Gen.KernelIdeal
import proofs.«427760_j11510512353338_2_alg».proof.Proof.Gen.ReferenceIdeal
import proofs.«427760_j11510512353338_2_alg».proof.Proof.Gen.Pre_finite_inputs
import proofs.«427760_j11510512353338_2_alg».proof.Proof.K.Whole
import proofs.«427760_j11510512353338_2_alg».proof.Proof.KI.Whole
import proofs.«427760_j11510512353338_2_alg».proof.Proof.KI.Kval
import proofs.«427760_j11510512353338_2_alg».proof.Proof.RefVal
import proofs.«427760_j11510512353338_2_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Fr.frame m ρ

/-- The idealized kernel program runs and leaves its arguments as launched. -/
theorem frame_kernelIdeal : Cert.frame_KernelIdeal (hKernelIdeal := Cert.KernelIdeal.Gen.facts) (hPre_finite_inputs := Cert.Pre_finite_inputs.Gen.facts) :=
  fun m ρ _ => Cert.KernelIdeal.Fr.frame m ρ

/-- The reference runs and leaves its arguments as launched: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- No operation was rewritten by the ideal pass. -/
theorem preserves : Cert.preserves_Kernel_KernelIdeal := trivial

/-- From memories agreeing on the arguments both idealized programs end with the same result array: Bridge.outK of the
    arguments on the kernel's side, Bridge.outR on the reference's, one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Bridge.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun _ h c => ⟨(h c).1.trans (Cert.KernelIdeal.Fr.kernel_value m c), (h c).2⟩)
      (Cert.KernelIdeal.Fr.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v96_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
    exact (Cert.ReferenceIdeal.RefVal.ref_value _ _ _ _ _ _ _ _ _).trans (Cert.Bridge.outK_eq_outR _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
